-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_arg9 : FVec F S32x128 .f32) (main_arg10 : FVec F S32 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : IVec S1x600000 32 := (extractStridedSlice S1x600000 ![1, 0] · slices_S2x600000_S1x600000_1_0) main_arg1
  let main_v45 : IVec S600000 32 := shapeCast S600000 main_v44 shapeCasts_S1x600000_S600000
  let main_c_16 : IVec S_ 32 := constantI S_ 32 0#32
  let main_v46 : IVec S600000 32 := broadcastInDim S600000 ![] bcast_S_S600000 main_c_16
  let main_v47 : IVec S600000 1 := cmpi .sge main_v45 main_v46
  let main_c_17 : IVec S_ 1 := constantI S_ 1 1#1
  let main_v48 : IVec S_ 1 := (fun x v => Host.reduce IntOp.andi x v reducesTo_S600000_S_d0 h_S_) main_v47 main_c_17
  let main_v49 : IVec S_ 1 := andi main_v43 main_v48
  main_v49

def fn_part1 {F : FTy → Type} [FloatOps F] (main_arg1 : IVec S2x600000 32) (main_arg6 : FVec F S128x128 .f32) (main_arg7 : FVec F S128 .f32) (main_arg8 : FVec F S128x128 .f32) (main_arg9 : FVec F S32x128 .f32) (main_arg10 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S32x128 .f32) (main_arg10 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S50048 : Shape := ⟨1, ![50048]⟩
abbrev S64 : Shape := ⟨1, ![64]⟩
abbrev S64x1 : Shape := ⟨2, ![64, 1]⟩
abbrev S1x50048 : Shape := ⟨2, ![1, 50048]⟩
abbrev S64x50048 : Shape := ⟨2, ![64, 50048]⟩
abbrev S50048x128 : Shape := ⟨2, ![50048, 128]⟩
abbrev S64x128 : Shape := ⟨2, ![64, 128]⟩
abbrev S64x2944 : Shape := ⟨2, ![64, 2944]⟩
abbrev S2944x128 : Shape := ⟨2, ![2944, 128]⟩
abbrev S128x32 : Shape := ⟨2, ![128, 32]⟩
abbrev S64x32 : Shape := ⟨2, ![64, 32]⟩
abbrev S1x32 : Shape := ⟨2, ![1, 32]⟩

abbrev nBuf : Space → Nat
  | .hbm => 117
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S32x128, .f32⟩
  | .hbm, ⟨10, _⟩ => ⟨S32, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .bf16⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S50000x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S50000x128, .bf16⟩
  | .hbm, ⟨54, _⟩ => ⟨S_, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .bf16⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S50000x128, .f32⟩
  | .hbm, ⟨75, _⟩ => ⟨S128x128, .f32⟩
  | .hbm, ⟨76, _⟩ => ⟨S128x128, .f32⟩
  | .hbm, ⟨77, _⟩ => ⟨S1x128, .f32⟩
  | .hbm, ⟨78, _⟩ => ⟨S50000x128, .bf16⟩
  | .hbm, ⟨79, _⟩ => ⟨S50048, .i32⟩
  | .hbm, ⟨80, _⟩ => ⟨S_, .i32⟩
  | .hbm, ⟨81, _⟩ => ⟨S50048, .i32⟩
  | .hbm, ⟨82, _⟩ => ⟨S50048, .i1⟩
  | .hbm, ⟨83, _⟩ => ⟨S_, .i32⟩
  | .hbm, ⟨84, _⟩ => ⟨S_, .i32⟩
  | .hbm, ⟨85, _⟩ => ⟨S50048, .i32⟩
  | .hbm, ⟨86, _⟩ => ⟨S64, .i32⟩
  | .hbm, ⟨87, _⟩ => ⟨S64x1, .i32⟩
  | .hbm, ⟨88, _⟩ => ⟨S1x50048, .i32⟩
  | .hbm, ⟨89, _⟩ => ⟨S64x50048, .i32⟩
  | .hbm, ⟨90, _⟩ => ⟨S64x50048, .i32⟩
  | .hbm, ⟨91, _⟩ => ⟨S64x50048, .i1⟩
  | .hbm, ⟨92, _⟩ => ⟨S1x50048, .i1⟩
  | .hbm, ⟨93, _⟩ => ⟨S64x50048, .i1⟩
  | .hbm, ⟨94, _⟩ => ⟨S64x50048, .i1⟩
  | .hbm, ⟨95, _⟩ => ⟨S64x50048, .bf16⟩
  | .hbm, ⟨96, _⟩ => ⟨S_, .i32⟩
  | .hbm, ⟨97, _⟩ => ⟨S_, .bf16⟩
  | .hbm, ⟨98, _⟩ => ⟨S50048x128, .bf16⟩
  | .hbm, ⟨99, _⟩ => ⟨S64x128, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S64, .f32⟩
  | .hbm, ⟨104, _⟩ => ⟨S50000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .hbm, ⟨112, _⟩ => ⟨S128x32, .f32⟩
  | .hbm, ⟨113, _⟩ => ⟨S64x32, .f32⟩
  | .hbm, ⟨114, _⟩ => ⟨S1x32, .f32⟩
  | .hbm, ⟨115, _⟩ => ⟨S64x32, .f32⟩
  | .hbm, ⟨116, _⟩ => ⟨S64x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S64x2944, .bf16⟩
  | .local _ .vmem, ⟨23, _⟩ => ⟨S64x2944, .bf16⟩
  | .local _ .vmem, ⟨24, _⟩ => ⟨S2944x128, .bf16⟩
  | .local _ .vmem, ⟨25, _⟩ => ⟨S2944x128, .bf16⟩
  | .local _ .vmem, ⟨26, _⟩ => ⟨S64x128, .f32⟩
  | .local _ .vmem, ⟨27, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call1_v0 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![17], ![false]⟩

def k2_cond2 (i : grid2.Coords) : BitVec 1 :=
  let arg0 : BitVec 32 := BitVec.ofNat 32 (i 0).val
  let c16_i32 : BitVec 32 := 16#32
  let v13 : BitVec 1 := Scalar.cmpi .eq arg0 c16_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x2944 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2944x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S50048 : S_.BroadcastsInDim S50048 (![] : Fin 0 → Fin S50048.rank)
  pads_S50000_S50048_0480 : S50000.Pads (![0] : Fin 1 → Nat) ![48] ![0] S50048
  h_S_ : 0 < S_.numel
  bcast_S64_S64x1_0 : S64.BroadcastsInDim S64x1 (![0] : Fin 1 → Fin S64x1.rank)
  bcast_S50048_S1x50048_1 : S50048.BroadcastsInDim S1x50048 (![1] : Fin 1 → Fin S1x50048.rank)
  bcast_S64x1_S64x50048_0_1 : S64x1.BroadcastsInDim S64x50048 (![0, 1] : Fin 2 → Fin S64x50048.rank)
  bcast_S1x50048_S64x50048_0_1 : S1x50048.BroadcastsInDim S64x50048 (![0, 1] : Fin 2 → Fin S64x50048.rank)
  pads_S50000x128_S50048x128_0480_000 : S50000x128.Pads (![0, 0] : Fin 2 → Nat) ![48, 0] ![0, 0] S50048x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x2944_S64x2944_0_0 : ∀ a, (![0, 0] : Fin 2 → Nat) a + S64x2944.size a ≤ S64x2944.size a
  h_S64x2944 : 0 < S64x2944.numel
  shapeCasts_S64x2944_S64x2944 : S64x2944.ShapeCasts S64x2944
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  bcast_S_S64 : S_.BroadcastsInDim S64 (![] : Fin 0 → Fin S64.rank)
  bcast_S50000_S50000x1_0 : S50000.BroadcastsInDim S50000x1 (![0] : Fin 1 → Fin S50000x1.rank)
  bcast_S64x1_S64x128_0_1 : S64x1.BroadcastsInDim S64x128 (![0, 1] : Fin 2 → Fin S64x128.rank)
  transposes_S32x128_S128x32_1_0 : S32x128.Transposes [1, 0] S128x32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S64x2944_S2944x128_S64x128_1_0_0_1_n_n_wf : DotDims.WF S64x2944 S2944x128 S64x128 [1] [0] [0] [1] [] []
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2944.size a ≤ S64x50048.size a
  hwx2_0 : ∀ i : grid2.Coords, EltTy.bits .bf16 = 32 ∨ (Rect.block (s := S64x50048) S64x2944.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2944x128.size a ≤ S50048x128.size a
  hwx2_1 : ∀ i : grid2.Coords, EltTy.bits .bf16 = 32 ∨ (Rect.block (s := S50048x128) S2944x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x2944_S2944x128_S64x128_1_0_0_1_n_n : DotDims S64x2944 S2944x128 S64x128 where
  lhsContracting := [1]
  rhsContracting := [0]
  lhsNonContracting := [0]
  rhsNonContracting := [1]
  lhsBatch := []
  rhsBatch := []
  wf := dot_S64x2944_S2944x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v67) S64x2944.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2944x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S64x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x32 : Shape := ⟨2, ![128, 32]⟩
abbrev S64x32 : Shape := ⟨2, ![64, 32]⟩
abbrev S1x32 : Shape := ⟨2, ![1, 32]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S32x128, .f32⟩
  | .hbm, ⟨10, _⟩ => ⟨S32, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S64x128, .f32⟩
  | .hbm, ⟨89, _⟩ => ⟨S50000x1, .i32⟩
  | .hbm, ⟨90, _⟩ => ⟨S64x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S64, .f32⟩
  | .hbm, ⟨95, _⟩ => ⟨S50000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S128x32, .f32⟩
  | .hbm, ⟨104, _⟩ => ⟨S64x32, .f32⟩
  | .hbm, ⟨105, _⟩ => ⟨S1x32, .f32⟩
  | .hbm, ⟨106, _⟩ => ⟨S64x32, .f32⟩
  | .hbm, ⟨107, _⟩ => ⟨S64x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S32x128_S128x32_1_0 : S32x128.Transposes [1, 0] S128x32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.RefRun.lean ====
/- The reference's run and its stage-by-stage reading, brought in for the value proof. -/
import proofs.«421662_j45767171506444_2_alg».proof.Proof.Gen.ReferenceIdeal.Run
import proofs.«421662_j45767171506444_2_alg».proof.Proof.Gen.ReferenceIdeal.Read
-- ==== Proof.Comb0.lean ====
/- The frame half of the first combine region (pipeline 0), at a parameter `V`: the buffer contents the region is
   entered with. Each window's block at a point, what the body leaves in the output window's buffer, the body's
   triple, the pipeline's proof data and its body obligation. -/
import proofs.«421662_j45767171506444_2_alg».proof.Proof.Gen.KernelIdeal.Launch
import proofs.«421662_j45767171506444_2_alg».proof.Proof.Gen.KernelIdeal.Skeleton
import proofs.«421662_j45767171506444_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_a : Rect S5000x128 := Rect.unit (s := S5000x128) ![0, 0] S5000x128.size inb_S5000x128_S5000x128_0_0
abbrev r0_b : Rect S5000x1 := Rect.unit (s := S5000x1) ![0, 0] S5000x1.size inb_S5000x1_S5000x1_0_0
abbrev r0_c : Rect S128x128 := Rect.unit (s := S128x128) ![0, 0] S128x128.size inb_S128x128_S128x128_0_0
abbrev r0_d : Rect S1x128 := Rect.unit (s := S1x128) ![0, 0] S1x128.size inb_S1x128_S1x128_0_0

/-! ## What the body leaves in the output window's buffer -/

/-- Window 6's buffer after the body, from the input windows' blocks: its one store as a piece. -/
def out0_6 (x0 : Vec F S5000x128 .f32) (x1 : Vec F S5000x128 .f32) (x2 : Vec F S5000x1 .f32) (x3 : Vec F S128x128 .f32)
    (x4 : Vec F S128x128 .f32) (x5 : Vec F S1x128 .f32) : Vec F S5000x128 .bf16 :=
  View.canon [⟨r0_a, k0_pay1 (View.ld x0 r0_a) (View.ld x2 r0_b) (View.ld x1 r0_a) (View.ld x3 r0_c) (View.ld x4 r0_c) (View.ld x5 r0_d)⟩]

/-- The store is the whole buffer, so it covers it. -/
theorem cover0_6 (p0 : Vec F S5000x128 .bf16) (y : S5000x128.Idx) :
    ∃ pc ∈ ([⟨r0_a, p0⟩] : List (View.Piece (Elt F) S5000x128 .bf16)), y ∈ pc.1.set :=
  View.cover_of_tiled [⟨r0_a, p0⟩] S5000x128.size (by rfl) y

/-! ## The body's triple -/

set_option maxHeartbeats 4000000 in
/-- The body on whole buffers, the inputs' at read contents `xW` and the output's at anything, runs to the
    continuation holding the inputs' as they were and the output's at `out0_6` of the inputs'. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .bf16) (harg7 : arg7.IsWhole)
    (x0 : Vec F S5000x128 .f32) (x1 : Vec F S5000x128 .f32) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_combine_kernel i arg1 harg1 arg2 harg2 arg3 harg3 arg4 harg4 arg5 harg5 arg6 harg6 arg7 harg7) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t`
    each input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Comb1.lean ====
/- The frame half of the second combine region (pipeline 1), at a parameter `V`: the buffer contents the region is
   entered with. Each window's block at a point, what the body leaves in the output window's buffer, the body's
   triple, the pipeline's proof data and its body obligation. -/
import proofs.«421662_j45767171506444_2_alg».proof.Proof.Gen.KernelIdeal.Launch
import proofs.«421662_j45767171506444_2_alg».proof.Proof.Gen.KernelIdeal.Skeleton
import proofs.«421662_j45767171506444_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S128x128 := Rect.unit (s := S128x128) ![0, 0] S128x128.size inb_S128x128_S128x128_0_0
abbrev r1_d : Rect S1x128 := Rect.unit (s := S1x128) ![0, 0] S1x128.size inb_S1x128_S1x128_0_0

/-! ## What the body leaves in the output window's buffer -/

/-- Window 6's buffer after the body, from the input windows' blocks: its one store as a piece. -/
def out1_6 (x0 : Vec F S5000x128 .f32) (x1 : Vec F S5000x128 .bf16) (x2 : Vec F S5000x1 .f32) (x3 : Vec F S128x128 .f32)
    (x4 : Vec F S128x128 .f32) (x5 : Vec F S1x128 .f32) : Vec F S5000x128 .bf16 :=
  View.canon [⟨r1_a, k1_pay1 (View.ld x0 r1_a) (View.ld x2 r1_b) (View.ld x1 r1_a) (View.ld x3 r1_c) (View.ld x4 r1_c) (View.ld x5 r1_d)⟩]

/-- The store is the whole buffer, so it covers it. -/
theorem cover1_6 (p0 : Vec F S5000x128 .bf16) (y : S5000x128.Idx) :
    ∃ pc ∈ ([⟨r1_a, p0⟩] : List (View.Piece (Elt F) S5000x128 .bf16)), y ∈ pc.1.set :=
  View.cover_of_tiled [⟨r1_a, p0⟩] S5000x128.size (by rfl) y

/-! ## The body's triple -/

set_option maxHeartbeats 4000000 in
/-- The body on whole buffers, the inputs' at read contents `xW` and the output's at anything, runs to the
    continuation holding the inputs' as they were and the output's at `out1_6` of the inputs'. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .bf16) (harg7 : arg7.IsWhole)
    (x0 : Vec F S5000x128 .f32) (x1 : Vec F S5000x128 .bf16) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_combine_kernel i arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t`
    each input's buffer at its block and the output's at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Pool.lean ====
import proofs.«421662_j45767171506444_2_alg».proof.Proof.Gen.KernelIdeal.Launch
import proofs.«421662_j45767171506444_2_alg».proof.Proof.Gen.KernelIdeal.Skeleton
import proofs.«421662_j45767171506444_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The pooling call: the accumulator over the row blocks

The third call runs over 17 grid points. At point `k` it multiplies the `64 × 2944` block `k` of the
assignment matrix by the `2944 × 128` block `k` of the features and adds the product to an accumulator held in a
buffer of its own, which it clears at the first point and copies to the output block at the last. This module
states what the accumulator holds after each point (`accAt2`), the data of the pipeline over it (`dat2`), and
proves the obligation of the body at every point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: at the first point the product of the first two blocks added to
    the cleared accumulator, afterwards the product of the point's blocks added to what the point before left. -/
def accAt2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (accAt2 c n (Nat.lt_of_succ_lt hn)) (iblk2 V c 0 ⟨n + 1, hn⟩) (iblk2 V c 1 ⟨n + 1, hn⟩)

theorem accAt2_zero (c : Dev nD) (hn : 0 < cfg2.N) :
    accAt2 V c 0 hn = k2_pay2 (k2_pay1 (F := F)) (iblk2 V c 0 ⟨0, hn⟩) (iblk2 V c 1 ⟨0, hn⟩) := rfl

theorem accAt2_succ (c : Dev nD) (n : ℕ) (hn : n + 1 < cfg2.N) :
    accAt2 V c (n + 1) hn = k2_pay2 (accAt2 V c n (Nat.lt_of_succ_lt hn)) (iblk2 V c 0 ⟨n + 1, hn⟩) (iblk2 V c 1 ⟨n + 1, hn⟩) := rfl

/-- At a point that is not the first: the point's product added to what the point before left. -/
theorem accAt2_pos (c : Dev nD) (t : Fin cfg2.N) (hz : t.val ≠ 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd rfl hz
  | succ n => rfl

/-! ## The accumulator's buffer among the core's scoped buffers -/

/-- The accumulator's buffer, whole. -/
abbrev scM2 : Memref sig .tc .vmem S64x128 .f32 := Memref.whole cc2_scratch0
/-- The same as a view. -/
abbrev VS2 : View sig .tc .vmem S64x128 .f32 := scM2.view
/-- The one staging buffer of the output window, as a view. -/
abbrev VO2 : View sig .tc .vmem S64x128 .f32 := (Memref.whole cc2_stg2_0 : Memref sig .tc .vmem S64x128 .f32).view

/-- The core's scoped buffers that are no staging buffer of this call, split at the accumulator's buffer: that
    buffer at some contents, the others left unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers, carried unopened through every point. -/
abbrev restBut2 (c : Dev nD) : sProp 𝕄 :=
  Pipeline.scopedRestBut (Ix := Unit) (Name := ℕ) (U := UR sig nD τ) (Lvl := ℕ) (Val := Elt F) spec2 c [cc2_scratch0]

/-- What the call is entered with, the accumulator's buffer named. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; try rfl

/-- The invariant before position `n`: before the first point what the call is entered with; afterwards the
    accumulator's buffer at what the point before left, the other scoped buffers unopened, and the generator
    register at some state. -/
def PhiS (c : Dev nD) : (n : ℕ) → n ≤ cfg2.N → sProp 𝕄
  | 0, _ => Pipeline.ΦA spec2 c
  | n + 1, hn => iprop(iprop(owns (c : Thread nD τ) scM2 fullShare (accAt2 V c n hn) ∗ restBut2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt2 V c n hn) ∗ restBut2 (F := F) c) ∗ (∃ r, prngReg c r)) := rfl

theorem PhiS_pos (c : Dev nD) (n : ℕ) (h : n ≤ cfg2.N) (hz : n ≠ 0) :
    PhiS V c n h = iprop(iprop(owns (c : Thread nD τ) scM2 fullShare (accAt2 V c (n - 1) (by omega)) ∗ restBut2 (F := F) c) ∗ (∃ r, prngReg c r)) := by
  cases n with
  | zero => exact absurd rfl hz
  | succ n => rfl

/-! ## The pipeline's data -/

/-- The data of the call's pipeline on core `c`: the arrays as the call finds them; after the body at point `t`
    each input's buffer at its block and the output's at the accumulator (the output is stored into at the last
    point only: elsewhere this component is consulted by nothing); the invariant `PhiS`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-! ## The body's two conditions, and where the output window is idle -/

/-- The first condition of the body (the accumulator is cleared), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 17 = 0 :=
  (by decide +kernel : ∀ t : Fin grid2.N, cond2_0 (grid2.coords t) ↔ t.val % 17 = 0)

/-- The second condition of the body (the accumulator is copied to the output). -/
abbrev cond2_1 (i : grid2.Coords) : Prop := k2_cond2 i = 1#1
/-- It holds at the last point only. -/
theorem hcond2_1 : ∀ t : Fin cfg2.N, cond2_1 (grid2.coords t) ↔ t.val % 17 = 16 :=
  (by decide +kernel : ∀ t : Fin grid2.N, cond2_1 (grid2.coords t) ↔ t.val % 17 = 16)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second condition fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the output window is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S64x2944 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2944x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-! ## The body's run, case by case -/

set_option maxHeartbeats 1000000 in
/-- THE FIRST POINT (the first condition holds, the second fails): on whole memrefs — the inputs' at their blocks,
    the output's at contents handed back untouched, the accumulator's at anything — the body runs to the
    continuation holding the inputs' as they were, the output's as it was, and the accumulator's with the
    pieces `LS` written: the clearing store, then the update. -/
noncomputable def run2_A (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) :
    { LS : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, fun xi2 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (both conditions fail): as at the first point, the accumulator's memref now at what the point
    before left (`xs`); the pieces: the one update. -/
noncomputable def run2_B (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) :
    { LS : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, fun xi2 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first condition fails, the second holds): the output's memref at anything; the body leaves
    the accumulator's with the pieces `LS` written (the update) and the output's with the pieces `L2` (the copy of the
    accumulator read back). -/
noncomputable def run2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    Σ' (L2 : List (View.Piece (Elt F) S64x128 .f32)), { LS : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What the runs' pieces leave -/

theorem hz2 : (![0, 0] : Fin 2 → Nat) = fun _ => 0 := funext fun a => by fin_cases a <;> rfl

/-- The pieces each run leaves in the accumulator's memref cover it. -/
theorem scover2_A (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) (y : S64x128.Idx) :
    ∃ pc ∈ (run2_A c i arg1 harg1 arg2 harg2 arg3 harg3 arg4 harg4 hc0 hc1 x0 x1).1, y ∈ pc.1.set :=
  View.cover_of_tiledL (run2_A c i arg1 harg1 arg2 harg2 arg3 harg3 arg4 harg4 hc0 hc1 x0 x1).1 S64x128.size (by sl_kernel_rfl) y

theorem scover2_B (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) (y : S64x128.Idx) :
    ∃ pc ∈ (run2_B c i arg1 harg1 arg2 harg2 arg3 harg3 arg4 harg4 hc0 hc1 x0 x1 xs).1, y ∈ pc.1.set :=
  View.cover_of_tiledL (run2_B c i arg1 harg1 arg2 harg2 arg3 harg3 arg4 harg4 hc0 hc1 x0 x1 xs).1 S64x128.size (by sl_kernel_rfl) y

theorem scover2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) (y : S64x128.Idx) :
    ∃ pc ∈ (run2_C c i arg1 harg1 arg2 harg2 arg3 harg3 arg4 harg4 hc0 hc1 x0 x1 xs).2.1, y ∈ pc.1.set :=
  View.cover_of_tiledL (run2_C c i arg1 harg1 arg2 harg2 arg3 harg3 arg4 harg4 hc0 hc1 x0 x1 xs).2.1 S64x128.size (by sl_kernel_rfl) y

/-- The pieces the last point's run leaves in the output's memref cover it. -/
theorem cover2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) (y : S64x128.Idx) :
    ∃ pc ∈ (run2_C c i arg1 harg1 arg2 harg2 arg3 harg3 arg4 harg4 hc0 hc1 x0 x1 xs).1, y ∈ pc.1.set :=
  View.cover_of_tiledL (run2_C c i arg1 harg1 arg2 harg2 arg3 harg3 arg4 harg4 hc0 hc1 x0 x1 xs).1 S64x128.size (by sl_kernel_rfl) y

/-- THE FIRST POINT leaves in the accumulator the blocks' product added to the cleared accumulator: the clearing
    store covers, the load after it reads what it stored, and the update covers again. -/
theorem sout2_A_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) :
    VS2.read (Elt F) (VS2.writes (Elt F) VS2.junk (run2_A c i arg1 harg1 arg2 harg2 arg3 harg3 arg4 harg4 hc0 hc1 x0 x1).1) = k2_pay2 (k2_pay1 (F := F)) x0 x1 := by
  rw [View.read_writes_eq_canon _ _ _ (scover2_A c i arg1 harg1 arg2 harg2 arg3 harg3 arg4 harg4 hc0 hc1 x0 x1)]
  unfold run2_A
  dsimp only
  sl_unfold_words
  rw [View.canon_cons_unit_zero (S := S64x128) hz2, View.readCov_unit_zero (S := S64x128) _ hz2]
  simp only [View.readAt_eq_ld, harg1.read_unread, harg2.read_unread, View.ld_unit_zero (S := S64x2944) hz2, View.ld_unit_zero (S := S2944x128) hz2]

/-- A MIDDLE POINT leaves the blocks' product added to what the accumulator held. -/
theorem sout2_B_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) :
    VS2.read (Elt F) (VS2.writes (Elt F) VS2.junk (run2_B c i arg1 harg1 arg2 harg2 arg3 harg3 arg4 harg4 hc0 hc1 x0 x1 xs).1) = k2_pay2 xs x0 x1 := by
  rw [View.read_writes_eq_canon _ _ _ (scover2_B c i arg1 harg1 arg2 harg2 arg3 harg3 arg4 harg4 hc0 hc1 x0 x1 xs)]
  unfold run2_B
  dsimp only
  sl_unfold_words
  rw [View.canon_unit_zero (S := S64x128) hz2]
  simp only [View.readAt_eq_ld, harg1.read_unread, harg2.read_unread, harg4.read_unread, View.ld_unit_zero (S := S64x2944) hz2, View.ld_unit_zero (S := S2944x128) hz2, View.ld_unit_zero (S := S64x128) hz2]

/-- THE LAST POINT leaves the same in the accumulator, -/
theorem sout2_C_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    VS2.read (Elt F) (VS2.writes (Elt F) VS2.junk (run2_C c i arg1 harg1 arg2 harg2 arg3 harg3 arg4 harg4 hc0 hc1 x0 x1 xs).2.1) = k2_pay2 xs x0 x1 := by
  rw [View.read_writes_eq_canon _ _ _ (scover2_C c i arg1 harg1 arg2 harg2 arg3 harg3 arg4 harg4 hc0 hc1 x0 x1 xs)]
  unfold run2_C
  dsimp only
  sl_unfold_words
  rw [View.canon_unit_zero (S := S64x128) hz2]
  simp only [View.readAt_eq_ld, harg1.read_unread, harg2.read_unread, harg4.read_unread, View.ld_unit_zero (S := S64x2944) hz2, View.ld_unit_zero (S := S2944x128) hz2, View.ld_unit_zero (S := S64x128) hz2]

/-- and, the accumulator read back after that store, the same in the output's memref. -/
theorem out2_C_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    VO2.read (Elt F) (VO2.writes (Elt F) VO2.junk (run2_C c i arg1 harg1 arg2 harg2 arg3 harg3 arg4 harg4 hc0 hc1 x0 x1 xs).1) = k2_pay2 xs x0 x1 := by
  rw [View.read_writes_eq_canon _ _ _ (cover2_C c i arg1 harg1 arg2 harg2 arg3 harg3 arg4 harg4 hc0 hc1 x0 x1 xs)]
  unfold run2_C
  dsimp only
  sl_unfold_words
  rw [View.canon_unit_zero (S := S64x128) hz2, View.readCov_unit_zero (S := S64x128) _ hz2]
  simp only [View.readAt_eq_ld, harg1.read_unread, harg2.read_unread, harg4.read_unread, View.ld_unit_zero (S := S64x2944) hz2, View.ld_unit_zero (S := S2944x128) hz2, View.ld_unit_zero (S := S64x128) hz2]

/-! ## The inputs' buffers hold their blocks -/

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body's obligation at a point -/

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's position says which case it is in.
    At the first point the invariant hands the body the accumulator at anything, afterwards at what the point
    before left; the run leaves it at the point's sum (the pieces' lemmas), which is the invariant after the point.
    The output's buffer is handed back as found, except at the last point, where the run leaves the sum in it. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  have hN : t.val < 17 := lt_of_lt_of_eq t.isLt (show cfg2.N = 17 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 17 = 0
  · have hz : t.val = 0 := by omega
    have h1 : ¬t.val % 17 = 16 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [PhiS_castSucc V c t, PhiS_zero V c _ _ hz, PhiA2_eq]
    rw [show accAt2 V c t.val t.isLt = k2_pay2 (k2_pay1 (F := F)) (iblk2 V c 0 t) (iblk2 V c 1 t) from by
      obtain ⟨n, hn⟩ := t; obtain rfl : n = 0 := hz; rfl]
    iintro ⟨⟨⟨HS0, HR⟩, Hg⟩, Ho, ⟨%d0, H0⟩, ⟨%d1, H1⟩, ⟨%d2, H2⟩⟩
    iapply ((run2_A c (grid2.coords t) (ms2_0 t) (hs2_0 t) (ms2_1 t) (hs2_1 t) (ms2_2 t) (hs2_2 t) scM2 (Memref.isWhole_whole _) hc0 hc1 (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro
          exact (View.read_writes_of_cover _ _ _ _ _ (scover2_A c (grid2.coords t) (ms2_0 t) (hs2_0 t) (ms2_1 t) (hs2_1 t) (ms2_2 t) (hs2_2 t) scM2 (Memref.isWhole_whole _) hc0 hc1 (iblk2 V c 0 t) (iblk2 V c 1 t))).trans
            (sout2_A_eq c (grid2.coords t) (ms2_0 t) (hs2_0 t) (ms2_1 t) (hs2_1 t) (ms2_2 t) (hs2_2 t) scM2 (Memref.isWhole_whole _) hc0 hc1 (iblk2 V c 0 t) (iblk2 V c 1 t))
        iexact HR
      iexact Hg
    isplitl [Ho]; · iexact Ho
    isplitl [H0]; · iexact H0
    isplitl [H1]; · iexact H1
    iexists _; iexact H2
  · have hz : t.val ≠ 0 := by omega
    have hc0 : ¬cond2_0 (grid2.coords t) := fun h => h0 ((hcond2_0 t).mp h)
    rw [accAt2_pos V c t hz]
    rw [PhiS_castSucc V c t, PhiS_pos V c _ _ hz]
    by_cases h1 : t.val % 17 = 16
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [accAt2_pos V c t hz]
      iintro ⟨⟨⟨HS0, HR⟩, Hg⟩, Ho, ⟨%d0, H0⟩, ⟨%d1, H1⟩, ⟨%d2, H2⟩⟩
      iapply ((run2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
              (sout2_C_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
        (out2_C_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, HR⟩, Hg⟩, Ho, ⟨%d0, H0⟩, ⟨%d1, H1⟩, ⟨%d2, H2⟩⟩
      iapply ((run2_B c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover2_B c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
              (sout2_B_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
          iexact HR
        iexact Hg
      isplitl [Ho]; · iexact Ho
      isplitl [H0]; · iexact H0
      isplitl [H1]; · iexact H1
      iexists _; iexact H2

/-- The body's obligation at every point. -/
theorem body_obligation2 (c : Dev nD) : BodyObligation (dat2 (F := F) V c) (defs₀ (F := F)) Variants.none () Set.univ := fun t => by
  rw [bigSep_W2, bigSep_W2]
  exact sound_body V c t

/-- What the call is entered with is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point the invariant gives back what the call was entered with: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 17 := N_2; omega)

end Cert.KernelIdeal.Hand

end
-- ==== Proof.Run.lean ====
import proofs.«421662_j45767171506444_2_alg».proof.Proof.Comb0
import proofs.«421662_j45767171506444_2_alg».proof.Proof.Comb1
import proofs.«421662_j45767171506444_2_alg».proof.Proof.Pool
import proofs.«421662_j45767171506444_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # What the three regions leave, stage by stage

Region 0 is entered at the contents after the first host stretch, which no region has touched; region 1 at contents
that mention what region 0 left; region 2 at contents that mention what regions 0 and 1 left. The three results are
therefore built in this order, each from a family that already holds the earlier ones, and the final family holds
all three. -/

/-- A family of contents read off one valuation per core. -/
def outsOf (W : Dev nD → Valuation τ sig (Elt F)) : Outs (F := F) := fun _ r c => W c (Proc.devRef .tc r)

/-- What region 0 leaves in its output array, from the contents it is entered at. -/
def o33 (c : Dev nD) : Buf (Elt F) ((c : Thread nD τ).loc main_v33) :=
  (dat0 (fun c b => V1 m c b) c).arrAt 6 cfg0.N
/-- The first stage: region 0's result in place. -/
def WA (c : Dev nD) : Valuation τ sig (Elt F) := Function.update (V1 m c) main_v33 (o33 m c)
def outsA : Outs (F := F) := outsOf (WA m)
theorem outsA_33 (c : Dev nD) : outsA m 2 main_v33 c = o33 m c := by
  unfold outsA outsOf WA; exact Function.update_self _ _ _

/-- What region 1 leaves in its output array, entered at contents that hold region 0's result. -/
def o53 (c : Dev nD) : Buf (Elt F) ((c : Thread nD τ).loc main_v53) :=
  (dat1 (fun c b => V3 m (outsA m) c b) c).arrAt 6 cfg1.N
/-- The second stage: the results of regions 0 and 1 in place. -/
def WB (c : Dev nD) : Valuation τ sig (Elt F) := Function.update (WA m c) main_v53 (o53 m c)
def outsB : Outs (F := F) := outsOf (WB m)
theorem outsB_33 (c : Dev nD) : outsB m 2 main_v33 c = o33 m c := by
  unfold outsB outsOf WB
  rw [Function.update_of_ne (StableHlo.devRef_ne_of_ne (by decide) : (Proc.devRef .tc main_v33 : DevRef τ sig) ≠ Proc.devRef .tc main_v53)]
  unfold WA; exact Function.update_self _ _ _
theorem outsB_53 (c : Dev nD) : outsB m 4 main_v53 c = o53 m c := by
  unfold outsB outsOf WB; exact Function.update_self _ _ _

/-- The contents region 1 is entered at depend on a family only through what it holds for region 0's output. -/
theorem V3_congr (o o' : Outs (F := F)) (h : ∀ c, o 2 main_v33 c = o' 2 main_v33 c) : V3 m o = V3 m o' := by
  funext c
  change StableHlo.after hostOps1 (Function.update (V1 m c) main_v33 (o 2 main_v33 c)) = _
  rw [h c]
/-- The contents region 2 is entered at depend on a family only through what it holds for the outputs of regions 0 and 1. -/
theorem V8_congr (o o' : Outs (F := F)) (h : ∀ c, o 2 main_v33 c = o' 2 main_v33 c) (h' : ∀ c, o 4 main_v53 c = o' 4 main_v53 c) :
    V8 m o = V8 m o' := by
  funext c
  change StableHlo.after hostOps2_3 (StableHlo.after hostOps2_2 (StableHlo.after hostOps2_1 (StableHlo.after hostOps2
    (Function.update (StableHlo.after hostOps1 (Function.update (V1 m c) main_v33 (o 2 main_v33 c))) main_v53 (o 4 main_v53 c))))) = _
  rw [h c, h' c]

/-- What region 2 leaves in its output array, entered at contents that hold the results of regions 0 and 1. -/
def o69 (c : Dev nD) : Buf (Elt F) ((c : Thread nD τ).loc main_v69) :=
  (dat2 (fun c b => V8 m (outsB m) c b) c).arrAt 2 cfg2.N
/-- The last stage: all three results in place. -/
def WC (c : Dev nD) : Valuation τ sig (Elt F) := Function.update (WB m c) main_v69 (o69 m c)
/-- WHAT THE REGIONS LEAVE. -/
def outs : Outs (F := F) := outsOf (WC m)

theorem outs_33' (c : Dev nD) : outs m 2 main_v33 c = o33 m c := by
  unfold outs outsOf WC
  rw [Function.update_of_ne (StableHlo.devRef_ne_of_ne (by decide) : (Proc.devRef .tc main_v33 : DevRef τ sig) ≠ Proc.devRef .tc main_v69)]
  exact outsB_33 m c
theorem outs_53' (c : Dev nD) : outs m 4 main_v53 c = o53 m c := by
  unfold outs outsOf WC
  rw [Function.update_of_ne (StableHlo.devRef_ne_of_ne (by decide) : (Proc.devRef .tc main_v53 : DevRef τ sig) ≠ Proc.devRef .tc main_v69)]
  exact outsB_53 m c
theorem outs_69' (c : Dev nD) : outs m 9 main_v69 c = o69 m c := by
  unfold outs outsOf WC; exact Function.update_self _ _ _

theorem V3_outs : V3 m (outs m) = V3 m (outsA m) :=
  V3_congr m _ _ fun c => (outs_33' m c).trans (outsA_33 m c).symm
theorem V8_outs : V8 m (outs m) = V8 m (outsB m) :=
  V8_congr m _ _ (fun c => (outs_33' m c).trans (outsB_33 m c).symm) (fun c => (outs_53' m c).trans (outsB_53 m c).symm)

/-- Region 0's output array ends at what its pipeline's write-backs leave, entered at the contents after the first host stretch. -/
theorem outs_33 (c : Dev nD) : outs m 2 main_v33 c = (dat0 (fun c b => V1 m c b) c).arrAt 6 cfg0.N := outs_33' m c
/-- Region 1's output array ends at what its pipeline's write-backs leave, entered at the contents after the second host stretch. -/
theorem outs_53 (c : Dev nD) : outs m 4 main_v53 c = (dat1 (fun c b => V3 m (outs m) c b) c).arrAt 6 cfg1.N := by
  rw [V3_outs]; exact outs_53' m c
/-- Region 2's output array ends at what its pipeline's write-backs leave, entered at the contents after the host stretches before it. -/
theorem outs_69 (c : Dev nD) : outs m 9 main_v69 c = (dat2 (fun c b => V8 m (outs m) c b) c).arrAt 2 cfg2.N := by
  rw [V8_outs]; exact outs_69' m c

/-! # The proof data family and the thread state -/

/-- Every pipeline's proof data, each at the contents its region is entered at. -/
def pdats : (p : Fin 3) → (c : Dev nD) → Dat τ (Elt F) Unit ℕ (UR sig nD τ) ℕ (Pipeline.pin (pcfgs (F := F)) adm p) c
  | ⟨0, _⟩ => fun c => dat0 (fun c b => V1 m c b) c
  | ⟨1, _⟩ => fun c => dat1 (fun c b => V3 m (outs m) c b) c
  | ⟨2, _⟩ => fun c => dat2 (fun c b => V8 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- An input array of region 0 ends at what it held at entry. -/
theorem hF0_in (c : Dev nD) (w : Fin cfg0.W) (hin : (cfg0.win w).isOut = false) (hne : Pipeline.arrRef spec0 w ∉ ([main_v33] : List (Ref sig .tc))) :
    (dat0 (fun c b => V1 m c b) c).arrAt w cfg0.N = V2 m (outs m) c (Pipeline.arrRef spec0 w) := by
  rw [Dat.arrAt_in _ w hin, A_eq0]
  exact (V2_of m (outs m) c _ hne).symm

/-- A statement about the seven windows, window by window. -/
theorem fin7_cases {P : Fin 7 → Prop} (h0 : P 0) (h1 : P 1) (h2 : P 2) (h3 : P 3) (h4 : P 4) (h5 : P 5) (h6 : P 6) : ∀ w, P w := by
  intro w; fin_cases w <;> assumption
/-- A statement about three windows, window by window. -/
theorem fin3_cases {P : Fin 3 → Prop} (h0 : P 0) (h1 : P 1) (h2 : P 2) : ∀ w, P w := by
  intro w; fin_cases w <;> assumption

/-- After a region, its output array holds what the family says the region leaves there. -/
theorem V2_33 (o : Outs (F := F)) (c : Dev nD) : V2 m o c main_v33 = o 2 main_v33 c := by
  unfold V2; exact Function.update_self _ _ _
theorem V4_53 (o : Outs (F := F)) (c : Dev nD) : V4 m o c main_v53 = o 4 main_v53 c := by
  unfold V4; exact Function.update_self _ _ _
theorem V9_69 (o : Outs (F := F)) (c : Dev nD) : V9 m o c main_v69 = o 9 main_v69 c := by
  unfold V9; exact Function.update_self _ _ _

/-- At region 0's exit each of its arrays holds what the pipeline leaves: an input array what it held at entry, the output
    array the write-backs' fold. -/
theorem hF0 (c : Dev nD) : ∀ w : Fin cfg0.W,
    (dat0 (fun c b => V1 m c b) c).arrAt w cfg0.N = V2 m (outs m) c (Pipeline.arrRef spec0 w) :=
  fin7_cases (P := fun w => (dat0 (fun c b => V1 m c b) c).arrAt w cfg0.N = V2 m (outs m) c (Pipeline.arrRef spec0 w))
    (hF0_in m c 0 rfl (by decide)) (hF0_in m c 1 rfl (by decide)) (hF0_in m c 2 rfl (by decide)) (hF0_in m c 3 rfl (by decide))
    (hF0_in m c 4 rfl (by decide)) (hF0_in m c 5 rfl (by decide))
    ((outs_33 m c).symm.trans (V2_33 m (outs m) c).symm)
/-- Every other buffer holds what it held at entry. -/
theorem hrest0 (c : Dev nD) : ∀ b : Ref sig .tc, b ∉ Finset.univ.image (Pipeline.arrRef spec0) → V2 m (outs m) c b = V1 m c b :=
  fun b hb => V2_of m (outs m) c b fun h => hb (by
    rw [List.mem_singleton] at h; subst h
    exact Finset.mem_image.mpr ⟨6, Finset.mem_univ _, rfl⟩)

/-! ## Region 0 as a segment -/

set_option backward.isDefEq.respectTransparency.types false in
/-- REGION 0 over the thread state: entered from every unscoped buffer at the contents before it, left at the contents after
    it. Its arrays are split out of the unscoped buffers and put back at the exit contents; the generator register goes into
    the region's invariant and comes back; nothing is owed; the region has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- An input array of region 1 ends at what it held at entry. -/
theorem hF1_in (c : Dev nD) (w : Fin cfg1.W) (hin : (cfg1.win w).isOut = false) (hne : Pipeline.arrRef spec1 w ∉ ([main_v53] : List (Ref sig .tc))) :
    (dat1 (fun c b => V3 m (outs m) c b) c).arrAt w cfg1.N = V4 m (outs m) c (Pipeline.arrRef spec1 w) := by
  rw [Dat.arrAt_in _ w hin, A_eq1]
  exact (V4_of m (outs m) c _ hne).symm
/-- At region 1's exit each of its arrays holds what the pipeline leaves. -/
theorem hF1 (c : Dev nD) : ∀ w : Fin cfg1.W,
    (dat1 (fun c b => V3 m (outs m) c b) c).arrAt w cfg1.N = V4 m (outs m) c (Pipeline.arrRef spec1 w) :=
  fin7_cases (P := fun w => (dat1 (fun c b => V3 m (outs m) c b) c).arrAt w cfg1.N = V4 m (outs m) c (Pipeline.arrRef spec1 w))
    (hF1_in m c 0 rfl (by decide)) (hF1_in m c 1 rfl (by decide)) (hF1_in m c 2 rfl (by decide)) (hF1_in m c 3 rfl (by decide))
    (hF1_in m c 4 rfl (by decide)) (hF1_in m c 5 rfl (by decide))
    ((outs_53 m c).symm.trans (V4_53 m (outs m) c).symm)
/-- Every other buffer holds what it held at entry. -/
theorem hrest1 (c : Dev nD) : ∀ b : Ref sig .tc, b ∉ Finset.univ.image (Pipeline.arrRef spec1) → V4 m (outs m) c b = V3 m (outs m) c b :=
  fun b hb => V4_of m (outs m) c b fun h => hb (by
    rw [List.mem_singleton] at h; subst h
    exact Finset.mem_image.mpr ⟨6, Finset.mem_univ _, rfl⟩)

set_option backward.isDefEq.respectTransparency.types false in
/-- REGION 1 over the thread state: entered from every unscoped buffer at the contents before it, left at the contents after
    it. Its arrays are split out of the unscoped buffers and put back at the exit contents; the generator register goes into
    the region's invariant and comes back; nothing is owed; the region has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- An input array of region 2 ends at what it held at entry. -/
theorem hF2_in (c : Dev nD) (w : Fin cfg2.W) (hin : (cfg2.win w).isOut = false) (hne : Pipeline.arrRef spec2 w ∉ ([main_v69] : List (Ref sig .tc))) :
    (dat2 (fun c b => V8 m (outs m) c b) c).arrAt w cfg2.N = V9 m (outs m) c (Pipeline.arrRef spec2 w) := by
  rw [Dat.arrAt_in _ w hin, A_eq2]
  exact (V9_of m (outs m) c _ hne).symm
/-- At region 2's exit each of its arrays holds what the pipeline leaves. -/
theorem hF2 (c : Dev nD) : ∀ w : Fin cfg2.W,
    (dat2 (fun c b => V8 m (outs m) c b) c).arrAt w cfg2.N = V9 m (outs m) c (Pipeline.arrRef spec2 w) :=
  fin3_cases (P := fun w => (dat2 (fun c b => V8 m (outs m) c b) c).arrAt w cfg2.N = V9 m (outs m) c (Pipeline.arrRef spec2 w))
    (hF2_in m c 0 rfl (by decide)) (hF2_in m c 1 rfl (by decide))
    ((outs_69 m c).symm.trans (V9_69 m (outs m) c).symm)
/-- Every other buffer holds what it held at entry. -/
theorem hrest2 (c : Dev nD) : ∀ b : Ref sig .tc, b ∉ Finset.univ.image (Pipeline.arrRef spec2) → V9 m (outs m) c b = V8 m (outs m) c b :=
  fun b hb => V9_of m (outs m) c b fun h => hb (by
    rw [List.mem_singleton] at h; subst h
    exact Finset.mem_image.mpr ⟨2, Finset.mem_univ _, rfl⟩)

set_option backward.isDefEq.respectTransparency.types false in
/-- REGION 2 over the thread state: entered from every unscoped buffer at the contents before it, left at the contents after
    it. Its arrays are split out of the unscoped buffers and put back at the exit contents; the generator register goes into
    the region's invariant and comes back; nothing is owed; the region has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V8 m (outs m) c b) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V8 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V8 m (outs m) c b) c).Φ 0 from rfl]
    iintro ⟨Hp, -, Hr⟩
    iapply (hin2 (fun c b => V8 m (outs m) c b) c)
    unfold Pipeline.ΦA
    isplitl [Hr]; · iexact Hr
    iexact Hp
  hout c := by
    rw [Pipeline.ownSems0_none, show (pdats m 2 c).Φ (Fin.last _) = (dat2 (fun c b => V8 m (outs m) c b) c).Φ (Fin.last cfg2.N) from rfl]
    have h := hout2 (fun c b => V8 m (outs m) c b) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V8 m (outs m) c b) (fun b => V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

set_option backward.isDefEq.respectTransparency.types false in
/-- THE RUN, at any claim about the final memory that follows from every unscoped buffer of every core holding the last
    valuation's contents: every weakly fair execution of @main from memory `m` with zero counters terminates, and every
    final memory satisfies the claim. The host stretches and the three regions chain from the launch's thread state (every
    unscoped buffer at its launch contents, the generator register, nothing owed) to the last one, which is read against the
    final state. -/
theorem run_gen (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = V10 m (outs m) c b) → Q (⟨⟩, s)) :
    θ_run defs (onTc (τ := τ) (main (F := F))) ⟨m, fun _ => 0, ρ⟩ Q := by
  have hlast : ∀ c : Dev nD, (iprop(StableHlo.held (c : Thread nD τ) (Pipeline.ucRefs τ sig) (V10 m (outs m) c) ∗ R c) : sProp 𝕄)
      ⊢ iprop((StableHlo.held (c : Thread nD τ) (Pipeline.ucRefs τ sig) (V10 m (outs m) c) ∗ ∃ r, prngReg c r)
          ∗ ∃ W, owes (c : Thread nD τ) (0 : CellTallies nD τ sig Unit) W) := fun c => by
    iintro ⟨Hh, Hp, HO⟩
    isplitl [Hh Hp]
    · isplitl [Hh] <;> iassumption
    iexact HO
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m))
    (fun c Q => by
      rewrite [main_chain c, Seg.run_eq_chain,
        show (segs m (outs m) Variants.none L lv (fun _ => R) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := hQ)

/-- Every unscoped buffer of every core ends at the last valuation's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) :=
  run_gen m ρ fun _ h => h

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_gen m ρ fun s h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c)⟩

/-- The result array ends at the last valuation's contents there, and every argument array as launched. -/
theorem result_83 (ρ : Dev nD → PrngReg) :
    θ_run defs (onTc (τ := τ) (main (F := F))) ⟨m, fun _ => 0, ρ⟩ (fun r => ∀ c : Dev nD,
      r.2.mem ((c.tc : Thread nD τ).loc main_v83) = V10 m (outs m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_gen m ρ fun s h c =>
    ⟨h c _ (mem_uc main_v83 (by decide)),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c)⟩

end Cert.KernelIdeal.Hand
end
-- ==== Proof.KComb0.lean ====
/- The frame half of the first combine region (pipeline 0), at a parameter `V`: the buffer contents the region is
   entered with. Each window's block at a point, what the body leaves in the output window's buffer, the body's
   triple, the pipeline's proof data and its body obligation. -/
import proofs.«421662_j45767171506444_2_alg».proof.Proof.Gen.Kernel.Launch
import proofs.«421662_j45767171506444_2_alg».proof.Proof.Gen.Kernel.Skeleton
import proofs.«421662_j45767171506444_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_a : Rect S5000x128 := Rect.unit (s := S5000x128) ![0, 0] S5000x128.size inb_S5000x128_S5000x128_0_0
abbrev r0_b : Rect S5000x1 := Rect.unit (s := S5000x1) ![0, 0] S5000x1.size inb_S5000x1_S5000x1_0_0
abbrev r0_c : Rect S128x128 := Rect.unit (s := S128x128) ![0, 0] S128x128.size inb_S128x128_S128x128_0_0
abbrev r0_d : Rect S1x128 := Rect.unit (s := S1x128) ![0, 0] S1x128.size inb_S1x128_S1x128_0_0

/-! ## What the body leaves in the output window's buffer -/

/-- Window 6's buffer after the body, from the input windows' blocks: its one store as a piece. -/
def out0_6 (x0 : Vec F S5000x128 .f32) (x1 : Vec F S5000x128 .f32) (x2 : Vec F S5000x1 .f32) (x3 : Vec F S128x128 .f32)
    (x4 : Vec F S128x128 .f32) (x5 : Vec F S1x128 .f32) : Vec F S5000x128 .bf16 :=
  View.canon [⟨r0_a, k0_pay1 (View.ld x0 r0_a) (View.ld x2 r0_b) (View.ld x1 r0_a) (View.ld x3 r0_c) (View.ld x4 r0_c) (View.ld x5 r0_d)⟩]

/-- The store is the whole buffer, so it covers it. -/
theorem cover0_6 (p0 : Vec F S5000x128 .bf16) (y : S5000x128.Idx) :
    ∃ pc ∈ ([⟨r0_a, p0⟩] : List (View.Piece (Elt F) S5000x128 .bf16)), y ∈ pc.1.set :=
  View.cover_of_tiled [⟨r0_a, p0⟩] S5000x128.size (by rfl) y

/-! ## The body's triple -/

set_option maxHeartbeats 4000000 in
/-- The body on whole buffers, the inputs' at read contents `xW` and the output's at anything, runs to the
    continuation holding the inputs' as they were and the output's at `out0_6` of the inputs'. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .bf16) (harg7 : arg7.IsWhole)
    (x0 : Vec F S5000x128 .f32) (x1 : Vec F S5000x128 .f32) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_combine_kernel i arg1 harg1 arg2 harg2 arg3 harg3 arg4 harg4 arg5 harg5 arg6 harg6 arg7 harg7) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t`
    each input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KComb1.lean ====
/- The frame half of the second combine region (pipeline 1), at a parameter `V`: the buffer contents the region is
   entered with. Each window's block at a point, what the body leaves in the output window's buffer, the body's
   triple, the pipeline's proof data and its body obligation. -/
import proofs.«421662_j45767171506444_2_alg».proof.Proof.Gen.Kernel.Launch
import proofs.«421662_j45767171506444_2_alg».proof.Proof.Gen.Kernel.Skeleton
import proofs.«421662_j45767171506444_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S128x128 := Rect.unit (s := S128x128) ![0, 0] S128x128.size inb_S128x128_S128x128_0_0
abbrev r1_d : Rect S1x128 := Rect.unit (s := S1x128) ![0, 0] S1x128.size inb_S1x128_S1x128_0_0

/-! ## What the body leaves in the output window's buffer -/

/-- Window 6's buffer after the body, from the input windows' blocks: its one store as a piece. -/
def out1_6 (x0 : Vec F S5000x128 .f32) (x1 : Vec F S5000x128 .bf16) (x2 : Vec F S5000x1 .f32) (x3 : Vec F S128x128 .f32)
    (x4 : Vec F S128x128 .f32) (x5 : Vec F S1x128 .f32) : Vec F S5000x128 .bf16 :=
  View.canon [⟨r1_a, k1_pay1 (View.ld x0 r1_a) (View.ld x2 r1_b) (View.ld x1 r1_a) (View.ld x3 r1_c) (View.ld x4 r1_c) (View.ld x5 r1_d)⟩]

/-- The store is the whole buffer, so it covers it. -/
theorem cover1_6 (p0 : Vec F S5000x128 .bf16) (y : S5000x128.Idx) :
    ∃ pc ∈ ([⟨r1_a, p0⟩] : List (View.Piece (Elt F) S5000x128 .bf16)), y ∈ pc.1.set :=
  View.cover_of_tiled [⟨r1_a, p0⟩] S5000x128.size (by rfl) y

/-! ## The body's triple -/

set_option maxHeartbeats 4000000 in
/-- The body on whole buffers, the inputs' at read contents `xW` and the output's at anything, runs to the
    continuation holding the inputs' as they were and the output's at `out1_6` of the inputs'. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .bf16) (harg7 : arg7.IsWhole)
    (x0 : Vec F S5000x128 .f32) (x1 : Vec F S5000x128 .bf16) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_combine_kernel i arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t`
    each input's buffer at its block and the output's at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KPool.lean ====
import proofs.«421662_j45767171506444_2_alg».proof.Proof.Gen.Kernel.Launch
import proofs.«421662_j45767171506444_2_alg».proof.Proof.Gen.Kernel.Skeleton
import proofs.«421662_j45767171506444_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The pooling call: the accumulator over the row blocks

The third call runs over 17 grid points. At point `k` it multiplies the `64 × 2944` block `k` of the
assignment matrix by the `2944 × 128` block `k` of the features and adds the product to an accumulator held in a
buffer of its own, which it clears at the first point and copies to the output block at the last. This module
states what the accumulator holds after each point (`accAt2`), the data of the pipeline over it (`dat2`), and
proves the obligation of the body at every point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: at the first point the product of the first two blocks added to
    the cleared accumulator, afterwards the product of the point's blocks added to what the point before left. -/
def accAt2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (accAt2 c n (Nat.lt_of_succ_lt hn)) (iblk2 V c 0 ⟨n + 1, hn⟩) (iblk2 V c 1 ⟨n + 1, hn⟩)

theorem accAt2_zero (c : Dev nD) (hn : 0 < cfg2.N) :
    accAt2 V c 0 hn = k2_pay2 (k2_pay1 (F := F)) (iblk2 V c 0 ⟨0, hn⟩) (iblk2 V c 1 ⟨0, hn⟩) := rfl

theorem accAt2_succ (c : Dev nD) (n : ℕ) (hn : n + 1 < cfg2.N) :
    accAt2 V c (n + 1) hn = k2_pay2 (accAt2 V c n (Nat.lt_of_succ_lt hn)) (iblk2 V c 0 ⟨n + 1, hn⟩) (iblk2 V c 1 ⟨n + 1, hn⟩) := rfl

/-- At a point that is not the first: the point's product added to what the point before left. -/
theorem accAt2_pos (c : Dev nD) (t : Fin cfg2.N) (hz : t.val ≠ 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd rfl hz
  | succ n => rfl

/-! ## The accumulator's buffer among the core's scoped buffers -/

/-- The accumulator's buffer, whole. -/
abbrev scM2 : Memref sig .tc .vmem S64x128 .f32 := Memref.whole cc2_scratch0
/-- The same as a view. -/
abbrev VS2 : View sig .tc .vmem S64x128 .f32 := scM2.view
/-- The one staging buffer of the output window, as a view. -/
abbrev VO2 : View sig .tc .vmem S64x128 .f32 := (Memref.whole cc2_stg2_0 : Memref sig .tc .vmem S64x128 .f32).view

/-- The core's scoped buffers that are no staging buffer of this call, split at the accumulator's buffer: that
    buffer at some contents, the others left unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers, carried unopened through every point. -/
abbrev restBut2 (c : Dev nD) : sProp 𝕄 :=
  Pipeline.scopedRestBut (Ix := Unit) (Name := ℕ) (U := UR sig nD τ) (Lvl := ℕ) (Val := Elt F) spec2 c [cc2_scratch0]

/-- What the call is entered with, the accumulator's buffer named. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; try rfl

/-- The invariant before position `n`: before the first point what the call is entered with; afterwards the
    accumulator's buffer at what the point before left, the other scoped buffers unopened, and the generator
    register at some state. -/
def PhiS (c : Dev nD) : (n : ℕ) → n ≤ cfg2.N → sProp 𝕄
  | 0, _ => Pipeline.ΦA spec2 c
  | n + 1, hn => iprop(iprop(owns (c : Thread nD τ) scM2 fullShare (accAt2 V c n hn) ∗ restBut2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt2 V c n hn) ∗ restBut2 (F := F) c) ∗ (∃ r, prngReg c r)) := rfl

theorem PhiS_pos (c : Dev nD) (n : ℕ) (h : n ≤ cfg2.N) (hz : n ≠ 0) :
    PhiS V c n h = iprop(iprop(owns (c : Thread nD τ) scM2 fullShare (accAt2 V c (n - 1) (by omega)) ∗ restBut2 (F := F) c) ∗ (∃ r, prngReg c r)) := by
  cases n with
  | zero => exact absurd rfl hz
  | succ n => rfl

/-! ## The pipeline's data -/

/-- The data of the call's pipeline on core `c`: the arrays as the call finds them; after the body at point `t`
    each input's buffer at its block and the output's at the accumulator (the output is stored into at the last
    point only: elsewhere this component is consulted by nothing); the invariant `PhiS`; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-! ## The body's two conditions, and where the output window is idle -/

/-- The first condition of the body (the accumulator is cleared), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 17 = 0 :=
  (by decide +kernel : ∀ t : Fin grid2.N, cond2_0 (grid2.coords t) ↔ t.val % 17 = 0)

/-- The second condition of the body (the accumulator is copied to the output). -/
abbrev cond2_1 (i : grid2.Coords) : Prop := k2_cond2 i = 1#1
/-- It holds at the last point only. -/
theorem hcond2_1 : ∀ t : Fin cfg2.N, cond2_1 (grid2.coords t) ↔ t.val % 17 = 16 :=
  (by decide +kernel : ∀ t : Fin grid2.N, cond2_1 (grid2.coords t) ↔ t.val % 17 = 16)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second condition fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the output window is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S64x2944 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2944x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-! ## The body's run, case by case -/

set_option maxHeartbeats 1000000 in
/-- THE FIRST POINT (the first condition holds, the second fails): on whole memrefs — the inputs' at their blocks,
    the output's at contents handed back untouched, the accumulator's at anything — the body runs to the
    continuation holding the inputs' as they were, the output's as it was, and the accumulator's with the
    pieces `LS` written: the clearing store, then the update. -/
noncomputable def run2_A (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) :
    { LS : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, fun xi2 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (both conditions fail): as at the first point, the accumulator's memref now at what the point
    before left (`xs`); the pieces: the one update. -/
noncomputable def run2_B (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) :
    { LS : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, fun xi2 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first condition fails, the second holds): the output's memref at anything; the body leaves
    the accumulator's with the pieces `LS` written (the update) and the output's with the pieces `L2` (the copy of the
    accumulator read back). -/
noncomputable def run2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    Σ' (L2 : List (View.Piece (Elt F) S64x128 .f32)), { LS : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc2__pool_kernel i arg1 harg1 arg2 harg2 arg3 harg3 arg4 harg4) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What the runs' pieces leave -/

theorem hz2 : (![0, 0] : Fin 2 → Nat) = fun _ => 0 := funext fun a => by fin_cases a <;> rfl

/-- The pieces each run leaves in the accumulator's memref cover it. -/
theorem scover2_A (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) (y : S64x128.Idx) :
    ∃ pc ∈ (run2_A c i arg1 harg1 arg2 harg2 arg3 harg3 arg4 harg4 hc0 hc1 x0 x1).1, y ∈ pc.1.set :=
  View.cover_of_tiledL (run2_A c i arg1 harg1 arg2 harg2 arg3 harg3 arg4 harg4 hc0 hc1 x0 x1).1 S64x128.size (by sl_kernel_rfl) y

theorem scover2_B (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) (y : S64x128.Idx) :
    ∃ pc ∈ (run2_B c i arg1 harg1 arg2 harg2 arg3 harg3 arg4 harg4 hc0 hc1 x0 x1 xs).1, y ∈ pc.1.set :=
  View.cover_of_tiledL (run2_B c i arg1 harg1 arg2 harg2 arg3 harg3 arg4 harg4 hc0 hc1 x0 x1 xs).1 S64x128.size (by sl_kernel_rfl) y

theorem scover2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) (y : S64x128.Idx) :
    ∃ pc ∈ (run2_C c i arg1 harg1 arg2 harg2 arg3 harg3 arg4 harg4 hc0 hc1 x0 x1 xs).2.1, y ∈ pc.1.set :=
  View.cover_of_tiledL (run2_C c i arg1 harg1 arg2 harg2 arg3 harg3 arg4 harg4 hc0 hc1 x0 x1 xs).2.1 S64x128.size (by sl_kernel_rfl) y

/-- The pieces the last point's run leaves in the output's memref cover it. -/
theorem cover2_C (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) (y : S64x128.Idx) :
    ∃ pc ∈ (run2_C c i arg1 harg1 arg2 harg2 arg3 harg3 arg4 harg4 hc0 hc1 x0 x1 xs).1, y ∈ pc.1.set :=
  View.cover_of_tiledL (run2_C c i arg1 harg1 arg2 harg2 arg3 harg3 arg4 harg4 hc0 hc1 x0 x1 xs).1 S64x128.size (by sl_kernel_rfl) y

/-- THE FIRST POINT leaves in the accumulator the blocks' product added to the cleared accumulator: the clearing
    store covers, the load after it reads what it stored, and the update covers again. -/
theorem sout2_A_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : cond2_0 i) (hc1 : ¬cond2_1 i)
    (x0 : Vec F S64x2944 .bf16) (x1 : Vec F S2944x128 .bf16) :
    VS2.read (Elt F) (VS2.writes (Elt F) VS2.junk (run2_A c i arg1 harg1 arg2 harg2 arg3 harg3 arg4 harg4 hc0 hc1 x0 x1).1) = k2_pay2 (k2_pay1 (F := F)) x0 x1 := by
  rw [View.read_writes_eq_canon _ _ _ (scover2_A c i arg1 harg1 arg2 harg2 arg3 harg3 arg4 harg4 hc0 hc1 x0 x1)]
  unfold run2_A
  dsimp only
  sl_unfold_words
  rw [View.canon_cons_unit_zero (S := S64x128) hz2, View.readCov_unit_zero (S := S64x128) _ hz2]
  simp only [View.readAt_eq_ld, harg1.read_unread, harg2.read_unread, View.ld_unit_zero (S := S64x2944) hz2, View.ld_unit_zero (S := S2944x128) hz2]

/-- A MIDDLE POINT leaves the blocks' product added to what the accumulator held. -/
theorem sout2_B_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : ¬cond2_1 i)
    (x0 : Vec F S64x2944 .bf16) (x1 : Vec F S2944x128 .bf16) (xs : Vec F S64x128 .f32) :
    VS2.read (Elt F) (VS2.writes (Elt F) VS2.junk (run2_B c i arg1 harg1 arg2 harg2 arg3 harg3 arg4 harg4 hc0 hc1 x0 x1 xs).1) = k2_pay2 xs x0 x1 := by
  rw [View.read_writes_eq_canon _ _ _ (scover2_B c i arg1 harg1 arg2 harg2 arg3 harg3 arg4 harg4 hc0 hc1 x0 x1 xs)]
  unfold run2_B
  dsimp only
  sl_unfold_words
  rw [View.canon_unit_zero (S := S64x128) hz2]
  simp only [View.readAt_eq_ld, harg1.read_unread, harg2.read_unread, harg4.read_unread, View.ld_unit_zero (S := S64x2944) hz2, View.ld_unit_zero (S := S2944x128) hz2, View.ld_unit_zero (S := S64x128) hz2]

/-- THE LAST POINT leaves the same in the accumulator, -/
theorem sout2_C_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    VS2.read (Elt F) (VS2.writes (Elt F) VS2.junk (run2_C c i arg1 harg1 arg2 harg2 arg3 harg3 arg4 harg4 hc0 hc1 x0 x1 xs).2.1) = k2_pay2 xs x0 x1 := by
  rw [View.read_writes_eq_canon _ _ _ (scover2_C c i arg1 harg1 arg2 harg2 arg3 harg3 arg4 harg4 hc0 hc1 x0 x1 xs)]
  unfold run2_C
  dsimp only
  sl_unfold_words
  rw [View.canon_unit_zero (S := S64x128) hz2]
  simp only [View.readAt_eq_ld, harg1.read_unread, harg2.read_unread, harg4.read_unread, View.ld_unit_zero (S := S64x2944) hz2, View.ld_unit_zero (S := S2944x128) hz2, View.ld_unit_zero (S := S64x128) hz2]

/-- and, the accumulator read back after that store, the same in the output's memref. -/
theorem out2_C_eq (c : Dev nD) (i : grid2.Coords) (arg1 : Memref sig .tc .vmem S64x2944 .bf16) (harg1 : arg1.IsWhole) (arg2 : Memref sig .tc .vmem S2944x128 .bf16) (harg2 : arg2.IsWhole) (arg3 : Memref sig .tc .vmem S64x128 .f32) (harg3 : arg3.IsWhole) (arg4 : Memref sig .tc .vmem S64x128 .f32) (harg4 : arg4.IsWhole) (hc0 : ¬cond2_0 i) (hc1 : cond2_1 i)
    (x0 : Vec F S64x2944 .bf16) (x1 : Vec F S2944x128 .bf16) (xs : Vec F S64x128 .f32) :
    VO2.read (Elt F) (VO2.writes (Elt F) VO2.junk (run2_C c i arg1 harg1 arg2 harg2 arg3 harg3 arg4 harg4 hc0 hc1 x0 x1 xs).1) = k2_pay2 xs x0 x1 := by
  rw [View.read_writes_eq_canon _ _ _ (cover2_C c i arg1 harg1 arg2 harg2 arg3 harg3 arg4 harg4 hc0 hc1 x0 x1 xs)]
  unfold run2_C
  dsimp only
  sl_unfold_words
  rw [View.canon_unit_zero (S := S64x128) hz2, View.readCov_unit_zero (S := S64x128) _ hz2]
  simp only [View.readAt_eq_ld, harg1.read_unread, harg2.read_unread, harg4.read_unread, View.ld_unit_zero (S := S64x2944) hz2, View.ld_unit_zero (S := S2944x128) hz2, View.ld_unit_zero (S := S64x128) hz2]

/-! ## The inputs' buffers hold their blocks -/

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body's obligation at a point -/

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the point's position says which case it is in.
    At the first point the invariant hands the body the accumulator at anything, afterwards at what the point
    before left; the run leaves it at the point's sum (the pieces' lemmas), which is the invariant after the point.
    The output's buffer is handed back as found, except at the last point, where the run leaves the sum in it. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  have hN : t.val < 17 := lt_of_lt_of_eq t.isLt (show cfg2.N = 17 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 17 = 0
  · have hz : t.val = 0 := by omega
    have h1 : ¬t.val % 17 = 16 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [PhiS_castSucc V c t, PhiS_zero V c _ _ hz, PhiA2_eq]
    rw [show accAt2 V c t.val t.isLt = k2_pay2 (k2_pay1 (F := F)) (iblk2 V c 0 t) (iblk2 V c 1 t) from by
      obtain ⟨n, hn⟩ := t; obtain rfl : n = 0 := hz; rfl]
    iintro ⟨⟨⟨HS0, HR⟩, Hg⟩, Ho, ⟨%d0, H0⟩, ⟨%d1, H1⟩, ⟨%d2, H2⟩⟩
    iapply ((run2_A c (grid2.coords t) (ms2_0 t) (hs2_0 t) (ms2_1 t) (hs2_1 t) (ms2_2 t) (hs2_2 t) scM2 (Memref.isWhole_whole _) hc0 hc1 (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro
          exact (View.read_writes_of_cover _ _ _ _ _ (scover2_A c (grid2.coords t) (ms2_0 t) (hs2_0 t) (ms2_1 t) (hs2_1 t) (ms2_2 t) (hs2_2 t) scM2 (Memref.isWhole_whole _) hc0 hc1 (iblk2 V c 0 t) (iblk2 V c 1 t))).trans
            (sout2_A_eq c (grid2.coords t) (ms2_0 t) (hs2_0 t) (ms2_1 t) (hs2_1 t) (ms2_2 t) (hs2_2 t) scM2 (Memref.isWhole_whole _) hc0 hc1 (iblk2 V c 0 t) (iblk2 V c 1 t))
        iexact HR
      iexact Hg
    isplitl [Ho]; · iexact Ho
    isplitl [H0]; · iexact H0
    isplitl [H1]; · iexact H1
    iexists _; iexact H2
  · have hz : t.val ≠ 0 := by omega
    have hc0 : ¬cond2_0 (grid2.coords t) := fun h => h0 ((hcond2_0 t).mp h)
    rw [accAt2_pos V c t hz]
    rw [PhiS_castSucc V c t, PhiS_pos V c _ _ hz]
    by_cases h1 : t.val % 17 = 16
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [accAt2_pos V c t hz]
      iintro ⟨⟨⟨HS0, HR⟩, Hg⟩, Ho, ⟨%d0, H0⟩, ⟨%d1, H1⟩, ⟨%d2, H2⟩⟩
      iapply ((run2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
              (sout2_C_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
        (out2_C_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, HR⟩, Hg⟩, Ho, ⟨%d0, H0⟩, ⟨%d1, H1⟩, ⟨%d2, H2⟩⟩
      iapply ((run2_B c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover2_B c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))).trans
              (sout2_B_eq c (grid2.coords t) (ms2_0 t) (hs2_0 t) (ms2_1 t) (hs2_1 t) (ms2_2 t) (hs2_2 t) scM2 (Memref.isWhole_whole _) hc0 hc1 (iblk2 V c 0 t) (iblk2 V c 1 t) (accAt2 V c (t.val - 1) (Nat.lt_of_le_of_lt (Nat.sub_le _ _) t.isLt)))
          iexact HR
        iexact Hg
      isplitl [Ho]; · iexact Ho
      isplitl [H0]; · iexact H0
      isplitl [H1]; · iexact H1
      iexists _; iexact H2

/-- The body's obligation at every point. -/
theorem body_obligation2 (c : Dev nD) : BodyObligation (dat2 (F := F) V c) (defs₀ (F := F)) Variants.none () Set.univ := fun t => by
  rw [bigSep_W2, bigSep_W2]
  exact sound_body V c t

/-- What the call is entered with is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point the invariant gives back what the call was entered with: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 17 := N_2; omega)

end Cert.Kernel.Hand

end
-- ==== Proof.KRun.lean ====
import proofs.«421662_j45767171506444_2_alg».proof.Proof.KComb0
import proofs.«421662_j45767171506444_2_alg».proof.Proof.KComb1
import proofs.«421662_j45767171506444_2_alg».proof.Proof.KPool
import proofs.«421662_j45767171506444_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # What the three regions leave, stage by stage

Region 0 is entered at the contents after the first host stretch, which no region has touched; region 1 at contents
that mention what region 0 left; region 2 at contents that mention what regions 0 and 1 left. The three results are
therefore built in this order, each from a family that already holds the earlier ones, and the final family holds
all three. -/

/-- A family of contents read off one valuation per core. -/
def outsOf (W : Dev nD → Valuation τ sig (Elt F)) : Outs (F := F) := fun _ r c => W c (Proc.devRef .tc r)

/-- What region 0 leaves in its output array, from the contents it is entered at. -/
def o33 (c : Dev nD) : Buf (Elt F) ((c : Thread nD τ).loc main_v33) :=
  (dat0 (fun c b => V1 m c b) c).arrAt 6 cfg0.N
/-- The first stage: region 0's result in place. -/
def WA (c : Dev nD) : Valuation τ sig (Elt F) := Function.update (V1 m c) main_v33 (o33 m c)
def outsA : Outs (F := F) := outsOf (WA m)
theorem outsA_33 (c : Dev nD) : outsA m 2 main_v33 c = o33 m c := by
  unfold outsA outsOf WA; exact Function.update_self _ _ _

/-- What region 1 leaves in its output array, entered at contents that hold region 0's result. -/
def o53 (c : Dev nD) : Buf (Elt F) ((c : Thread nD τ).loc main_v53) :=
  (dat1 (fun c b => V3 m (outsA m) c b) c).arrAt 6 cfg1.N
/-- The second stage: the results of regions 0 and 1 in place. -/
def WB (c : Dev nD) : Valuation τ sig (Elt F) := Function.update (WA m c) main_v53 (o53 m c)
def outsB : Outs (F := F) := outsOf (WB m)
theorem outsB_33 (c : Dev nD) : outsB m 2 main_v33 c = o33 m c := by
  unfold outsB outsOf WB
  rw [Function.update_of_ne (StableHlo.devRef_ne_of_ne (by decide) : (Proc.devRef .tc main_v33 : DevRef τ sig) ≠ Proc.devRef .tc main_v53)]
  unfold WA; exact Function.update_self _ _ _
theorem outsB_53 (c : Dev nD) : outsB m 4 main_v53 c = o53 m c := by
  unfold outsB outsOf WB; exact Function.update_self _ _ _

/-- The contents region 1 is entered at depend on a family only through what it holds for region 0's output. -/
theorem V3_congr (o o' : Outs (F := F)) (h : ∀ c, o 2 main_v33 c = o' 2 main_v33 c) : V3 m o = V3 m o' := by
  funext c
  change StableHlo.after hostOps1 (Function.update (V1 m c) main_v33 (o 2 main_v33 c)) = _
  rw [h c]
/-- The contents region 2 is entered at depend on a family only through what it holds for the outputs of regions 0 and 1. -/
theorem V8_congr (o o' : Outs (F := F)) (h : ∀ c, o 2 main_v33 c = o' 2 main_v33 c) (h' : ∀ c, o 4 main_v53 c = o' 4 main_v53 c) :
    V8 m o = V8 m o' := by
  funext c
  change StableHlo.after hostOps2_3 (StableHlo.after hostOps2_2 (StableHlo.after hostOps2_1 (StableHlo.after hostOps2
    (Function.update (StableHlo.after hostOps1 (Function.update (V1 m c) main_v33 (o 2 main_v33 c))) main_v53 (o 4 main_v53 c))))) = _
  rw [h c, h' c]

/-- What region 2 leaves in its output array, entered at contents that hold the results of regions 0 and 1. -/
def o69 (c : Dev nD) : Buf (Elt F) ((c : Thread nD τ).loc main_v69) :=
  (dat2 (fun c b => V8 m (outsB m) c b) c).arrAt 2 cfg2.N
/-- The last stage: all three results in place. -/
def WC (c : Dev nD) : Valuation τ sig (Elt F) := Function.update (WB m c) main_v69 (o69 m c)
/-- WHAT THE REGIONS LEAVE. -/
def outs : Outs (F := F) := outsOf (WC m)

theorem outs_33' (c : Dev nD) : outs m 2 main_v33 c = o33 m c := by
  unfold outs outsOf WC
  rw [Function.update_of_ne (StableHlo.devRef_ne_of_ne (by decide) : (Proc.devRef .tc main_v33 : DevRef τ sig) ≠ Proc.devRef .tc main_v69)]
  exact outsB_33 m c
theorem outs_53' (c : Dev nD) : outs m 4 main_v53 c = o53 m c := by
  unfold outs outsOf WC
  rw [Function.update_of_ne (StableHlo.devRef_ne_of_ne (by decide) : (Proc.devRef .tc main_v53 : DevRef τ sig) ≠ Proc.devRef .tc main_v69)]
  exact outsB_53 m c
theorem outs_69' (c : Dev nD) : outs m 9 main_v69 c = o69 m c := by
  unfold outs outsOf WC; exact Function.update_self _ _ _

theorem V3_outs : V3 m (outs m) = V3 m (outsA m) :=
  V3_congr m _ _ fun c => (outs_33' m c).trans (outsA_33 m c).symm
theorem V8_outs : V8 m (outs m) = V8 m (outsB m) :=
  V8_congr m _ _ (fun c => (outs_33' m c).trans (outsB_33 m c).symm) (fun c => (outs_53' m c).trans (outsB_53 m c).symm)

/-- Region 0's output array ends at what its pipeline's write-backs leave, entered at the contents after the first host stretch. -/
theorem outs_33 (c : Dev nD) : outs m 2 main_v33 c = (dat0 (fun c b => V1 m c b) c).arrAt 6 cfg0.N := outs_33' m c
/-- Region 1's output array ends at what its pipeline's write-backs leave, entered at the contents after the second host stretch. -/
theorem outs_53 (c : Dev nD) : outs m 4 main_v53 c = (dat1 (fun c b => V3 m (outs m) c b) c).arrAt 6 cfg1.N := by
  rw [V3_outs]; exact outs_53' m c
/-- Region 2's output array ends at what its pipeline's write-backs leave, entered at the contents after the host stretches before it. -/
theorem outs_69 (c : Dev nD) : outs m 9 main_v69 c = (dat2 (fun c b => V8 m (outs m) c b) c).arrAt 2 cfg2.N := by
  rw [V8_outs]; exact outs_69' m c

/-! # The proof data family and the thread state -/

/-- Every pipeline's proof data, each at the contents its region is entered at. -/
def pdats : (p : Fin 3) → (c : Dev nD) → Dat τ (Elt F) Unit ℕ (UR sig nD τ) ℕ (Pipeline.pin (pcfgs (F := F)) adm p) c
  | ⟨0, _⟩ => fun c => dat0 (fun c b => V1 m c b) c
  | ⟨1, _⟩ => fun c => dat1 (fun c b => V3 m (outs m) c b) c
  | ⟨2, _⟩ => fun c => dat2 (fun c b => V8 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- An input array of region 0 ends at what it held at entry. -/
theorem hF0_in (c : Dev nD) (w : Fin cfg0.W) (hin : (cfg0.win w).isOut = false) (hne : Pipeline.arrRef spec0 w ∉ ([main_v33] : List (Ref sig .tc))) :
    (dat0 (fun c b => V1 m c b) c).arrAt w cfg0.N = V2 m (outs m) c (Pipeline.arrRef spec0 w) := by
  rw [Dat.arrAt_in _ w hin, A_eq0]
  exact (V2_of m (outs m) c _ hne).symm

/-- A statement about the seven windows, window by window. -/
theorem fin7_cases {P : Fin 7 → Prop} (h0 : P 0) (h1 : P 1) (h2 : P 2) (h3 : P 3) (h4 : P 4) (h5 : P 5) (h6 : P 6) : ∀ w, P w := by
  intro w; fin_cases w <;> assumption
/-- A statement about three windows, window by window. -/
theorem fin3_cases {P : Fin 3 → Prop} (h0 : P 0) (h1 : P 1) (h2 : P 2) : ∀ w, P w := by
  intro w; fin_cases w <;> assumption

/-- After a region, its output array holds what the family says the region leaves there. -/
theorem V2_33 (o : Outs (F := F)) (c : Dev nD) : V2 m o c main_v33 = o 2 main_v33 c := by
  unfold V2; exact Function.update_self _ _ _
theorem V4_53 (o : Outs (F := F)) (c : Dev nD) : V4 m o c main_v53 = o 4 main_v53 c := by
  unfold V4; exact Function.update_self _ _ _
theorem V9_69 (o : Outs (F := F)) (c : Dev nD) : V9 m o c main_v69 = o 9 main_v69 c := by
  unfold V9; exact Function.update_self _ _ _

/-- At region 0's exit each of its arrays holds what the pipeline leaves: an input array what it held at entry, the output
    array the write-backs' fold. -/
theorem hF0 (c : Dev nD) : ∀ w : Fin cfg0.W,
    (dat0 (fun c b => V1 m c b) c).arrAt w cfg0.N = V2 m (outs m) c (Pipeline.arrRef spec0 w) :=
  fin7_cases (P := fun w => (dat0 (fun c b => V1 m c b) c).arrAt w cfg0.N = V2 m (outs m) c (Pipeline.arrRef spec0 w))
    (hF0_in m c 0 rfl (by decide)) (hF0_in m c 1 rfl (by decide)) (hF0_in m c 2 rfl (by decide)) (hF0_in m c 3 rfl (by decide))
    (hF0_in m c 4 rfl (by decide)) (hF0_in m c 5 rfl (by decide))
    ((outs_33 m c).symm.trans (V2_33 m (outs m) c).symm)
/-- Every other buffer holds what it held at entry. -/
theorem hrest0 (c : Dev nD) : ∀ b : Ref sig .tc, b ∉ Finset.univ.image (Pipeline.arrRef spec0) → V2 m (outs m) c b = V1 m c b :=
  fun b hb => V2_of m (outs m) c b fun h => hb (by
    rw [List.mem_singleton] at h; subst h
    exact Finset.mem_image.mpr ⟨6, Finset.mem_univ _, rfl⟩)

/-! ## Region 0 as a segment -/

set_option backward.isDefEq.respectTransparency.types false in
/-- REGION 0 over the thread state: entered from every unscoped buffer at the contents before it, left at the contents after
    it. Its arrays are split out of the unscoped buffers and put back at the exit contents; the generator register goes into
    the region's invariant and comes back; nothing is owed; the region has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- An input array of region 1 ends at what it held at entry. -/
theorem hF1_in (c : Dev nD) (w : Fin cfg1.W) (hin : (cfg1.win w).isOut = false) (hne : Pipeline.arrRef spec1 w ∉ ([main_v53] : List (Ref sig .tc))) :
    (dat1 (fun c b => V3 m (outs m) c b) c).arrAt w cfg1.N = V4 m (outs m) c (Pipeline.arrRef spec1 w) := by
  rw [Dat.arrAt_in _ w hin, A_eq1]
  exact (V4_of m (outs m) c _ hne).symm
/-- At region 1's exit each of its arrays holds what the pipeline leaves. -/
theorem hF1 (c : Dev nD) : ∀ w : Fin cfg1.W,
    (dat1 (fun c b => V3 m (outs m) c b) c).arrAt w cfg1.N = V4 m (outs m) c (Pipeline.arrRef spec1 w) :=
  fin7_cases (P := fun w => (dat1 (fun c b => V3 m (outs m) c b) c).arrAt w cfg1.N = V4 m (outs m) c (Pipeline.arrRef spec1 w))
    (hF1_in m c 0 rfl (by decide)) (hF1_in m c 1 rfl (by decide)) (hF1_in m c 2 rfl (by decide)) (hF1_in m c 3 rfl (by decide))
    (hF1_in m c 4 rfl (by decide)) (hF1_in m c 5 rfl (by decide))
    ((outs_53 m c).symm.trans (V4_53 m (outs m) c).symm)
/-- Every other buffer holds what it held at entry. -/
theorem hrest1 (c : Dev nD) : ∀ b : Ref sig .tc, b ∉ Finset.univ.image (Pipeline.arrRef spec1) → V4 m (outs m) c b = V3 m (outs m) c b :=
  fun b hb => V4_of m (outs m) c b fun h => hb (by
    rw [List.mem_singleton] at h; subst h
    exact Finset.mem_image.mpr ⟨6, Finset.mem_univ _, rfl⟩)

set_option backward.isDefEq.respectTransparency.types false in
/-- REGION 1 over the thread state: entered from every unscoped buffer at the contents before it, left at the contents after
    it. Its arrays are split out of the unscoped buffers and put back at the exit contents; the generator register goes into
    the region's invariant and comes back; nothing is owed; the region has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- An input array of region 2 ends at what it held at entry. -/
theorem hF2_in (c : Dev nD) (w : Fin cfg2.W) (hin : (cfg2.win w).isOut = false) (hne : Pipeline.arrRef spec2 w ∉ ([main_v69] : List (Ref sig .tc))) :
    (dat2 (fun c b => V8 m (outs m) c b) c).arrAt w cfg2.N = V9 m (outs m) c (Pipeline.arrRef spec2 w) := by
  rw [Dat.arrAt_in _ w hin, A_eq2]
  exact (V9_of m (outs m) c _ hne).symm
/-- At region 2's exit each of its arrays holds what the pipeline leaves. -/
theorem hF2 (c : Dev nD) : ∀ w : Fin cfg2.W,
    (dat2 (fun c b => V8 m (outs m) c b) c).arrAt w cfg2.N = V9 m (outs m) c (Pipeline.arrRef spec2 w) :=
  fin3_cases (P := fun w => (dat2 (fun c b => V8 m (outs m) c b) c).arrAt w cfg2.N = V9 m (outs m) c (Pipeline.arrRef spec2 w))
    (hF2_in m c 0 rfl (by decide)) (hF2_in m c 1 rfl (by decide))
    ((outs_69 m c).symm.trans (V9_69 m (outs m) c).symm)
/-- Every other buffer holds what it held at entry. -/
theorem hrest2 (c : Dev nD) : ∀ b : Ref sig .tc, b ∉ Finset.univ.image (Pipeline.arrRef spec2) → V9 m (outs m) c b = V8 m (outs m) c b :=
  fun b hb => V9_of m (outs m) c b fun h => hb (by
    rw [List.mem_singleton] at h; subst h
    exact Finset.mem_image.mpr ⟨2, Finset.mem_univ _, rfl⟩)

set_option backward.isDefEq.respectTransparency.types false in
/-- REGION 2 over the thread state: entered from every unscoped buffer at the contents before it, left at the contents after
    it. Its arrays are split out of the unscoped buffers and put back at the exit contents; the generator register goes into
    the region's invariant and comes back; nothing is owed; the region has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V8 m (outs m) c b) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V8 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V8 m (outs m) c b) c).Φ 0 from rfl]
    iintro ⟨Hp, -, Hr⟩
    iapply (hin2 (fun c b => V8 m (outs m) c b) c)
    unfold Pipeline.ΦA
    isplitl [Hr]; · iexact Hr
    iexact Hp
  hout c := by
    rw [Pipeline.ownSems0_none, show (pdats m 2 c).Φ (Fin.last _) = (dat2 (fun c b => V8 m (outs m) c b) c).Φ (Fin.last cfg2.N) from rfl]
    have h := hout2 (fun c b => V8 m (outs m) c b) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V8 m (outs m) c b) (fun b => V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

set_option backward.isDefEq.respectTransparency.types false in
/-- THE RUN, at any claim about the final memory that follows from every unscoped buffer of every core holding the last
    valuation's contents: every weakly fair execution of @main from memory `m` with zero counters terminates, and every
    final memory satisfies the claim. The host stretches and the three regions chain from the launch's thread state (every
    unscoped buffer at its launch contents, the generator register, nothing owed) to the last one, which is read against the
    final state. -/
theorem run_gen (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = V10 m (outs m) c b) → Q (⟨⟩, s)) :
    θ_run defs (onTc (τ := τ) (main (F := F))) ⟨m, fun _ => 0, ρ⟩ Q := by
  have hlast : ∀ c : Dev nD, (iprop(StableHlo.held (c : Thread nD τ) (Pipeline.ucRefs τ sig) (V10 m (outs m) c) ∗ R c) : sProp 𝕄)
      ⊢ iprop((StableHlo.held (c : Thread nD τ) (Pipeline.ucRefs τ sig) (V10 m (outs m) c) ∗ ∃ r, prngReg c r)
          ∗ ∃ W, owes (c : Thread nD τ) (0 : CellTallies nD τ sig Unit) W) := fun c => by
    iintro ⟨Hh, Hp, HO⟩
    isplitl [Hh Hp]
    · isplitl [Hh] <;> iassumption
    iexact HO
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m))
    (fun c Q => by
      rewrite [main_chain c, Seg.run_eq_chain,
        show (segs m (outs m) Variants.none L lv (fun _ => R) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := hQ)

/-- Every unscoped buffer of every core ends at the last valuation's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) :=
  run_gen m ρ fun _ h => h

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_gen m ρ fun s h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c)⟩

/-- The result array ends at the last valuation's contents there, and every argument array as launched. -/
theorem result_83 (ρ : Dev nD → PrngReg) :
    θ_run defs (onTc (τ := τ) (main (F := F))) ⟨m, fun _ => 0, ρ⟩ (fun r => ∀ c : Dev nD,
      r.2.mem ((c.tc : Thread nD τ).loc main_v83) = V10 m (outs m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_gen m ρ fun s h c =>
    ⟨h c _ (mem_uc main_v83 (by decide)),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c)⟩

end Cert.Kernel.Hand
end
-- ==== Proof.PoolValue.lean ====
import proofs.«421662_j45767171506444_2_alg».proof.Proof.Pool
import Idealize.ShloMosaic.Lib.ValueIdx
import Idealize.ShloMosaic.Lib.Pipeline.Value
import Idealize.ShloMosaic.Lib.ValueLayout
import Idealize.ShloMosaic.PureOps.Ideal.Laws

/-! # The pooling call's value: the whole matrix product

At the ideal values the accumulator after point `n` holds, at row `g` and column `j`, the sum over the rows
`r < 2944 · (n + 1)` of the assignment matrix's entry `(g, r)` times the features' entry `(r, j)`: each point adds
the product of its two blocks, which is the stretch of that sum over the point's 2944 rows. The output array is
written once, after the last point, with the accumulator: the sum over all 50048 rows. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at an index -/

/-- The product of a `64 × 2944` by a `2944 × 128` block into the zero accumulator, read at an index: the sum over
    the contracted coordinate of the entries' products. -/
theorem matmul_zero_apply (A : FVec Ideal S64x2944 .bf16) (B : FVec Ideal S2944x128 .bf16) (a : Fin 64) (b : Fin 128) :
    matmul dot_S64x2944_S2944x128_S64x128_1_0_0_1_n_n none A B (constant S64x128 .f32 0x00000000#32) (ix2 a b)
      = ∑ k : Fin 2944, A (ix2 a k) * B (ix2 k b) := by
  show FloatOps.matmul _ none A B _ (ix2 a b) = _
  rw [Ideal.matmul_constant_zero_apply, ← Equiv.sum_comp (contrEquiv1 dot_S64x2944_S2944x128_S64x128_1_0_0_1_n_n 2944 rfl rfl).symm]
  refine Finset.sum_congr rfl fun k _ => ?_
  have hk := contrEquiv1_symm_val dot_S64x2944_S2944x128_S64x128_1_0_0_1_n_n 2944 rfl rfl k
  have hl : dot_S64x2944_S2944x128_S64x128_1_0_0_1_n_n.lhsIdx (ix2 a b) ((contrEquiv1 _ 2944 rfl rfl).symm k) = ix2 a k := by
    funext ax; apply Fin.ext
    match ax with
    | ⟨0, _⟩ => simp [DotDims.lhsIdx, dot_S64x2944_S2944x128_S64x128_1_0_0_1_n_n]; rfl
    | ⟨1, _⟩ => simp [DotDims.lhsIdx, dot_S64x2944_S2944x128_S64x128_1_0_0_1_n_n]; exact hk
  have hr : dot_S64x2944_S2944x128_S64x128_1_0_0_1_n_n.rhsIdx (ix2 a b) ((contrEquiv1 _ 2944 rfl rfl).symm k) = ix2 k b := by
    funext ax; apply Fin.ext
    match ax with
    | ⟨0, _⟩ => simp [DotDims.rhsIdx, dot_S64x2944_S2944x128_S64x128_1_0_0_1_n_n]; exact hk
    | ⟨1, _⟩ => simp [DotDims.rhsIdx, dot_S64x2944_S2944x128_S64x128_1_0_0_1_n_n]; rfl
  rw [hl, hr]

/-- The update at an index: what the accumulator held plus the blocks' product there. -/
theorem poolPay2_apply (x : Vec Ideal S64x128 .f32) (A : Vec Ideal S64x2944 .bf16) (B : Vec Ideal S2944x128 .bf16) (g : Fin 64) (j : Fin 128) :
    k2_pay2 (F := Ideal) x A B (ix2 g j) = x (ix2 g j) + ∑ k : Fin 2944, A (ix2 g k) * B (ix2 k j) := by
  unfold k2_pay2
  simp only [shapeCast_self]
  exact congrArg (x (ix2 g j) + ·) (matmul_zero_apply A B g j)

/-- The cleared accumulator is zero everywhere. -/
theorem poolPay1_apply (g : Fin 64) (j : Fin 128) : k2_pay1 (F := Ideal) (ix2 g j) = 0 := by
  unfold k2_pay1
  simp only [shapeCast_self]
  exact Ideal.ofBits_zero_f32

/-! ## The blocks at an index -/

/-- The assignment matrix, the features, and their blocks at a point, at their literal types. -/
abbrev oh (c : Dev nD) : Vec Ideal S64x50048 .bf16 := V c main_v67
abbrev hp (c : Dev nD) : Vec Ideal S50048x128 .bf16 := V c main_v68
abbrev blkA (c : Dev nD) (t : Fin cfg2.N) : Vec Ideal S64x2944 .bf16 := iblk2 V c 0 t
abbrev blkB (c : Dev nD) (t : Fin cfg2.N) : Vec Ideal S2944x128 .bf16 := iblk2 V c 1 t

/-- At point `t` the first window is on block `(0, t)`, the second on block `(t, 0)`. -/
theorem index2_0 : ∀ t : Fin cfg2.N, win2_0.index t 0 = 0 ∧ win2_0.index t 1 = t.val :=
  (by decide +kernel : ∀ t : Fin grid2.N, win2_0.index t 0 = 0 ∧ win2_0.index t 1 = t.val)
theorem index2_1 : ∀ t : Fin cfg2.N, win2_1.index t 0 = t.val ∧ win2_1.index t 1 = 0 :=
  (by decide +kernel : ∀ t : Fin grid2.N, win2_1.index t 0 = t.val ∧ win2_1.index t 1 = 0)

/-- Row `k` of block `t` is a row of the arrays. -/
theorem row_lt (t : Fin cfg2.N) (k : Fin 2944) : 2944 * t.val + k.val < 50048 := by
  have : t.val < 17 := lt_of_lt_of_eq t.isLt N_2
  omega

/-- The first block at point `t` holds the columns `2944 t + k` of the assignment matrix, -/
theorem blkA_apply (c : Dev nD) (t : Fin cfg2.N) (g : Fin 64) (k : Fin 2944) :
    blkA V c t (ix2 g k) = oh V c (ix2 g ⟨2944 * t.val + k.val, row_lt t k⟩) := by
  have hi := index2_0 t
  show iblk2 V c 0 t (ix2 g k) = _
  unfold iblk2
  rw [View.read_apply]
  show V c main_v67 _ = V c main_v67 _
  congr 1
  funext a
  apply Fin.ext
  match a with
  | ⟨0, _⟩ => show win2_0.index t 0 * 64 + 1 * g.val = g.val; rw [hi.1]; omega
  | ⟨1, _⟩ => show win2_0.index t 1 * 2944 + 1 * k.val = 2944 * t.val + k.val; rw [hi.2]; omega

/-- the second the rows `2944 t + k` of the features. -/
theorem blkB_apply (c : Dev nD) (t : Fin cfg2.N) (k : Fin 2944) (j : Fin 128) :
    blkB V c t (ix2 k j) = hp V c (ix2 ⟨2944 * t.val + k.val, row_lt t k⟩ j) := by
  have hi := index2_1 t
  show iblk2 V c 1 t (ix2 k j) = _
  unfold iblk2
  rw [View.read_apply]
  show V c main_v68 _ = V c main_v68 _
  congr 1
  funext a
  apply Fin.ext
  match a with
  | ⟨0, _⟩ => show win2_1.index t 0 * 2944 + 1 * k.val = 2944 * t.val + k.val; rw [hi.1]; omega
  | ⟨1, _⟩ => show win2_1.index t 1 * 128 + 1 * j.val = j.val; rw [hi.2]; omega

/-! ## The accumulator is the partial sum over the rows -/

/-- The summand of row `r`: the entries' product (zero past the last row, where no row is). -/
def term (c : Dev nD) (g : Fin 64) (j : Fin 128) (r : ℕ) : EReal :=
  if h : r < 50048 then oh V c (ix2 g ⟨r, h⟩) * hp V c (ix2 ⟨r, h⟩ j) else 0

/-- The product of the entries `k` of the blocks at point `t` is the summand of row `2944 t + k`. -/
theorem blk_term (c : Dev nD) (t : Fin cfg2.N) (g : Fin 64) (j : Fin 128) (k : Fin 2944) :
    blkA V c t (ix2 g k) * blkB V c t (ix2 k j) = term V c g j (2944 * t.val + k.val) := by
  rw [blkA_apply, blkB_apply]
  unfold term
  rw [dif_pos (row_lt t k)]

/-- After point `n` the accumulator holds the sum of the summands of the rows below `2944 (n + 1)`: by induction on
    the point, each point adding its stretch of 2944 rows. -/
theorem acc_eq (c : Dev nD) (g : Fin 64) (j : Fin 128) :
    ∀ (n : ℕ) (hn : n < cfg2.N), accAt2 V c n hn (ix2 g j) = ∑ r ∈ Finset.range (2944 * (n + 1)), term V c g j r
  | 0, hn => by
    rw [accAt2_zero]
    refine (poolPay2_apply (k2_pay1 (F := Ideal)) (blkA V c ⟨0, hn⟩) (blkB V c ⟨0, hn⟩) g j).trans ?_
    rw [poolPay1_apply, zero_add, ← Fin.sum_univ_eq_sum_range]
    refine Finset.sum_congr rfl fun k _ => ?_
    refine (blk_term V c ⟨0, hn⟩ g j k).trans ?_
    show term V c g j (2944 * 0 + k.val) = term V c g j k.val
    rw [Nat.mul_zero, Nat.zero_add]
  | n + 1, hn => by
    rw [accAt2_succ]
    refine (poolPay2_apply (accAt2 V c n (Nat.lt_of_succ_lt hn)) (blkA V c ⟨n + 1, hn⟩) (blkB V c ⟨n + 1, hn⟩) g j).trans ?_
    rw [acc_eq c g j n (Nat.lt_of_succ_lt hn), show 2944 * (n + 1 + 1) = 2944 * (n + 1) + 2944 from by omega, Finset.sum_range_add]
    refine congrArg (_ + ·) ?_
    rw [← Fin.sum_univ_eq_sum_range (fun x => term V c g j (2944 * (n + 1) + x))]
    exact Finset.sum_congr rfl fun k _ => blk_term V c ⟨n + 1, hn⟩ g j k

/-- The summands of all the rows are the entries' products over the row index. -/
theorem sum_rows (c : Dev nD) (g : Fin 64) (j : Fin 128) :
    ∑ r ∈ Finset.range 50048, term V c g j r = ∑ n : Fin 50048, oh V c (ix2 g n) * hp V c (ix2 n j) := by
  rw [← Fin.sum_univ_eq_sum_range]
  refine Finset.sum_congr rfl fun n _ => ?_
  unfold term
  rw [dif_pos n.isLt]

/-! ## The output array -/

/-- The last point, the only one that writes the output back. -/
def tLast : Fin cfg2.N := ⟨16, by rw [show cfg2.N = 17 from N_2]; decide⟩

/-- What the output array ends holding: the accumulator after the last point. -/
abbrev result (c : Dev nD) : Buf (Elt Ideal) ((c : Thread nD τ).loc main_v69) := accAt2 V c 16 tLast.isLt

/-- The output's one block sits at offset zero on both axes and is as large as the array. -/
theorem blockLast : ∀ a : Fin 2, win2_2.index tLast a * win2_2.size a = 0
    ∧ win2_2.xsize (grid2.coords tLast) a = main_v69.ty.shape.size a := by decide +kernel

/-- The one write-back writes the accumulator: the block read off the array through zero offsets is the array. -/
theorem flushed_eq (c : Dev nD) (t : Fin cfg2.N) (hf : (cfg2.win 2).flush t = true) :
    (dat2 V c).flushed 2 t = ((cfg2.win 2).blk t).view.read (Elt Ideal) (result V c) := by
  have hN : cfg2.N = 17 := N_2
  have h16 : t.val = 16 := by
    have := (flush2_2 t).mp hf
    have := t.isLt
    omega
  obtain rfl : t = tLast := Fin.ext h16
  show (cfg2.win 2).cut (grid2.coords tLast) ((dat2 V c).after 2 tLast) = _
  rw [after2_2]
  have hz' : (fun a => win2_2.index tLast a * main_v69.ty.shape.size a) = fun _ => 0 :=
    funext fun a => (blockLast a).1
  exact (Memref.read_access_unit_zero (Elt Ideal) main_v69 hz' (fun a => by rw [congrFun hz' a]; simp) (result V c)).symm

/-- So the output array ends holding the accumulator after the last point: that point's block covers it. -/
theorem final_o (c : Dev nD) : (dat2 V c).arrAt 2 cfg2.N = result V c :=
  (dat2 V c).arrAt_eq_of_cover 2 (result V c) (flushed_eq V c) fun i =>
    ⟨tLast, (flush2_2 tLast).mpr rfl, by
      show i ∈ ((View.whole main_v69).slice (win2_2.rect tLast)).set
      rw [View.set_slice_whole, Rect.mem_set_unit]
      intro a
      have hb := blockLast a
      have hi : (i a : ℕ) < main_v69.ty.shape.size a := (i a).isLt
      show win2_2.index tLast a * win2_2.size a ≤ (i a : ℕ)
        ∧ (i a : ℕ) < win2_2.index tLast a * win2_2.size a + win2_2.xsize (grid2.coords tLast) a
      rw [hb.1, hb.2]
      exact ⟨Nat.zero_le _, by omega⟩⟩

/-! ## The value -/

/-- The output array after the run, at its literal type. -/
abbrev outArr (c : Dev nD) : Vec Ideal S64x128 .f32 := (dat2 V c).arrAt 2 cfg2.N

/-- THE POOLING CALL'S VALUE: the output array is the product of the assignment matrix and the features. -/
theorem pool_value (c : Dev nD) (g : Fin 64) (j : Fin 128) :
    outArr V c (ix2 g j) = ∑ n : Fin 50048, oh V c (ix2 g n) * hp V c (ix2 n j) := by
  show (dat2 V c).arrAt 2 cfg2.N (ix2 g j) = _
  rw [final_o V c]
  show accAt2 V c 16 tLast.isLt (ix2 g j) = _
  rw [acc_eq V c g j 16 tLast.isLt]
  exact sum_rows V c g j

end Cert.KernelIdeal.HandValue

end
-- ==== Proof.HostPool.lean ====
/- What the host stretches around the pooling region hold: the one-hot of the graph ids and the padded node
   features the region reads, and the tail (count, divide, linear layer) applied to what the region leaves. -/
import proofs.«421662_j45767171506444_2_alg».proof.Proof.Gen.KernelIdeal.Regions
import Idealize.ShloMosaic.Lib.StableHlo.Run
import Idealize.ShloMosaic.Lib.StableHlo.Predicate
import Idealize.ShloMosaic.Lib.ValueIdx
import Idealize.ShloMosaic.Lib.KernelVsHost

set_option maxRecDepth 16384

noncomputable section

namespace Cert.Bridge.Host

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

/-! ## The padded node features -/

/-- The padded node features as their operations: what the second combine region left, with 48 rows of the 16-bit
    zero below it. -/
theorem v8_pad_raw :
    (V8 m outs c main_v68 : FVec Ideal S50048x128 .bf16) =
      pad S50048x128 ![0, 0] ![48, 0] ![0, 0] (outs 4 main_v53 c : FVec Ideal S50000x128 .bf16)
        (sitofp (F := Ideal) FTy.bf16 (constantI S_ 32 0#32)) pads_S50000x128_S50048x128_0480_000 h_S_ := by
  show StableHlo.after hostOps2_3 (V7 m outs c) (Proc.devRef .tc main_v68) = _
  after_results
  rw [show V4 m outs c (Proc.devRef .tc main_v53) = outs 4 main_v53 c from Function.update_self ..]
  rfl

/-- The padded node features at (row n, feature j): the second combine region's output on a real node's row, zero on
    a padding row. -/
theorem v8_pad (n : Fin 50048) (j : Fin 128) :
    (V8 m outs c main_v68 : FVec Ideal S50048x128 .bf16) (ix2 n j) =
      (if h : n.val < 50000 then (outs 4 main_v53 c : FVec Ideal S50000x128 .bf16) (ix2 ⟨n.val, h⟩ j) else (0 : EReal) : EReal) := by
  rw [v8_pad_raw]
  by_cases h : n.val < 50000
  · rw [dif_pos h]
    exact pad_apply_of_inside _ _ _ _ _ pads_S50000x128_S50048x128_0480_000 h_S_ (ix2 n j) (ix2 ⟨n.val, h⟩ j)
      (fun a => by
        match a with
        | ⟨0, _⟩ => show n.val = 0 + n.val * (0 + 1); omega
        | ⟨1, _⟩ => show j.val = 0 + j.val * (0 + 1); omega)
  · rw [dif_neg h]
    refine (pad_apply_of_not_inside _ _ _ _ _ pads_S50000x128_S50048x128_0480_000 h_S_ (ix2 n j) (0 : Fin 2) ?_).trans ?_
    · intro hin
      exact h (by have := hin.2.2; simpa using this)
    · show (((0#32 : BitVec 32).toInt : ℝ) : EReal) = 0
      simp

/-! ## The one-hot of the graph ids, over any graph ids -/

/-- The library's rank-2 index from two coordinates is this one. -/
private theorem ij_eq {n k : Nat} (p : Fin n) (q : Fin k) : Predicate.ij p q = ix2 p q := by
  funext a; match a with | ⟨0, _⟩ => rfl | ⟨1, _⟩ => rfl
/-- The library's rank-1 index from a coordinate is this one. -/
private theorem ofFin_eq {n : Nat} (p : Fin n) : Shape.Idx.ofFin p = ix1 p := (Shape.Idx.eq_ofFin (ix1 p)).symm

/-- A 32-bit word read signed is the natural number n below 2³¹ exactly when it is the word of n. -/
private theorem toInt_eq_natCast_iff (w : BitVec 32) (n : Nat) (hn : n < 2 ^ 31) :
    w.toInt = (n : Int) ↔ w = BitVec.ofNat 32 n := by
  constructor
  · intro h
    exact BitVec.eq_of_toInt_eq (by rw [h, Predicate.toInt_ofNat_small n hn])
  · intro h
    rw [h, Predicate.toInt_ofNat_small n hn]

/-- The graph ids padded with the all-ones word, at a column: the id of a real node, the all-ones word past them. -/
theorem padded_ids_apply (x2 : IVec S50000 32) (n : Fin 50048) :
    pad S50048 ![0] ![48] ![0] x2 (constantI S_ 32 4294967295#32) pads_S50000_S50048_0480 h_S_ (ix1 n) =
      if h : n.val < 50000 then x2 (ix1 ⟨n.val, h⟩) else 4294967295#32 := by
  by_cases h : n.val < 50000
  · rw [dif_pos h]
    exact pad_apply_of_inside _ _ _ _ _ pads_S50000_S50048_0480 h_S_ (ix1 n) (ix1 ⟨n.val, h⟩)
      (fun a => by
        match a with
        | ⟨0, _⟩ => show n.val = 0 + n.val * (0 + 1); omega)
  · rw [dif_neg h]
    refine (pad_apply_of_not_inside _ _ _ _ _ pads_S50000_S50048_0480 h_S_ (ix1 n) (0 : Fin 1) ?_).trans rfl
    intro hin
    exact h (by have := hin.2.2; simpa using this)

/-- "The column is a real node", at a column. -/
theorem real_node_apply (n : Fin 50048) :
    cmpi .slt (iotaInDim S50048 32 0) (broadcastInDim S50048 ![] bcast_S_S50048 (constantI S_ 32 50000#32)) (ix1 n) =
      BitVec.ofBool (decide (n.val < 50000)) := by
  show BitVec.ofBool ((BitVec.ofNat 32 n.val).slt (50000#32)) = _
  have hi := Predicate.slt_ofNat_iff n.val 50000 (by have := n.isLt; omega) (by norm_num)
  by_cases h : n.val < 50000
  · rw [decide_eq_true h]; exact hi.mpr h
  · rw [decide_eq_false h]
    cases hb : (BitVec.ofNat 32 n.val).slt (50000#32)
    · rfl
    · exact absurd (hi.mp (by rw [hb]; rfl)) h

/-- The one-hot at (graph g, column n): 1 when column n is a real node whose graph id, read signed, is g; else 0. -/
theorem onehot_apply (x2 : IVec S50000 32) (g : Fin 64) (n : Fin 50048) :
    uitofp (F := Ideal) .bf16 (andi
        (cmpi .eq
          (broadcastInDim S64x50048 ![0, 1] bcast_S64x1_S64x50048_0_1 (broadcastInDim S64x1 ![0] bcast_S64_S64x1_0 (iotaInDim S64 32 0)))
          (broadcastInDim S64x50048 ![0, 1] bcast_S1x50048_S64x50048_0_1 (broadcastInDim S1x50048 ![1] bcast_S50048_S1x50048_1
            (pad S50048 ![0] ![48] ![0] x2 (constantI S_ 32 4294967295#32) pads_S50000_S50048_0480 h_S_))))
        (broadcastInDim S64x50048 ![0, 1] bcast_S1x50048_S64x50048_0_1 (broadcastInDim S1x50048 ![1] bcast_S50048_S1x50048_1
          (cmpi .slt (iotaInDim S50048 32 0) (broadcastInDim S50048 ![] bcast_S_S50048 (constantI S_ 32 50000#32))))))
        (ix2 g n) =
      (if h : n.val < 50000 then (if (x2 (ix1 ⟨n.val, h⟩)).toInt = (g.val : Int) then (1 : EReal) else 0) else 0 : EReal) := by
  have hA : broadcastInDim S64x50048 ![0, 1] bcast_S64x1_S64x50048_0_1 (broadcastInDim S64x1 ![0] bcast_S64_S64x1_0 (iotaInDim S64 32 0))
      (ix2 g n) = BitVec.ofNat 32 g.val := by
    rw [← ij_eq]; exact Predicate.bcast_rows _ _ _ g n
  have hB : broadcastInDim S64x50048 ![0, 1] bcast_S1x50048_S64x50048_0_1 (broadcastInDim S1x50048 ![1] bcast_S50048_S1x50048_1
      (pad S50048 ![0] ![48] ![0] x2 (constantI S_ 32 4294967295#32) pads_S50000_S50048_0480 h_S_)) (ix2 g n) =
      if h : n.val < 50000 then x2 (ix1 ⟨n.val, h⟩) else 4294967295#32 := by
    rw [← ij_eq, Predicate.bcast_cols, ofFin_eq]; exact padded_ids_apply x2 n
  have hC : broadcastInDim S64x50048 ![0, 1] bcast_S1x50048_S64x50048_0_1 (broadcastInDim S1x50048 ![1] bcast_S50048_S1x50048_1
      (cmpi .slt (iotaInDim S50048 32 0) (broadcastInDim S50048 ![] bcast_S_S50048 (constantI S_ 32 50000#32)))) (ix2 g n) =
      BitVec.ofBool (decide (n.val < 50000)) := by
    rw [← ij_eq, Predicate.bcast_cols, ofFin_eq]; exact real_node_apply n
  show (((IntOp.andi (IntOp.cmpi .eq _ _) _ : BitVec 1).toNat : ℝ) : EReal) = _
  rw [hA, hB, hC]
  by_cases h : n.val < 50000
  · rw [dif_pos h, dif_pos h, decide_eq_true h]
    have hg : g.val < 2 ^ 31 := by have := g.isLt; omega
    by_cases e : (x2 (ix1 ⟨n.val, h⟩)).toInt = (g.val : Int)
    · rw [if_pos e]
      have e' := (toInt_eq_natCast_iff _ _ hg).mp e
      rw [← e']
      simp [IntOp.andi, IntOp.cmpi]
    · rw [if_neg e]
      have e' : BitVec.ofNat 32 g.val ≠ x2 (ix1 ⟨n.val, h⟩) := fun h' => e ((toInt_eq_natCast_iff _ _ hg).mpr h'.symm)
      have hb : (BitVec.ofNat 32 g.val == x2 (ix1 ⟨n.val, h⟩)) = false := beq_eq_false_iff_ne.mpr e'
      simp [IntOp.andi, IntOp.cmpi, hb]
  · rw [dif_neg h, dif_neg h, decide_eq_false h]
    simp [IntOp.andi]

/-! ## The one-hot the pooling region reads -/

/-- The graph ids are still the launch contents when the one-hot is made. -/
theorem V4_arg2 : V4 m outs c main_arg2 = m ((c.tc : Thread nD τ).loc main_arg2) :=
  (V4_of m outs c main_arg2 (by decide)).trans <| (V3_of m outs c main_arg2 (by decide)).trans <| (V2_of m outs c main_arg2 (by decide)).trans <| (V1_of m c main_arg2 (by decide)).trans rfl

set_option maxHeartbeats 2000000 in
/-- The one-hot as its operations: the graph number down the rows against the padded graph ids along the columns,
    masked by "the column is a real node", then converted to a float. -/
theorem v8_onehot_raw :
    (V8 m outs c main_v67 : FVec Ideal S64x50048 .bf16) =
      uitofp (F := Ideal) .bf16 (andi
        (cmpi .eq
          (broadcastInDim S64x50048 ![0, 1] bcast_S64x1_S64x50048_0_1 (broadcastInDim S64x1 ![0] bcast_S64_S64x1_0 (iotaInDim S64 32 0)))
          (broadcastInDim S64x50048 ![0, 1] bcast_S1x50048_S64x50048_0_1 (broadcastInDim S1x50048 ![1] bcast_S50048_S1x50048_1
            (pad S50048 ![0] ![48] ![0] (m ((c.tc : Thread nD τ).loc main_arg2) : IVec S50000 32) (constantI S_ 32 4294967295#32)
              pads_S50000_S50048_0480 h_S_))))
        (broadcastInDim S64x50048 ![0, 1] bcast_S1x50048_S64x50048_0_1 (broadcastInDim S1x50048 ![1] bcast_S50048_S1x50048_1
          (cmpi .slt (iotaInDim S50048 32 0) (broadcastInDim S50048 ![] bcast_S_S50048 (constantI S_ 32 50000#32)))))) := by
  show StableHlo.after hostOps2_3 _ (Proc.devRef .tc main_v67) = _
  after_results
  rw [show V4 m outs c (Proc.devRef .tc main_arg2) = _ from V4_arg2 m outs c]
  rfl

/-- The one-hot the pooling region reads, at (graph g, column n): 1 when column n is a real node whose graph id, read
    signed, is g; 0 otherwise, and 0 on every padding column. -/
theorem v8_onehot (g : Fin 64) (n : Fin 50048) :
    (V8 m outs c main_v67 : FVec Ideal S64x50048 .bf16) (ix2 g n) =
      (if h : n.val < 50000 then
          (if ((m ((c.tc : Thread nD τ).loc main_arg2) : IVec S50000 32) (ix1 ⟨n.val, h⟩)).toInt = (g.val : Int) then (1 : EReal) else 0)
        else 0 : EReal) := by
  rw [v8_onehot_raw]
  exact onehot_apply _ g n

end Cert.Bridge.Host

end
-- ==== Proof.HostTail.lean ====
/- The tail of the program after the pooling region: count the nodes of each graph, divide each graph's sums by the
   count (at least one), apply the last linear layer and add its bias, as one function of what the region leaves. -/
import proofs.«421662_j45767171506444_2_alg».proof.Proof.Gen.KernelIdeal.Regions
import Idealize.ShloMosaic.Lib.StableHlo.Run
import Idealize.ShloMosaic.PureOps.Ideal

set_option maxRecDepth 16384

noncomputable section

namespace Cert.Bridge.Host

open Cert.KernelIdeal Cert.KernelIdeal.Gen
open Idealize.ShloMosaic Idealize.ShloMosaic.TcCoe
open Idealize.ShloMosaic.StableHlo

variable (m : (ℓ : Loc nD τ sig) → Buf (Elt Ideal) ℓ) (outs : Outs (F := Ideal)) (c : Dev nD)

/-! ## The arguments when the tail starts -/

/-- The graph ids reach the tail as launched. -/
theorem V9_arg2 : V9 m outs c main_arg2 = m ((c.tc : Thread nD τ).loc main_arg2) :=
  (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl
/-- The last layer's weights reach the tail as launched. -/
theorem V9_arg9 : V9 m outs c main_arg9 = m ((c.tc : Thread nD τ).loc main_arg9) :=
  (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl
/-- The last layer's bias reaches the tail as launched. -/
theorem V9_arg10 : V9 m outs c main_arg10 = m ((c.tc : Thread nD τ).loc main_arg10) :=
  (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl

/-! ## The tail after the pooling region -/

/-- The operations after the pooled sums, as one function of them: count the nodes of each graph, divide each graph's
    sums by the count (at least one), apply the last linear layer and add its bias. -/
def TtailK (gsum : FVec Ideal S64x128 .f32) (x2 : IVec S50000 32) (x9 : FVec Ideal S32x128 .f32) (x10 : FVec Ideal S32 .f32) :
    FVec Ideal S64x32 .f32 :=
  addf
    (Host.dotGeneral dot_S64x128_S128x32_S64x32_1_0_0_1_n_n none
      (Host.divf gsum
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant (F := Ideal) S_ .f32 0x00000000#32))
                (broadcastInDim S50000x1 ![0] bcast_S50000_S50000x1_0 x2)
                (broadcastInDim S50000 ![] bcast_S_S50000 (constant (F := Ideal) S_ .f32 0x3F800000#32)))
              (broadcastInDim S64 ![] bcast_S_S64 (constant (F := Ideal) S_ .f32 0x3F800000#32))))))
      (transpose S128x32 [1, 0] x9 transposes_S32x128_S128x32_1_0 : FVec Ideal S128x32 .f32))
    (broadcastInDim S64x32 ![0, 1] bcast_S1x32_S64x32_0_1 (broadcastInDim S1x32 ![1] bcast_S32_S1x32_1 x10))

set_option maxHeartbeats 2000000 in
/-- What the program ends with is the tail applied to what the pooling region leaves. -/
theorem v10_tail :
    (V10 m outs c main_v83 : FVec Ideal S64x32 .f32) =
      TtailK (outs 9 main_v69 c) (m ((c.tc : Thread nD τ).loc main_arg2)) (m ((c.tc : Thread nD τ).loc main_arg9))
        (m ((c.tc : Thread nD τ).loc main_arg10)) := by
  show StableHlo.after hostOps3 _ (Proc.devRef .tc main_v83) = _
  after_results
  rw [show V9 m outs c (Proc.devRef .tc main_v69) = outs 9 main_v69 c from Function.update_self ..,
    show V9 m outs c (Proc.devRef .tc main_arg2) = _ from V9_arg2 m outs c,
    show V9 m outs c (Proc.devRef .tc main_arg9) = _ from V9_arg9 m outs c,
    show V9 m outs c (Proc.devRef .tc main_arg10) = _ from V9_arg10 m outs c]
  rfl

end Cert.Bridge.Host

end
-- ==== Proof.LibScatterWords.lean ====
/-
  A host scatter with an add body whose one index word per update names a row (an entry of a vector, or a row of a
  matrix), read at one element for ARBITRARY index words: the word is read signed and is not clamped, so an update
  whose word is not a row number of the operand lands nowhere and adds nothing.
-/
import Idealize.ShloMosaic.Lib.ValueIdx

noncomputable section

open scoped BigOperators

namespace Cert.Lib.ScatterWords

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- For any dimension numbers: update j lands on the operand index t exactly when, on every operand axis, start plus
    window coordinate is t's coordinate. (If the sums are t's coordinates they are inside the operand, so the update
    is kept and lands there; if the update is kept, the sums are nonnegative and are the coordinates of where it
    lands; if it is dropped it lands on no t.) -/
private theorem resultIdx?_eq_some_iff {s si u : Shape} (d : ScatterDims s si u) {w : Nat} (j : u.Idx)
    (idx : IVec si w) (t : s.Idx) :
    d.resultIdx? j idx = some t ↔ ∀ a, d.start j idx a + (d.window j a : Int) = ((t a).val : Int) := by
  unfold ScatterDims.resultIdx?
  constructor
  · intro h a
    split at h
    · rename_i hall
      have ht := congrFun (Option.some.inj h) a
      have hv := congrArg Fin.val ht
      simp only at hv
      have := (hall a).1
      omega
    · exact absurd h (by simp)
  · intro h
    have hall : ∀ a, 0 ≤ d.start j idx a + d.window j a ∧ d.start j idx a + d.window j a < s.size a := by
      intro a
      have := (t a).isLt
      rw [h a]
      omega
    rw [dif_pos hall]
    congr 1
    funext a
    refine Fin.ext ?_
    show (d.start j idx a + d.window j a).toNat = (t a).val
    rw [h a]
    omega

/-- Update e of the vector scatter lands on entry i exactly when its index word, read signed, is i: the start on the
    one operand axis is that word and the window coordinate there is 0 (the axis is inserted). -/
private theorem vec_resultIdx_iff {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : D.window (ix1 e) 0 = 0 := by
    unfold ScatterDims.window
    split
    · rename_i h; exact absurd h (List.not_mem_nil (a := (0 : Fin 1)))
    · rfl
  have hstart : D.start (ix1 e) idx 0 = (idx (ix2 e (0 : Fin 1))).toInt := by
    unfold ScatterDims.start
    rw [dif_pos (show (0 : Fin 1) ∈ D.scatterDimsToOperandDims from List.mem_singleton.mpr rfl)]
    congr 2
    funext b; refine Fin.ext ?_
    match b with
    | ⟨0, _⟩ => rfl
    | ⟨1, _⟩ => rfl
  rw [resultIdx?_eq_some_iff]
  constructor
  · intro h
    have h0 := h 0
    rw [hwin, hstart] at h0
    have h0' : (idx (ix2 e (0 : Fin 1))).toInt + ((0 : Nat) : Int) = (i.val : Int) := h0
    omega
  · intro h a
    obtain rfl : a = 0 := Subsingleton.elim _ _
    rw [hwin, hstart, h]
    show (i.val : Int) + ((0 : Nat) : Int) = (i.val : Int)
    omega

/-- Update (e, k') of the row scatter lands on (i, k) exactly when its index word, read signed, is i and k' is k: on
    the row axis the start is the word and the window coordinate 0 (the axis is inserted); on the column axis the
    start is 0 (the map does not name it) and the window coordinate is k'. -/
private theorem rows_resultIdx_iff {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1) (idx : IVec ⟨2, ![E, 1]⟩ w) (e : Fin E) (k' : Fin K) (i : Fin N) (k : Fin K) :
    d.resultIdx? (ix2 e k') idx = some (ix2 i k)
      ↔ (idx (ix2 e (0 : Fin 1))).toInt = (i.val : Int) ∧ k' = k := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = (idx (ix2 e (0 : Fin 1))).toInt := by
    unfold ScatterDims.start
    rw [dif_pos (show (0 : Fin 2) ∈ D.scatterDimsToOperandDims from List.mem_singleton.mpr rfl)]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  rw [resultIdx?_eq_some_iff]
  constructor
  · intro h
    have h0 := h 0
    have h1 := h 1
    rw [hwin0, hstart0] at h0
    rw [hwin1, hstart1] at h1
    have h0' : (idx (ix2 e (0 : Fin 1))).toInt + ((0 : Nat) : Int) = (i.val : Int) := h0
    have h1' : (0 : Int) + ((k'.val : Nat) : Int) = (k.val : Int) := h1
    refine ⟨by omega, Fin.ext (by omega)⟩
  · rintro ⟨h, rfl⟩ a
    match a with
    | ⟨0, _⟩ =>
      show D.start (ix2 e k') idx 0 + ((D.window (ix2 e k') 0 : Nat) : Int) = (i.val : Int)
      rw [hwin0, hstart0, h]
      omega
    | ⟨1, _⟩ =>
      show D.start (ix2 e k') idx 1 + ((D.window (ix2 e k') 1 : Nat) : Int) = (k'.val : Int)
      rw [hwin1, hstart1]
      omega

/-- Scalars added into a vector, for arbitrary index words: entry i of the result is entry i of the operand plus
    every update whose index word, read signed, is i. A word that is no entry number (negative, or N or more) is
    equal to no i below N, so its update appears in no entry. -/
theorem scatterAdd_vec_words {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32) (upd : (⟨1, ![E]⟩ : Shape).Idx → EReal)
    (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  exact if_congr (vec_resultIdx_iff d h1 h2 h3 h4 idx e i) rfl rfl

/-- Rows added into a matrix, for arbitrary index words: element (i, k) of the result is that element of the operand
    plus column k of every update row whose index word, read signed, is i. A word that is no row number (negative,
    or N or more) is equal to no i below N, so its update row appears in no row. -/
theorem scatterAdd_rows_words {N E K : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ 32) (upd : (⟨2, ![E, K]⟩ : Shape).Idx → EReal)
    (i : Fin N) (k : Fin K) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  rw [Finset.sum_filter, sum_idx2]
  refine Finset.sum_congr rfl fun e _ => ?_
  have hinner : ∀ k' : Fin K,
      (if d.resultIdx? (ix2 e k') idx = some (ix2 i k) then upd (ix2 e k') else 0)
        = if k' = k then (if (idx (ix2 e (0 : Fin 1))).toInt = (i.val : Int) then upd (ix2 e k') else 0) else 0 := by
    intro k'
    by_cases hk : k' = k
    · rw [if_pos hk]
      refine if_congr ?_ rfl rfl
      rw [rows_resultIdx_iff d h1 h2 h3 h4 idx e k' i k]
      exact ⟨fun h => h.1, fun h => ⟨h, hk⟩⟩
    · rw [if_neg hk, if_neg]
      rw [rows_resultIdx_iff d h1 h2 h3 h4 idx e k' i k]
      exact fun h => hk h.2
  rw [Finset.sum_congr rfl fun k' _ => hinner k', Finset.sum_ite_eq' Finset.univ k]
  rw [if_pos (Finset.mem_univ k)]

/-- A 32-bit word read signed is the natural number n below 2³¹ exactly when it is the word of n: below 2³¹ the
    word of n has its top bit clear, so its signed reading is n, and the signed reading determines the word. -/
theorem toInt_eq_natCast_iff (w : BitVec 32) (n : Nat) (hn : n < 2 ^ 31) :
    w.toInt = (n : Int) ↔ w = BitVec.ofNat 32 n := by
  have hn' : n < 2147483648 := by simpa using hn
  have hnat : (BitVec.ofNat 32 n).toNat = n := by
    rw [BitVec.toNat_ofNat]
    exact Nat.mod_eq_of_lt (by omega)
  have hof : (BitVec.ofNat 32 n).toInt = (n : Int) := by
    rw [BitVec.toInt_eq_toNat_of_lt (by rw [hnat]; omega), hnat]
  constructor
  · intro h
    apply BitVec.eq_of_toInt_eq
    rw [h, hof]
  · intro h
    rw [h, hof]

end Cert.Lib.ScatterWords

end
-- ==== Proof.RefLayers.lean ====
/-
  The reference program read at an index: each of its two layers as a closed expression in the neighbour sums
  (kept folded), the pooled sums as a sum over the nodes of one graph, and the tail after the pooled sums as one
  function of them.
-/
import proofs.«421662_j45767171506444_2_alg».proof.Proof.RefRun
import proofs.«421662_j45767171506444_2_alg».proof.Proof.LibScatterWords
import Idealize.ShloMosaic.PureOps.Ideal.Laws
import Idealize.ShloMosaic.PureOps.IdealRules
import Idealize.ShloMosaic.Lib.ValueIdx

noncomputable section

open scoped BigOperators

namespace Cert.Bridge.Ref

open Cert.ReferenceIdeal Cert.ReferenceIdeal.Gen Cert.ReferenceIdeal.Read Idealize.ShloMosaic Idealize.ShloMosaic.TcCoe Idealize.SL.Sem Idealize.ShloMosaic.ValueIdx

/-- The f32 pattern of one denotes the extended real 1. -/
theorem ofBits_one_f32 : Ideal.ofBits .f32 0x3F800000#32 = 1 := IdealRules.sign_bit.ideal_onePat .f32

/-- Closes an equation between two rank-2 indices given by their coordinates. -/
local macro "idx2" : tactic => `(tactic| (funext a; match a with | ⟨0, _⟩ => rfl | ⟨1, _⟩ => rfl))
/-- Closes an equation between two rank-1 indices given by their coordinate. -/
local macro "idx1" : tactic => `(tactic| (funext a; match a with | ⟨0, _⟩ => rfl))

/-- Layer one at an element: the neighbour sum (folded) divided by the clamped degree (folded), through the
    neighbour weights, plus the bias, plus the node's own row through the root weights, clamped at zero. -/
theorem layer1 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (i : Fin 50000) (j : Fin 128) :
    val_main_v31 (F := Ideal) x0 x1 x3 x4 x5 (ix2 i j)
      = max (((∑ k : Fin 128, Ideal.div (val_main_v13 (F := Ideal) x0 x1 (ix2 i k)) (max (val_main_v17 (F := Ideal) x1 (ix1 i)) 1) * x3 (ix2 j k))
              + x4 (ix1 j)) + ∑ k : Fin 128, x0 (ix2 i k) * x5 (ix2 j k)) 0 := by
  have e24l : ∀ k, lidx_main_v24 (ix2 i j) k = ix2 i k := fun k => by idx2
  have e24r : ∀ k, ridx_main_v24 (ix2 i j) k = ix2 k j := fun k => by idx2
  have e29l : ∀ k, lidx_main_v29 (ix2 i j) k = ix2 i k := fun k => by idx2
  have e29r : ∀ k, ridx_main_v29 (ix2 i j) k = ix2 k j := fun k => by idx2
  have e23 : ∀ k : Fin 128, idx_main_v23 (ix2 k j) = ix2 j k := fun k => by idx2
  have e28 : ∀ k : Fin 128, idx_main_v28 (ix2 k j) = ix2 j k := fun k => by idx2
  have e21 : ∀ k : Fin 128, idx_main_v20 (idx_main_v21 (ix2 i k)) = ix1 i := fun k => by idx1
  have e26 : idx_main_v25 (idx_main_v26 (ix2 i j)) = ix1 j := by idx1
  rw [val_main_v31_apply, val_main_v30_apply, val_main_v27_apply, val_main_v24_apply, val_main_v29_apply,
    val_main_v26_apply, val_main_v25_apply, val_main_call0_v0_apply, val_main_call0_cst_apply, e26]
  simp only [e24l, e24r, e29l, e29r, val_main_v22_apply, val_main_v21_apply, val_main_v20_apply, val_main_v19_apply,
    val_main_v18_apply, val_main_cst_3_apply, val_main_v23_apply, val_main_v28_apply, e23, e28, e21,
    Ideal.maximumf_def, Ideal.addf_def, Ideal.hostDivf_def, Ideal.ofBits_def, Ideal.ofBits_zero_f32, ofBits_one_f32]

/-- Layer two at an element: the same expression over layer one's output. -/
theorem layer2 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x128, .f32⟩ : BufTy).Contents (Elt Ideal)) (i : Fin 50000) (j : Fin 128) :
    val_main_v59 (F := Ideal) x0 x1 x3 x4 x5 x6 x7 x8 (ix2 i j)
      = max (((∑ k : Fin 128, Ideal.div (val_main_v41 (F := Ideal) x0 x1 x3 x4 x5 (ix2 i k)) (max (val_main_v45 (F := Ideal) x1 (ix1 i)) 1) * x6 (ix2 j k))
              + x7 (ix1 j)) + ∑ k : Fin 128, val_main_v31 (F := Ideal) x0 x1 x3 x4 x5 (ix2 i k) * x8 (ix2 j k)) 0 := by
  have e52l : ∀ k, lidx_main_v52 (ix2 i j) k = ix2 i k := fun k => by idx2
  have e52r : ∀ k, ridx_main_v52 (ix2 i j) k = ix2 k j := fun k => by idx2
  have e57l : ∀ k, lidx_main_v57 (ix2 i j) k = ix2 i k := fun k => by idx2
  have e57r : ∀ k, ridx_main_v57 (ix2 i j) k = ix2 k j := fun k => by idx2
  have e51 : ∀ k : Fin 128, idx_main_v51 (ix2 k j) = ix2 j k := fun k => by idx2
  have e56 : ∀ k : Fin 128, idx_main_v56 (ix2 k j) = ix2 j k := fun k => by idx2
  have e49 : ∀ k : Fin 128, idx_main_v48 (idx_main_v49 (ix2 i k)) = ix1 i := fun k => by idx1
  have e54 : idx_main_v53 (idx_main_v54 (ix2 i j)) = ix1 j := by idx1
  rw [val_main_v59_apply, val_main_v58_apply, val_main_v55_apply, val_main_v52_apply, val_main_v57_apply,
    val_main_v54_apply, val_main_v53_apply, val_main_call1_v0_apply, val_main_call1_cst_apply, e54]
  simp only [e52l, e52r, e57l, e57r, val_main_v50_apply, val_main_v49_apply, val_main_v48_apply, val_main_v47_apply,
    val_main_v46_apply, val_main_cst_9_apply, val_main_v51_apply, val_main_v56_apply, e51, e56, e49,
    Ideal.maximumf_def, Ideal.addf_def, Ideal.hostDivf_def, Ideal.ofBits_def, Ideal.ofBits_zero_f32, ofBits_one_f32]

/-- The pooled sum at an element: the sum, over the nodes whose graph word read signed is the graph's number, of
    layer two's output there. A node whose word is no graph number is in no graph's sum. -/
theorem pool (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x128, .f32⟩ : BufTy).Contents (Elt Ideal))
    (x2 : (⟨S50000, .i32⟩ : BufTy).Contents (Elt Ideal)) (g : Fin 64) (j : Fin 128) :
    val_main_v62 (F := Ideal) x0 x1 x2 x3 x4 x5 x6 x7 x8 (ix2 g j)
      = ∑ n : Fin 50000, if (x2 (ix1 n)).toInt = (g.val : Int) then val_main_v59 (F := Ideal) x0 x1 x3 x4 x5 x6 x7 x8 (ix2 n j) else 0 := by
  unfold val_main_v62
  generalize val_main_v59 (F := Ideal) x0 x1 x3 x4 x5 x6 x7 x8 = h
  show Ideal.hostScatterAdd scatter_S64x128_S50000x1_S50000x128_1_0_0_1 (val_main_v60 (F := Ideal)) (val_main_v61 (F := Ideal) x2) h (ix2 g j) = _
  rw [Cert.Lib.ScatterWords.scatterAdd_rows_words _ rfl rfl rfl rfl, val_main_v60_apply, val_main_cst_10_apply,
    Ideal.ofBits_def, Ideal.ofBits_zero_f32, zero_add]
  refine Finset.sum_congr rfl fun n _ => ?_
  rw [val_main_v61_apply, show idx_main_v61 (ix2 n (0 : Fin 1)) = ix1 n from by idx1]

/-- The reference after the pooled sums, as one function of them: the node count of each graph (ones added by graph
    word), clamped below at one, divides the pooled sums; the quotient goes through the output weights and the
    output bias is added. -/
def Ttail (gsum : (⟨S64x128, .f32⟩ : BufTy).Contents (Elt Ideal)) (x2 : (⟨S50000, .i32⟩ : BufTy).Contents (Elt Ideal))
    (x9 : (⟨S32x128, .f32⟩ : BufTy).Contents (Elt Ideal)) (x10 : (⟨S32, .f32⟩ : BufTy).Contents (Elt Ideal)) :
    (⟨S64x32, .f32⟩ : BufTy).Contents (Elt Ideal) :=
  addf (F := Ideal) (φ := .f32)
    (Host.dotGeneral (F := Ideal) (φ₁ := .f32) (φ₂ := .f32) dot_S64x128_S128x32_S64x32_1_0_0_1_n_n none
      (Host.divf (F := Ideal) (φ := .f32) gsum
        (broadcastInDim (α := Ideal .f32) S64x128 ![0, 1] bcast_S64x1_S64x128_0_1
          (broadcastInDim (α := Ideal .f32) S64x1 ![0] bcast_S64_S64x1_0
            (maximumf (F := Ideal) (φ := .f32)
              (Host.scatterAdd (F := Ideal) (φ := .f32) scatter_S64_S50000x1_S50000_n_0_0_1
                (broadcastInDim (α := Ideal .f32) S64 ![] bcast_S_S64 (constant (F := Ideal) S_ .f32 0x00000000#32))
                (broadcastInDim (α := BitVec 32) S50000x1 ![0] bcast_S50000_S50000x1_0 x2)
                (broadcastInDim (α := Ideal .f32) S50000 ![] bcast_S_S50000 (constant (F := Ideal) S_ .f32 0x3F800000#32)))
              (broadcastInDim (α := Ideal .f32) S64 ![] bcast_S_S64 (constant (F := Ideal) S_ .f32 0x3F800000#32))))))
      (transpose (α := Ideal .f32) S128x32 [1, 0] x9 transposes_S32x128_S128x32_1_0))
    (broadcastInDim (α := Ideal .f32) S64x32 ![0, 1] bcast_S1x32_S64x32_0_1
      (broadcastInDim (α := Ideal .f32) S1x32 ![1] bcast_S32_S1x32_1 x10))
set_option maxRecDepth 8192 in
/-- The reference's result is the tail applied to its pooled sums. -/
theorem tail_eq (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x128, .f32⟩ : BufTy).Contents (Elt Ideal))
    (x2 : (⟨S50000, .i32⟩ : BufTy).Contents (Elt Ideal)) (x9 : (⟨S32x128, .f32⟩ : BufTy).Contents (Elt Ideal)) (x10 : (⟨S32, .f32⟩ : BufTy).Contents (Elt Ideal)) :
    val_main_v76 (F := Ideal) x0 x1 x2 x3 x4 x5 x6 x7 x8 x9 x10
      = Ttail (val_main_v62 (F := Ideal) x0 x1 x2 x3 x4 x5 x6 x7 x8) x2 x9 x10 := rfl

/-- The reference run's result term is the last stage of the reading, at the launch contents of the arguments. -/
theorem result_eq (m' : (ℓ : Loc nD τ sig) → Buf (Elt Ideal) ℓ) (c : Dev nD) :
    Cert.ReferenceIdeal.Value.res_main_v76 (F := Ideal) m' c
      = val_main_v76 (F := Ideal) (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) :=
  val_main_v76_eq (F := Ideal) m' c

end Cert.Bridge.Ref

end
-- ==== Proof.BridgeTail.lean ====
/-
  The two programs end with the same operations after the pooled sums: the node count of each graph, the division by
  the count clamped below at one, the output weights and the output bias. Stated once per program over that program's
  own copies of the shape and dimension records, the two functions are one function.
-/
import proofs.«421662_j45767171506444_2_alg».proof.Proof.HostTail
import proofs.«421662_j45767171506444_2_alg».proof.Proof.RefLayers

noncomputable section

namespace Cert.Bridge.Tail

open Idealize.ShloMosaic

set_option maxRecDepth 16384 in
/-- The tail written over the one program's records is the tail written over the other's: the shapes are the same
    shapes, the dimension records have the same fields, and the facts they carry are proofs. -/
theorem tail_same (gsum : FVec Ideal Cert.KernelIdeal.S64x128 .f32) (x2 : IVec Cert.KernelIdeal.S50000 32)
    (x9 : FVec Ideal Cert.KernelIdeal.S32x128 .f32) (x10 : FVec Ideal Cert.KernelIdeal.S32 .f32) :
    Cert.Bridge.Host.TtailK gsum x2 x9 x10 = Cert.Bridge.Ref.Ttail gsum x2 x9 x10 := rfl

end Cert.Bridge.Tail

end
-- ==== Proof.LibWrapIndex.lean ====
/-
  Index words wrapped "if negative, add the extent": where every word is non-negative as a signed integer the wrap
  leaves the array of words as it is.
-/
import Idealize.ShloMosaic.Lib.Affine
import Idealize.ShloMosaic.PureOps.Vector

noncomputable section

namespace Cert.Lib.WrapIndex

open Idealize.ShloMosaic

/-- One word: a non-negative word is not below the zero word, so the selection keeps it. -/
theorem select_slt_zero_of_nonneg (d z w : BitVec 32) (hz : z = 0#32) (h : (0 : Int) ≤ d.toInt) :
    Scalar.select (IntOp.cmpi .slt d z) w d = d := by
  unfold Scalar.select
  rw [if_neg]
  intro hc
  have hlt := IntOp.cmpi_slt.1 hc
  rw [hz] at hlt
  have h0 : (0#32 : BitVec 32).toInt = 0 := by decide
  omega

/-- The whole array: with every word non-negative, `select (d < z) w d = d` for a zero array `z`, whatever `w` is. -/
theorem select_wrap_of_nonneg {s : Shape} (d z w : IVec s 32) (hz : ∀ i, z i = 0#32) (h : ∀ i, (0 : Int) ≤ (d i).toInt) :
    select (cmpi .slt d z) w d = d := by
  funext i
  exact select_slt_zero_of_nonneg (d i) (z i) (w i) (hz i) (h i)

end Cert.Lib.WrapIndex

end
-- ==== Proof.HostLayers.lean ====
/- What the two combine regions are entered with: the contents the host operations before each region leave in the
   regions' operand arrays, read off the launch contents (and, for the second region, off what the first region left). -/
import proofs.«421662_j45767171506444_2_alg».proof.Proof.Gen.KernelIdeal.Regions
import proofs.«421662_j45767171506444_2_alg».proof.Proof.RefRun
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«421662_j45767171506444_2_alg».proof.Proof.LibWrapIndex

set_option maxRecDepth 16384

noncomputable section

namespace Cert.Bridge.Host

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (outs : Outs (F := Ideal)) (c : Dev nD)

/-! ## The argument arrays as launched -/

abbrev x0 : S50000x128.Idx → EReal := m ((c.tc : Thread nD τ).loc main_arg0)
abbrev x1 : (⟨S2x600000, .i32⟩ : BufTy).Contents (Elt Ideal) := m ((c.tc : Thread nD τ).loc main_arg1)
abbrev x3 : S128x128.Idx → EReal := m ((c.tc : Thread nD τ).loc main_arg3)
abbrev x4 : S128.Idx → EReal := m ((c.tc : Thread nD τ).loc main_arg4)
abbrev x5 : S128x128.Idx → EReal := m ((c.tc : Thread nD τ).loc main_arg5)
abbrev x6 : S128x128.Idx → EReal := m ((c.tc : Thread nD τ).loc main_arg6)
abbrev x7 : S128.Idx → EReal := m ((c.tc : Thread nD τ).loc main_arg7)
abbrev x8 : S128x128.Idx → EReal := m ((c.tc : Thread nD τ).loc main_arg8)

/-! ## The first region's operands -/

theorem v1_x : V1 m c main_arg0 = x0 m c := V1_of m c main_arg0 (by decide)

theorem v1_WlT (k j : Fin 128) : (V1 m c main_v30 : S128x128.Idx → EReal) (ix2 k j) = x3 m c (ix2 j k) := by
  have e : (V1 m c main_v30 : S128x128.Idx → EReal)
      = transpose S128x128 [1, 0] (x3 m c) transposes_S128x128_S128x128_1_0 := by
    show StableHlo.after hostOps0 (fun b => m (c, b)) (Proc.devRef .tc main_v30) = _
    after_results_simp <;> rfl
  rw [e]; exact transpose_ix2_apply _ _ k j

theorem v1_WrT (k j : Fin 128) : (V1 m c main_v31 : S128x128.Idx → EReal) (ix2 k j) = x5 m c (ix2 j k) := by
  have e : (V1 m c main_v31 : S128x128.Idx → EReal)
      = transpose S128x128 [1, 0] (x5 m c) transposes_S128x128_S128x128_1_0 := by
    show StableHlo.after hostOps0 (fun b => m (c, b)) (Proc.devRef .tc main_v31) = _
    after_results_simp <;> rfl
  rw [e]; exact transpose_ix2_apply _ _ k j

theorem v1_b (j : Fin 128) : (V1 m c main_v32 : S1x128.Idx → EReal) (ix2 (0 : Fin 1) j) = x4 m c (ix1 j) := by
  have e : (V1 m c main_v32 : S1x128.Idx → EReal) = shapeCast S1x128 (x4 m c) shapeCasts_S128_S1x128 := by
    show StableHlo.after hostOps0 (fun b => m (c, b)) (Proc.devRef .tc main_v32) = _
    after_results_simp <;> rfl
  rw [e]
  exact shapeCast_apply _ _ _ _ (by
    rw [Shape.rowMajor_val_two, Shape.rowMajor_val_one]; show j.val = 0 * 128 + j.val; omega)

/-- The in-degree array of the two programs is one term: the same scatter of ones over zeros at the destination words. -/
theorem deg_eq :
    (Host.scatterAdd scatter_S50000_S600000x1_S600000_n_0_0_1
      (broadcastInDim S50000 ![] bcast_S_S50000 (constant (F := Ideal) S_ .f32 0x00000000#32))
      (broadcastInDim S600000x1 ![0] bcast_S600000_S600000x1_0
        (shapeCast S600000 (extractStridedSlice S1x600000 ![1, 0] (x1 m c) slices_S2x600000_S1x600000_1_0) shapeCasts_S1x600000_S600000))
      (broadcastInDim S600000 ![] bcast_S_S600000 (constant (F := Ideal) S_ .f32 0x3F800000#32)) : S50000.Idx → EReal)
    = Cert.ReferenceIdeal.Read.val_main_v17 (F := Ideal) (x1 m c) := rfl

theorem v1_dinv (i : Fin 50000) :
    (V1 m c main_v12 : S50000x1.Idx → EReal) (ix2 i (0 : Fin 1))
      = Ideal.div 1 (max (Cert.ReferenceIdeal.Read.val_main_v17 (F := Ideal) (x1 m c) (ix1 i)) 1) := by
  have e : (V1 m c main_v12 : S50000x1.Idx → EReal)
      = shapeCast S50000x1 (Host.divf (broadcastInDim S50000 ![] bcast_S_S50000 (constant (F := Ideal) S_ .f32 0x3F800000#32))
          (maximumf (Cert.ReferenceIdeal.Read.val_main_v17 (F := Ideal) (x1 m c))
            (broadcastInDim S50000 ![] bcast_S_S50000 (constant (F := Ideal) S_ .f32 0x3F800000#32)))) shapeCasts_S50000_S50000x1 := by
    rw [← deg_eq]
    show StableHlo.after hostOps0 (fun b => m (c, b)) (Proc.devRef .tc main_v12) = _
    after_results_simp <;> rfl
  rw [e, shapeCast_apply _ _ _ (ix1 i) (by
    rw [Shape.rowMajor_val_two, Shape.rowMajor_val_one]; show i.val = i.val * 1 + 0; omega)]
  rw [hostDivf_apply, maximumf_apply, broadcastInDim_scalar_apply]
  show Ideal.div (Ideal.ofBits .f32 0x3F800000#32) (max _ (Ideal.ofBits .f32 0x3F800000#32)) = _
  rw [Ideal.ofBits_one_f32]

/-! ## The index words, and the wrap that leaves words that are not negative as they are -/

/-- The source and destination words of the edge list, as the host operations cut them out of the argument. -/
abbrev srcW : S600000.Idx → BitVec 32 :=
  shapeCast S600000 (extractStridedSlice S1x600000 ![0, 0] (x1 m c) slices_S2x600000_S1x600000_0_0) shapeCasts_S1x600000_S600000
abbrev dstW : S600000.Idx → BitVec 32 :=
  shapeCast S600000 (extractStridedSlice S1x600000 ![1, 0] (x1 m c) slices_S2x600000_S1x600000_1_0) shapeCasts_S1x600000_S600000

/-- Index words wrapped: a negative word counted from the end of the 50000 rows. -/
abbrev wrapW (d : S600000.Idx → BitVec 32) : S600000.Idx → BitVec 32 :=
  select (cmpi .slt d (broadcastInDim S600000 ![] bcast_S_S600000 (constantI S_ 32 0#32)))
    (addi d (broadcastInDim S600000 ![] bcast_S_S600000 (constantI S_ 32 50000#32))) d

theorem dstW_apply (i : S600000.Idx) : dstW m c i = x1 m c (ix2 (1 : Fin 2) (i 0)) := by
  have hc := shapeCast_apply (extractStridedSlice S1x600000 ![1, 0] (x1 m c) slices_S2x600000_S1x600000_1_0) shapeCasts_S1x600000_S600000
    i (ix2 (0 : Fin 1) (i 0))
    (by rewrite [Shape.rowMajor_val_two, Shape.rowMajor_val_one]; show 0 * 600000 + (i 0).val = (i 0).val; omega)
  refine hc.trans ?_
  exact extractStridedSlice_apply ![1, 0] (x1 m c) slices_S2x600000_S1x600000_1_0 (ix2 (0 : Fin 1) (i 0)) (ix2 (1 : Fin 2) (i 0)) (fun a => match a with
    | ⟨0, _⟩ => by show 1 = 1 + 0; omega
    | ⟨1, _⟩ => by show (i 0).val = 0 + (i 0).val; omega)

/-- Where every destination word is not negative, the wrapped destination words are the words themselves. -/
theorem dstWrap_eq (hdst : ∀ e : Fin 600000, (0 : Int) ≤ (x1 m c (ix2 (1 : Fin 2) e)).toInt) : wrapW (dstW m c) = dstW m c :=
  Cert.Lib.WrapIndex.select_wrap_of_nonneg (dstW m c) _ _ (fun i => rfl)
    (fun i => le_of_le_of_eq (hdst (i 0)) (congrArg BitVec.toInt (dstW_apply m c i)).symm)

/-- The message sum of a layer: the rows of `h` at the words `s`, added into zeros at the rows the words `d` name. -/
abbrev msgOf (h : S50000x128.Idx → EReal) (s d : S600000.Idx → BitVec 32) : S50000x128.Idx → EReal :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0 s))

theorem v1_msg_term : (V1 m c main_v29 : S50000x128.Idx → EReal) = msgOf (x0 m c) (wrapW (srcW m c)) (wrapW (dstW m c)) := by
  show StableHlo.after hostOps0 (fun b => m (c, b)) (Proc.devRef .tc main_v29) = _
  after_results_simp <;> rfl

theorem ref_msg1 : Cert.ReferenceIdeal.Read.val_main_v13 (F := Ideal) (x0 m c) (x1 m c) = msgOf (x0 m c) (wrapW (srcW m c)) (dstW m c) := rfl

theorem v1_msg (hdst : ∀ e : Fin 600000, (0 : Int) ≤ (x1 m c (ix2 (1 : Fin 2) e)).toInt) :
    (V1 m c main_v29 : S50000x128.Idx → EReal)
      = Cert.ReferenceIdeal.Read.val_main_v13 (F := Ideal) (x0 m c) (x1 m c) := by
  rw [v1_msg_term, dstWrap_eq m c hdst, ref_msg1]

/-! ## The second region's operands

The host operations before the second region, run from any contents `W`; then at the contents the first region leaves. -/

theorem v3_h : V3 m outs c main_v33 = outs 2 main_v33 c :=
  (V3_of m outs c main_v33 (by decide)).trans (Function.update_self _ _ _)

theorem v3_dinv (i : Fin 50000) :
    (V3 m outs c main_v12 : S50000x1.Idx → EReal) (ix2 i (0 : Fin 1))
      = Ideal.div 1 (max (Cert.ReferenceIdeal.Read.val_main_v17 (F := Ideal) (x1 m c) (ix1 i)) 1) := by
  have e : (V3 m outs c main_v12 : S50000x1.Idx → EReal) = (V1 m c main_v12 : S50000x1.Idx → EReal) :=
    (V3_of m outs c main_v12 (by decide)).trans (V2_of m outs c main_v12 (by decide))
  rw [e]; exact v1_dinv m c i

theorem v2_arg6 : V2 m outs c main_arg6 = x6 m c := (V2_of m outs c main_arg6 (by decide)).trans (V1_of m c main_arg6 (by decide))
theorem v2_arg7 : V2 m outs c main_arg7 = x7 m c := (V2_of m outs c main_arg7 (by decide)).trans (V1_of m c main_arg7 (by decide))
theorem v2_arg8 : V2 m outs c main_arg8 = x8 m c := (V2_of m outs c main_arg8 (by decide)).trans (V1_of m c main_arg8 (by decide))

theorem host1_v50 (W : Valuation τ sig (Elt Ideal)) : (StableHlo.after hostOps1 W (Proc.devRef .tc main_v50) : S128x128.Idx → EReal)
    = transpose S128x128 [1, 0] (W (Proc.devRef .tc main_arg6)) transposes_S128x128_S128x128_1_0 := by
  after_results_simp <;> rfl
theorem host1_v51 (W : Valuation τ sig (Elt Ideal)) : (StableHlo.after hostOps1 W (Proc.devRef .tc main_v51) : S128x128.Idx → EReal)
    = transpose S128x128 [1, 0] (W (Proc.devRef .tc main_arg8)) transposes_S128x128_S128x128_1_0 := by
  after_results_simp <;> rfl
theorem host1_v52 (W : Valuation τ sig (Elt Ideal)) : (StableHlo.after hostOps1 W (Proc.devRef .tc main_v52) : S1x128.Idx → EReal)
    = shapeCast S1x128 (W (Proc.devRef .tc main_arg7)) shapeCasts_S128_S1x128 := by
  after_results_simp <;> rfl

theorem v3_WlT (k j : Fin 128) : (V3 m outs c main_v50 : S128x128.Idx → EReal) (ix2 k j) = x6 m c (ix2 j k) := by
  have e : (V3 m outs c main_v50 : S128x128.Idx → EReal)
      = transpose S128x128 [1, 0] (x6 m c) transposes_S128x128_S128x128_1_0 :=
    (host1_v50 (V2 m outs c)).trans (by rw [← v2_arg6 m outs c])
  rw [e]; exact transpose_ix2_apply _ _ k j

theorem v3_WrT (k j : Fin 128) : (V3 m outs c main_v51 : S128x128.Idx → EReal) (ix2 k j) = x8 m c (ix2 j k) := by
  have e : (V3 m outs c main_v51 : S128x128.Idx → EReal)
      = transpose S128x128 [1, 0] (x8 m c) transposes_S128x128_S128x128_1_0 :=
    (host1_v51 (V2 m outs c)).trans (by rw [← v2_arg8 m outs c])
  rw [e]; exact transpose_ix2_apply _ _ k j

theorem v3_b (j : Fin 128) : (V3 m outs c main_v52 : S1x128.Idx → EReal) (ix2 (0 : Fin 1) j) = x7 m c (ix1 j) := by
  have e : (V3 m outs c main_v52 : S1x128.Idx → EReal) = shapeCast S1x128 (x7 m c) shapeCasts_S128_S1x128 :=
    (host1_v52 (V2 m outs c)).trans (by rw [← v2_arg7 m outs c])
  rw [e]
  exact shapeCast_apply _ _ _ _ (by
    rw [Shape.rowMajor_val_two, Shape.rowMajor_val_one]; show j.val = 0 * 128 + j.val; omega)

/-- The message sum the second region is entered with, from any contents `W`: the rows of `main_v33` gathered at the
    wrapped `main_v1` words, added into zeros at the rows the wrapped `main_v3` words name. -/
theorem host1_v49 (W : Valuation τ sig (Elt Ideal)) : (StableHlo.after hostOps1 W (Proc.devRef .tc main_v49) : S50000x128.Idx → EReal)
    = msgOf (W (Proc.devRef .tc main_v33)) (wrapW (W (Proc.devRef .tc main_v1))) (wrapW (W (Proc.devRef .tc main_v3))) := by
  after_results_simp <;> rfl

theorem v1_v1 : (V1 m c main_v1 : S600000.Idx → BitVec 32) = srcW m c := by
  show StableHlo.after hostOps0 (fun b => m (c, b)) (Proc.devRef .tc main_v1) = _
  after_results_simp <;> rfl
theorem v1_v3 : (V1 m c main_v3 : S600000.Idx → BitVec 32) = dstW m c := by
  show StableHlo.after hostOps0 (fun b => m (c, b)) (Proc.devRef .tc main_v3) = _
  after_results_simp <;> rfl
theorem v2_v1 : (V2 m outs c main_v1 : S600000.Idx → BitVec 32) = srcW m c :=
  (V2_of m outs c main_v1 (by decide)).trans (v1_v1 m c)
theorem v2_v3 : (V2 m outs c main_v3 : S600000.Idx → BitVec 32) = dstW m c :=
  (V2_of m outs c main_v3 (by decide)).trans (v1_v3 m c)
theorem v2_v33 : V2 m outs c main_v33 = outs 2 main_v33 c := Function.update_self _ _ _

theorem v3_msg_term : (V3 m outs c main_v49 : S50000x128.Idx → EReal)
    = msgOf (outs 2 main_v33 c) (wrapW (srcW m c)) (wrapW (dstW m c)) := by
  refine (host1_v49 (V2 m outs c)).trans ?_
  rw [← v2_v1 m outs c, ← v2_v3 m outs c, ← v2_v33 m outs c]

theorem ref_msg2 : Cert.ReferenceIdeal.Read.val_main_v41 (F := Ideal) (x0 m c) (x1 m c) (x3 m c) (x4 m c) (x5 m c)
    = msgOf (Cert.ReferenceIdeal.Read.val_main_v31 (F := Ideal) (x0 m c) (x1 m c) (x3 m c) (x4 m c) (x5 m c)) (wrapW (srcW m c)) (dstW m c) := rfl

theorem v3_msg (hdst : ∀ e : Fin 600000, (0 : Int) ≤ (x1 m c (ix2 (1 : Fin 2) e)).toInt)
    (h : (outs 2 main_v33 c : S50000x128.Idx → EReal)
      = Cert.ReferenceIdeal.Read.val_main_v31 (F := Ideal) (x0 m c) (x1 m c) (x3 m c) (x4 m c) (x5 m c)) :
    (V3 m outs c main_v49 : S50000x128.Idx → EReal)
      = Cert.ReferenceIdeal.Read.val_main_v41 (F := Ideal) (x0 m c) (x1 m c) (x3 m c) (x4 m c) (x5 m c) := by
  rw [v3_msg_term, dstWrap_eq m c hdst, ref_msg2, h]

/-- `v3_msg` from the first region's result given element by element. -/
theorem v3_msg' (hdst : ∀ e : Fin 600000, (0 : Int) ≤ (x1 m c (ix2 (1 : Fin 2) e)).toInt)
    (h : ∀ idx : S50000x128.Idx, (outs 2 main_v33 c : S50000x128.Idx → EReal) idx
      = Cert.ReferenceIdeal.Read.val_main_v31 (F := Ideal) (x0 m c) (x1 m c) (x3 m c) (x4 m c) (x5 m c) idx) :
    (V3 m outs c main_v49 : S50000x128.Idx → EReal)
      = Cert.ReferenceIdeal.Read.val_main_v41 (F := Ideal) (x0 m c) (x1 m c) (x3 m c) (x4 m c) (x5 m c) :=
  v3_msg m outs c hdst (funext h)

end Cert.Bridge.Host

end
-- ==== Proof.Comb0Value.lean ====
/- The value half of the first combine region (pipeline 0): its output array after the run, read at an index, as a
   function of the arrays the region is entered with. The payload at an index of its block; each point's written-back
   block as the block of one closed form; the cover of the array by the ten row blocks. -/
import proofs.«421662_j45767171506444_2_alg».proof.Proof.Comb0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The block product read at an index -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at row `p` and column `q`: the sum over the 128 inner positions. -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The degree column spread over the 128 columns, read at an index: the column's entry of that row. -/
theorem bcast_col_apply {α : Type} (x : S5000x1.Idx → α) (p : Fin 5000) (k : Fin 128) :
    broadcastTo S5000x128 x broadcasts_S5000x1_S5000x128 (ix2 p k) = x (ix2 p 0) :=
  broadcastTo_apply x broadcasts_S5000x1_S5000x128 (ix2 p k) (ix2 p 0) (fun a => by
    match a with
    | ⟨0, _⟩ => rfl
    | ⟨1, _⟩ => rfl)

/-- The bias row spread over the 5000 rows, read at an index: the row's entry of that column. -/
theorem bcast_row_apply {α : Type} (x : S1x128.Idx → α) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

/-- The first region's payload at row `p`, column `q` of the block. -/
theorem pay0_apply (x0 : Vec Ideal S5000x128 .f32) (x2 : Vec Ideal S5000x1 .f32) (x1 : Vec Ideal S5000x128 .f32)
    (x3 : Vec Ideal S128x128 .f32) (x4 : Vec Ideal S128x128 .f32) (x5 : Vec Ideal S1x128 .f32) (p : Fin 5000) (q : Fin 128) :
    k0_pay1 (F := Ideal) x0 x2 x1 x3 x4 x5 (ix2 p q)
      = max (((∑ k : Fin 128, (x0 (ix2 p k) * x2 (ix2 p 0)) * x3 (ix2 k q)) + (∑ k : Fin 128, x1 (ix2 p k) * x4 (ix2 k q))) + x5 (ix2 0 q)) 0 := by
  unfold k0_pay1
  simp only [shapeCast_self]
  rw [truncf_apply, maximumf_apply, addf_apply, addf_apply, mm_apply, mm_apply, bcast_row_apply, broadcast_apply]
  simp only [truncf_apply, mulf_apply, bcast_col_apply]
  congr 1
  exact Ideal.ofBits_zero_f32

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The block index maps over the ten points: the three row-blocked inputs and the output are at row block `t`,
    the two weight matrices and the bias row are whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The combine step at row `i`, column `j`, of six arrays: the rectified sum of the degree-scaled messages times
    the first weight matrix, the features times the second, and the bias. -/
def combAt (a0 : S50000x128.Idx → EReal) (a1 : S50000x128.Idx → EReal) (a2 : S50000x1.Idx → EReal)
    (a3 : S128x128.Idx → EReal) (a4 : S128x128.Idx → EReal) (a5 : S1x128.Idx → EReal) (i : Fin 50000) (j : Fin 128) : EReal :=
  max (((∑ k : Fin 128, (a0 (ix2 i k) * a2 (ix2 i (0 : Fin 1))) * a3 (ix2 k j))
        + (∑ k : Fin 128, a1 (ix2 i k) * a4 (ix2 k j)))
      + a5 (ix2 (0 : Fin 1) j)) 0

theorem combAt_def (a0 : S50000x128.Idx → EReal) (a1 : S50000x128.Idx → EReal) (a2 : S50000x1.Idx → EReal)
    (a3 : S128x128.Idx → EReal) (a4 : S128x128.Idx → EReal) (a5 : S1x128.Idx → EReal) (i : Fin 50000) (j : Fin 128) :
    combAt a0 a1 a2 a3 a4 a5 i j
      = max (((∑ k : Fin 128, (a0 (ix2 i k) * a2 (ix2 i (0 : Fin 1))) * a3 (ix2 k j))
        + (∑ k : Fin 128, a1 (ix2 i k) * a4 (ix2 k j)))
      + a5 (ix2 (0 : Fin 1) j)) 0 := rfl

/-- The region's output as one function of its six input arrays, index by index. -/
def comb0 (a0 : S50000x128.Idx → EReal) (a1 : S50000x128.Idx → EReal) (a2 : S50000x1.Idx → EReal)
    (a3 : S128x128.Idx → EReal) (a4 : S128x128.Idx → EReal) (a5 : S1x128.Idx → EReal) : S50000x128.Idx → EReal := fun i =>
  combAt a0 a1 a2 a3 a4 a5 ⟨(i 0).val, (i 0).isLt⟩ ⟨(i 1).val, (i 1).isLt⟩

/-- Each input block read at an index of the block is its array read at the row the point's block starts at plus
    the row inside. -/
theorem iblk0_0_apply (c : Dev nD) (t : Fin cfg0.N) (p : Fin 5000) (k : Fin 128) (r : Fin 50000) (hr : r.val = t.val * 5000 + p.val) :
    iblk0 V c 0 t (ix2 p k) = V c main_v29 (ix2 r k) := by
  obtain ⟨e0, e1, -⟩ := idx_facts0 t
  show V c main_v29 (((cfg0.win 0).blk t).view.emb (ix2 p k)) = V c main_v29 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega
theorem iblk0_1_apply (c : Dev nD) (t : Fin cfg0.N) (p : Fin 5000) (k : Fin 128) (r : Fin 50000) (hr : r.val = t.val * 5000 + p.val) :
    iblk0 V c 1 t (ix2 p k) = V c main_arg0 (ix2 r k) := by
  obtain ⟨-, -, e0, e1, -⟩ := idx_facts0 t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega
theorem iblk0_2_apply (c : Dev nD) (t : Fin cfg0.N) (p : Fin 5000) (r : Fin 50000) (hr : r.val = t.val * 5000 + p.val) :
    iblk0 V c 2 t (ix2 p (0 : Fin 1)) = V c main_v12 (ix2 r (0 : Fin 1)) := by
  obtain ⟨-, -, -, -, e0, e1, -⟩ := idx_facts0 t
  show V c main_v12 (((cfg0.win 2).blk t).view.emb (ix2 p (0 : Fin 1))) = V c main_v12 (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega
theorem iblk0_3_apply (c : Dev nD) (t : Fin cfg0.N) (k : Fin 128) (q : Fin 128) :
    iblk0 V c 3 t (ix2 k q) = V c main_v30 (ix2 k q) := by
  obtain ⟨-, -, -, -, -, -, e0, e1, -⟩ := idx_facts0 t
  show V c main_v30 (((cfg0.win 3).blk t).view.emb (ix2 k q)) = V c main_v30 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega
theorem iblk0_4_apply (c : Dev nD) (t : Fin cfg0.N) (k : Fin 128) (q : Fin 128) :
    iblk0 V c 4 t (ix2 k q) = V c main_v31 (ix2 k q) := by
  obtain ⟨-, -, -, -, -, -, -, -, e0, e1, -⟩ := idx_facts0 t
  show V c main_v31 (((cfg0.win 4).blk t).view.emb (ix2 k q)) = V c main_v31 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega
theorem iblk0_5_apply (c : Dev nD) (t : Fin cfg0.N) (q : Fin 128) :
    iblk0 V c 5 t (ix2 (0 : Fin 1) q) = V c main_v32 (ix2 (0 : Fin 1) q) := by
  obtain ⟨-, -, -, -, -, -, -, -, -, -, e0, e1, -⟩ := idx_facts0 t
  show V c main_v32 (((cfg0.win 5).blk t).view.emb (ix2 (0 : Fin 1) q)) = V c main_v32 (ix2 (0 : Fin 1) q)
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 128 + 1 * q.val = q.val; omega

/-- What point `t` writes back is block `t` of the closed form of the arrays the region is entered with. -/
theorem flushed0_eq (c : Dev nD) (t : Fin cfg0.N) :
    (dat0 V c).flushed 6 t = ((cfg0.win 6).blk t).view.read (Elt Ideal)
      (comb0 (V c main_v29) (V c main_arg0) (V c main_v12) (V c main_v30) (V c main_v31) (V c main_v32)) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S5000x1) hz0, View.ld_unit_zero (S := S128x128) hz0,
    View.ld_unit_zero (S := S1x128) hz0]
  funext j
  obtain ⟨p, q, rfl⟩ : ∃ (p : Fin 5000) (q : Fin 128), j = ix2 p q := ⟨j 0, j 1, eq_ix2 j⟩
  have ht : t.val < 10 := lt_of_lt_of_eq t.isLt (show cfg0.N = 10 from N_0)
  have hr : t.val * 5000 + p.val < 50000 := by have := p.isLt; omega
  have hemb : ((cfg0.win 6).blk t).view.emb (ix2 p q) = (ix2 (⟨t.val * 5000 + p.val, hr⟩ : Fin 50000) q : S50000x128.Idx) := by
    obtain ⟨-, -, -, -, -, -, -, -, -, -, -, -, e0, e1⟩ := idx_facts0 t
    refine funext fun a => Fin.ext ?_
    match a with
    | ⟨0, _⟩ => show win0_6.index t (0 : Fin 2) * 5000 + 1 * p.val = t.val * 5000 + p.val; omega
    | ⟨1, _⟩ => show win0_6.index t (1 : Fin 2) * 128 + 1 * q.val = q.val; omega
  show k0_pay1 (F := Ideal) (iblk0 V c 0 t) (iblk0 V c 2 t) (iblk0 V c 1 t) (iblk0 V c 3 t) (iblk0 V c 4 t) (iblk0 V c 5 t) (ix2 p q)
    = comb0 (V c main_v29) (V c main_arg0) (V c main_v12) (V c main_v30) (V c main_v31) (V c main_v32) (((cfg0.win 6).blk t).view.emb (ix2 p q))
  rw [pay0_apply, hemb]
  simp only [iblk0_0_apply V c t p _ ⟨t.val * 5000 + p.val, hr⟩ rfl, iblk0_1_apply V c t p _ ⟨t.val * 5000 + p.val, hr⟩ rfl,
    iblk0_2_apply V c t p ⟨t.val * 5000 + p.val, hr⟩ rfl, iblk0_3_apply V c t, iblk0_4_apply V c t, iblk0_5_apply V c t]
  rfl

/-- An index of the array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v33).slice (win0_6.rect t)).set ↔ _
  rw [View.set_slice_whole, Rect.mem_set_unit]
  exact Iff.rfl

/-- Row `r` of the array is in the block of point `r / 5000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := lt_of_lt_of_eq (show (i 0).val / 5000 < 10 by omega) (show cfg0.N = 10 from N_0).symm
  obtain ⟨-, -, -, -, -, -, -, -, -, -, -, -, e0, e1⟩ := idx_facts0 ⟨(i 0).val / 5000, hN⟩
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- The region's output array after its run is the closed form of the arrays it is entered with. -/
theorem comb0_array (c : Dev nD) : (dat0 V c).arrAt 6 cfg0.N
    = comb0 (V c main_v29) (V c main_arg0) (V c main_v12) (V c main_v30) (V c main_v31) (V c main_v32) :=
  (dat0 V c).arrAt_eq_of_cover 6 _ (fun t _ => flushed0_eq V c t) cover0

/-- The same read at row `i`, column `j`. -/
theorem comb0_value (c : Dev nD) (i : Fin 50000) (j : Fin 128) :
    (dat0 V c).arrAt 6 cfg0.N (ix2 i j)
      = combAt (V c main_v29) (V c main_arg0) (V c main_v12) (V c main_v30) (V c main_v31) (V c main_v32) i j := by
  rw [comb0_array]
  rfl

end Cert.KernelIdeal.HandValue

end
-- ==== Proof.Comb1Value.lean ====
/- The value half of the second combine region (pipeline 1): its output array after the run, read at an index, as
   the same closed form of the arrays the region is entered with. -/
import proofs.«421662_j45767171506444_2_alg».proof.Proof.Comb1
import proofs.«421662_j45767171506444_2_alg».proof.Proof.Comb0Value

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-- The second region's payload at row `p`, column `q` of the block: the features arrive already narrowed. -/
theorem pay1_apply (x0 : Vec Ideal S5000x128 .f32) (x2 : Vec Ideal S5000x1 .f32) (x1 : Vec Ideal S5000x128 .bf16)
    (x3 : Vec Ideal S128x128 .f32) (x4 : Vec Ideal S128x128 .f32) (x5 : Vec Ideal S1x128 .f32) (p : Fin 5000) (q : Fin 128) :
    k1_pay1 (F := Ideal) x0 x2 x1 x3 x4 x5 (ix2 p q)
      = max (((∑ k : Fin 128, (x0 (ix2 p k) * x2 (ix2 p 0)) * x3 (ix2 k q)) + (∑ k : Fin 128, x1 (ix2 p k) * x4 (ix2 k q))) + x5 (ix2 0 q)) 0 := by
  unfold k1_pay1
  simp only [shapeCast_self]
  rw [truncf_apply, maximumf_apply, addf_apply, addf_apply, mm_apply, mm_apply, bcast_row_apply, broadcast_apply]
  simp only [truncf_apply, mulf_apply, bcast_col_apply]
  congr 1
  exact Ideal.ofBits_zero_f32

/-! ## From blocks to the array -/

variable (V : (c : Dev nD) → (b : Ref sig .tc) → Buf (Elt Ideal) ((c : Thread nD τ).loc b))

/-- The block index maps over the ten points: the three row-blocked inputs and the output are at row block `t`,
    the two weight matrices and the bias row are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Each input block read at an index of the block is its array read at the row the point's block starts at plus
    the row inside. -/
theorem iblk1_0_apply (c : Dev nD) (t : Fin cfg1.N) (p : Fin 5000) (k : Fin 128) (r : Fin 50000) (hr : r.val = t.val * 5000 + p.val) :
    iblk1 V c 0 t (ix2 p k) = V c main_v49 (ix2 r k) := by
  obtain ⟨e0, e1, -⟩ := idx_facts1 t
  show V c main_v49 (((cfg1.win 0).blk t).view.emb (ix2 p k)) = V c main_v49 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega
theorem iblk1_1_apply (c : Dev nD) (t : Fin cfg1.N) (p : Fin 5000) (k : Fin 128) (r : Fin 50000) (hr : r.val = t.val * 5000 + p.val) :
    iblk1 V c 1 t (ix2 p k) = V c main_v33 (ix2 r k) := by
  obtain ⟨-, -, e0, e1, -⟩ := idx_facts1 t
  show V c main_v33 (((cfg1.win 1).blk t).view.emb (ix2 p k)) = V c main_v33 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega
theorem iblk1_2_apply (c : Dev nD) (t : Fin cfg1.N) (p : Fin 5000) (r : Fin 50000) (hr : r.val = t.val * 5000 + p.val) :
    iblk1 V c 2 t (ix2 p (0 : Fin 1)) = V c main_v12 (ix2 r (0 : Fin 1)) := by
  obtain ⟨-, -, -, -, e0, e1, -⟩ := idx_facts1 t
  show V c main_v12 (((cfg1.win 2).blk t).view.emb (ix2 p (0 : Fin 1))) = V c main_v12 (ix2 r (0 : Fin 1))
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega
theorem iblk1_3_apply (c : Dev nD) (t : Fin cfg1.N) (k : Fin 128) (q : Fin 128) :
    iblk1 V c 3 t (ix2 k q) = V c main_v50 (ix2 k q) := by
  obtain ⟨-, -, -, -, -, -, e0, e1, -⟩ := idx_facts1 t
  show V c main_v50 (((cfg1.win 3).blk t).view.emb (ix2 k q)) = V c main_v50 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega
theorem iblk1_4_apply (c : Dev nD) (t : Fin cfg1.N) (k : Fin 128) (q : Fin 128) :
    iblk1 V c 4 t (ix2 k q) = V c main_v51 (ix2 k q) := by
  obtain ⟨-, -, -, -, -, -, -, -, e0, e1, -⟩ := idx_facts1 t
  show V c main_v51 (((cfg1.win 4).blk t).view.emb (ix2 k q)) = V c main_v51 (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega
theorem iblk1_5_apply (c : Dev nD) (t : Fin cfg1.N) (q : Fin 128) :
    iblk1 V c 5 t (ix2 (0 : Fin 1) q) = V c main_v52 (ix2 (0 : Fin 1) q) := by
  obtain ⟨-, -, -, -, -, -, -, -, -, -, e0, e1, -⟩ := idx_facts1 t
  show V c main_v52 (((cfg1.win 5).blk t).view.emb (ix2 (0 : Fin 1) q)) = V c main_v52 (ix2 (0 : Fin 1) q)
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 128 + 1 * q.val = q.val; omega

/-- What point `t` writes back is block `t` of the closed form of the arrays the region is entered with. -/
theorem flushed1_eq (c : Dev nD) (t : Fin cfg1.N) :
    (dat1 V c).flushed 6 t = ((cfg1.win 6).blk t).view.read (Elt Ideal)
      (comb0 (V c main_v49) (V c main_v33) (V c main_v12) (V c main_v50) (V c main_v51) (V c main_v52)) := by
  show (cfg1.win 6).cut (grid1.coords t) ((dat1 V c).after 6 t) = _
  rw [after1_6]
  unfold out1_6
  rw [View.canon_unit_zero hz0]
  simp only [View.ld_unit_zero (S := S5000x128) hz0, View.ld_unit_zero (S := S5000x1) hz0, View.ld_unit_zero (S := S128x128) hz0,
    View.ld_unit_zero (S := S1x128) hz0]
  funext j
  obtain ⟨p, q, rfl⟩ : ∃ (p : Fin 5000) (q : Fin 128), j = ix2 p q := ⟨j 0, j 1, eq_ix2 j⟩
  have ht : t.val < 10 := lt_of_lt_of_eq t.isLt (show cfg1.N = 10 from N_1)
  have hr : t.val * 5000 + p.val < 50000 := by have := p.isLt; omega
  have hemb : ((cfg1.win 6).blk t).view.emb (ix2 p q) = (ix2 (⟨t.val * 5000 + p.val, hr⟩ : Fin 50000) q : S50000x128.Idx) := by
    obtain ⟨-, -, -, -, -, -, -, -, -, -, -, -, e0, e1⟩ := idx_facts1 t
    refine funext fun a => Fin.ext ?_
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (F := Ideal) (iblk1 V c 0 t) (iblk1 V c 2 t) (iblk1 V c 1 t) (iblk1 V c 3 t) (iblk1 V c 4 t) (iblk1 V c 5 t) (ix2 p q)
    = comb0 (V c main_v49) (V c main_v33) (V c main_v12) (V c main_v50) (V c main_v51) (V c main_v52) (((cfg1.win 6).blk t).view.emb (ix2 p q))
  rw [pay1_apply, hemb]
  simp only [iblk1_0_apply V c t p _ ⟨t.val * 5000 + p.val, hr⟩ rfl, iblk1_1_apply V c t p _ ⟨t.val * 5000 + p.val, hr⟩ rfl,
    iblk1_2_apply V c t p ⟨t.val * 5000 + p.val, hr⟩ rfl, iblk1_3_apply V c t, iblk1_4_apply V c t, iblk1_5_apply V c t]
  rfl

/-- An index of the array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v53).slice (win1_6.rect t)).set ↔ _
  rw [View.set_slice_whole, Rect.mem_set_unit]
  exact Iff.rfl

/-- Row `r` of the array is in the block of point `r / 5000`. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := lt_of_lt_of_eq (show (i 0).val / 5000 < 10 by omega) (show cfg1.N = 10 from N_1).symm
  obtain ⟨-, -, -, -, -, -, -, -, -, -, -, -, e0, e1⟩ := idx_facts1 ⟨(i 0).val / 5000, hN⟩
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    rw [e1]; omega

/-- The region's output array after its run is the closed form of the arrays it is entered with. -/
theorem comb1_array (c : Dev nD) : (dat1 V c).arrAt 6 cfg1.N
    = comb0 (V c main_v49) (V c main_v33) (V c main_v12) (V c main_v50) (V c main_v51) (V c main_v52) :=
  (dat1 V c).arrAt_eq_of_cover 6 _ (fun t _ => flushed1_eq V c t) cover1

/-- The same read at row `i`, column `j`. -/
theorem comb1_value (c : Dev nD) (i : Fin 50000) (j : Fin 128) :
    (dat1 V c).arrAt 6 cfg1.N (ix2 i j)
      = combAt (V c main_v49) (V c main_v33) (V c main_v12) (V c main_v50) (V c main_v51) (V c main_v52) i j := by
  rw [comb1_array]
  rfl

end Cert.KernelIdeal.HandValue

end
-- ==== Proof.BridgeMath.lean ====
/-
  The algebra that joins the two programs, over the extended reals.
  * Multiplying by a reciprocal is dividing, when the divisor is not zero; a maximum with 1 is never zero.
  * One layer: the kernel scales each aggregated entry by the reciprocal of the clamped in-degree before the first
    matrix product and adds the bias last; the reference divides by the clamped in-degree and adds the bias between the
    two products. Entry by entry the scaled and the divided values agree, and the three summands are added in another
    order: addition of extended reals is commutative and associative.
  * Pooling: a product of a 0/1 indicator row with a column padded by zeros is the sum of the column's entries the
    indicator selects; the padded tail contributes nothing.
-/
import Idealize.ShloMosaic.PureOps.Ideal
import Mathlib.Algebra.BigOperators.Fin

noncomputable section

open scoped BigOperators

namespace Cert.Bridge.Math

open Idealize.ShloMosaic

/-- a · (1 / d) = a / d for a divisor that is not zero. -/
theorem mul_div_one (a d : EReal) (hd : d ≠ 0) : a * Ideal.div 1 d = Ideal.div a d := by
  unfold Ideal.div
  rw [if_neg hd, if_neg hd, one_mul]

/-- max(x, 1) ≥ 1 > 0. -/
theorem max_one_ne_zero (x : EReal) : max x 1 ≠ 0 :=
  ne_of_gt (lt_of_lt_of_le zero_lt_one (le_max_right x 1))

/-- One entry of a layer, before the clamp at zero: scaled-then-multiplied plus the second product plus the bias is
    divided-then-multiplied plus the bias plus the second product. -/
theorem layer_entry {K : Type} [Fintype K] (a x wl wr : K → EReal) (dinv d b : EReal) (hd : d ≠ 0)
    (hdinv : dinv = Ideal.div 1 d) :
    (∑ k, (a k * dinv) * wl k) + (∑ k, x k * wr k) + b
      = ((∑ k, (Ideal.div (a k) d) * wl k) + b) + ∑ k, x k * wr k := by
  subst hdinv
  simp only [mul_div_one _ _ hd]
  rw [add_right_comm]

/-- An indicator times a value is the value where the indicator holds and zero elsewhere. -/
theorem indicator_mul (p : Prop) [Decidable p] (h : EReal) : (if p then (1 : EReal) else 0) * h = if p then h else 0 := by
  split
  · rw [one_mul]
  · rw [zero_mul]

/-- A sum over 50048 entries whose last 48 vanish is the sum over the first 50000. -/
theorem sum_padded (f : Fin 50048 → EReal) (g : Fin 50000 → EReal)
    (h1 : ∀ n : Fin 50000, f ⟨n.val, by have := n.isLt; omega⟩ = g n)
    (h2 : ∀ n : Fin 50048, 50000 ≤ n.val → f n = 0) : ∑ n, f n = ∑ n, g n := by
  show ∑ n : Fin (50000 + 48), f n = _
  rw [Fin.sum_univ_add]
  have e1 : ∑ i : Fin 50000, f (Fin.castAdd 48 i) = ∑ n, g n :=
    Finset.sum_congr rfl fun i _ => h1 i
  have e2 : ∑ i : Fin 48, f (Fin.natAdd 50000 i) = 0 :=
    Finset.sum_eq_zero fun i _ => h2 _ (by show 50000 ≤ 50000 + i.val; omega)
  rw [e1, e2, add_zero]

end Cert.Bridge.Math

end
-- ==== Proof.BridgeLayers.lean ====
/- The two combine layers of the two programs agree, element by element: what each combine region leaves in its output
   array, read through the contents the region is entered with, is the reference's layer value. -/
import proofs.«421662_j45767171506444_2_alg».proof.Proof.HostLayers
import proofs.«421662_j45767171506444_2_alg».proof.Proof.Comb0Value
import proofs.«421662_j45767171506444_2_alg».proof.Proof.Comb1Value
import proofs.«421662_j45767171506444_2_alg».proof.Proof.RefLayers
import proofs.«421662_j45767171506444_2_alg».proof.Proof.BridgeMath

set_option maxRecDepth 16384

noncomputable section

open scoped BigOperators

namespace Cert.Bridge.Layers

open Cert.KernelIdeal Cert.KernelIdeal.Gen Cert.Bridge.Host
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

/-! ## Layer one -/

/-- One entry of the first combine region's closed form, at the contents the region is entered with, is the
    reference's first layer there: the scaled sum, the second product and the bias are the reference's three summands,
    added in another order. -/
theorem h1_entry (hdst : ∀ e : Fin 600000, (0 : Int) ≤ (x1 m c (ix2 (1 : Fin 2) e)).toInt) (i : Fin 50000) (j : Fin 128) :
    Cert.KernelIdeal.HandValue.combAt (V1 m c main_v29) (V1 m c main_arg0) (V1 m c main_v12) (V1 m c main_v30) (V1 m c main_v31) (V1 m c main_v32) i j
      = Cert.ReferenceIdeal.Read.val_main_v31 (F := Ideal) (x0 m c) (x1 m c) (x3 m c) (x4 m c) (x5 m c) (ix2 i j) := by
  rw [Cert.KernelIdeal.HandValue.combAt_def, Cert.Bridge.Ref.layer1 (x0 m c) (x1 m c) (x3 m c) (x4 m c) (x5 m c)]
  simp only [v1_WlT m c, v1_WrT m c, v1_b m c, v1_dinv m c]
  rw [v1_msg m c hdst, v1_x m c]
  exact congrArg (max · 0) (Cert.Bridge.Math.layer_entry _ _ _ _ _ _ _ (Cert.Bridge.Math.max_one_ne_zero _) rfl)

theorem h1_at (hdst : ∀ e : Fin 600000, (0 : Int) ≤ (x1 m c (ix2 (1 : Fin 2) e)).toInt)
    (h33 : outs 2 main_v33 c = (Cert.KernelIdeal.Hand.dat0 (F := Ideal) (fun c b => V1 m c b) c).arrAt 6 cfg0.N)
    (i : Fin 50000) (j : Fin 128) :
    (outs 2 main_v33 c : S50000x128.Idx → EReal) (ix2 i j)
      = Cert.ReferenceIdeal.Read.val_main_v31 (F := Ideal) (x0 m c) (x1 m c) (x3 m c) (x4 m c) (x5 m c) (ix2 i j) := by
  rw [h33]
  exact (Cert.KernelIdeal.HandValue.comb0_value (fun c b => V1 m c b) c i j).trans (h1_entry m c hdst i j)

/-- What the first region leaves is the reference's first layer, at every index. -/
theorem h1_eq (hdst : ∀ e : Fin 600000, (0 : Int) ≤ (x1 m c (ix2 (1 : Fin 2) e)).toInt)
    (h33 : outs 2 main_v33 c = (Cert.KernelIdeal.Hand.dat0 (F := Ideal) (fun c b => V1 m c b) c).arrAt 6 cfg0.N) :
    ∀ idx : S50000x128.Idx, (outs 2 main_v33 c : S50000x128.Idx → EReal) idx
      = Cert.ReferenceIdeal.Read.val_main_v31 (F := Ideal) (x0 m c) (x1 m c) (x3 m c) (x4 m c) (x5 m c) idx := by
  intro idx
  have e : idx = ix2 (n0 := 50000) (n1 := 128) (idx 0) (idx 1) := eq_ix2 idx
  exact (congrArg (outs 2 main_v33 c : S50000x128.Idx → EReal) e).trans
    ((h1_at m outs c hdst h33 (idx 0) (idx 1)).trans
      (congrArg (Cert.ReferenceIdeal.Read.val_main_v31 (F := Ideal) (x0 m c) (x1 m c) (x3 m c) (x4 m c) (x5 m c)) e).symm)

/-! ## Layer two -/

/-- The two in-degree arrays of the reference are one term. -/
theorem deg2_eq : Cert.ReferenceIdeal.Read.val_main_v45 (F := Ideal) (x1 m c) = Cert.ReferenceIdeal.Read.val_main_v17 (F := Ideal) (x1 m c) := rfl

/-- One entry of the second combine region's closed form, at the contents the region is entered with, is the
    reference's second layer there. -/
theorem h2_entry (hdst : ∀ e : Fin 600000, (0 : Int) ≤ (x1 m c (ix2 (1 : Fin 2) e)).toInt)
    (h33 : outs 2 main_v33 c = (Cert.KernelIdeal.Hand.dat0 (F := Ideal) (fun c b => V1 m c b) c).arrAt 6 cfg0.N)
    (i : Fin 50000) (j : Fin 128) :
    Cert.KernelIdeal.HandValue.combAt (V3 m outs c main_v49) (V3 m outs c main_v33) (V3 m outs c main_v12) (V3 m outs c main_v50) (V3 m outs c main_v51) (V3 m outs c main_v52) i j
      = Cert.ReferenceIdeal.Read.val_main_v59 (F := Ideal) (x0 m c) (x1 m c) (x3 m c) (x4 m c) (x5 m c) (x6 m c) (x7 m c) (x8 m c) (ix2 i j) := by
  rw [Cert.KernelIdeal.HandValue.combAt_def, Cert.Bridge.Ref.layer2 (x0 m c) (x1 m c) (x3 m c) (x4 m c) (x5 m c) (x6 m c) (x7 m c) (x8 m c), deg2_eq m c]
  simp only [v3_WlT m outs c, v3_WrT m outs c, v3_b m outs c, v3_dinv m outs c]
  rw [v3_msg' m outs c hdst (h1_eq m outs c hdst h33), v3_h m outs c]
  simp only [h1_eq m outs c hdst h33]
  exact congrArg (max · 0) (Cert.Bridge.Math.layer_entry _ _ _ _ _ _ _ (Cert.Bridge.Math.max_one_ne_zero _) rfl)

theorem h2_at (hdst : ∀ e : Fin 600000, (0 : Int) ≤ (x1 m c (ix2 (1 : Fin 2) e)).toInt)
    (h33 : outs 2 main_v33 c = (Cert.KernelIdeal.Hand.dat0 (F := Ideal) (fun c b => V1 m c b) c).arrAt 6 cfg0.N)
    (h53 : outs 4 main_v53 c = (Cert.KernelIdeal.Hand.dat1 (F := Ideal) (fun c b => V3 m outs c b) c).arrAt 6 cfg1.N)
    (i : Fin 50000) (j : Fin 128) :
    (outs 4 main_v53 c : S50000x128.Idx → EReal) (ix2 i j)
      = Cert.ReferenceIdeal.Read.val_main_v59 (F := Ideal) (x0 m c) (x1 m c) (x3 m c) (x4 m c) (x5 m c) (x6 m c) (x7 m c) (x8 m c) (ix2 i j) := by
  rw [h53]
  exact (Cert.KernelIdeal.HandValue.comb1_value (fun c b => V3 m outs c b) c i j).trans (h2_entry m outs c hdst h33 i j)

/-- What the second region leaves is the reference's second layer, at every index. -/
theorem h2_eq (hdst : ∀ e : Fin 600000, (0 : Int) ≤ (x1 m c (ix2 (1 : Fin 2) e)).toInt)
    (h33 : outs 2 main_v33 c = (Cert.KernelIdeal.Hand.dat0 (F := Ideal) (fun c b => V1 m c b) c).arrAt 6 cfg0.N)
    (h53 : outs 4 main_v53 c = (Cert.KernelIdeal.Hand.dat1 (F := Ideal) (fun c b => V3 m outs c b) c).arrAt 6 cfg1.N) :
    ∀ idx : S50000x128.Idx, (outs 4 main_v53 c : S50000x128.Idx → EReal) idx
      = Cert.ReferenceIdeal.Read.val_main_v59 (F := Ideal) (x0 m c) (x1 m c) (x3 m c) (x4 m c) (x5 m c) (x6 m c) (x7 m c) (x8 m c) idx := by
  intro idx
  have e : idx = ix2 (n0 := 50000) (n1 := 128) (idx 0) (idx 1) := eq_ix2 idx
  exact (congrArg (outs 4 main_v53 c : S50000x128.Idx → EReal) e).trans
    ((h2_at m outs c hdst h33 h53 (idx 0) (idx 1)).trans
      (congrArg (Cert.ReferenceIdeal.Read.val_main_v59 (F := Ideal) (x0 m c) (x1 m c) (x3 m c) (x4 m c) (x5 m c) (x6 m c) (x7 m c) (x8 m c)) e).symm)

end Cert.Bridge.Layers

end
-- ==== Proof.BridgePool.lean ====
/- The pooled sums of the two programs agree. The third region multiplies the 0/1 membership rows (padded with zero
   columns) by the second layer's rows (padded with zero rows); the reference adds, for each graph, the second layer's
   rows of its nodes. An indicator times a value is the value where the indicator holds, and the padded tail adds
   nothing. -/
import proofs.«421662_j45767171506444_2_alg».proof.Proof.HostLayers
import proofs.«421662_j45767171506444_2_alg».proof.Proof.RefLayers
import proofs.«421662_j45767171506444_2_alg».proof.Proof.BridgeMath

set_option maxRecDepth 16384

noncomputable section

open scoped BigOperators

namespace Cert.Bridge.PoolEq

open Cert.KernelIdeal Cert.KernelIdeal.Gen Cert.Bridge.Host
open Idealize.ShloMosaic Idealize.ShloMosaic.TcCoe Idealize.ShloMosaic.ValueIdx
open Idealize.SL.Sem Idealize.ShloMosaic.StableHlo

variable (m : (ℓ : Loc nD τ sig) → Buf (Elt Ideal) ℓ) (outs : Outs (F := Ideal)) (c : Dev nD)

/-- The graph-id words as launched. -/
abbrev x2 : (⟨S50000, .i32⟩ : BufTy).Contents (Elt Ideal) := m ((c.tc : Thread nD τ).loc main_arg2)

/-- The membership matrix the third region is entered with, as a function into the extended reals, -/
abbrev memberA : S64x50048.Idx → EReal := V8 m outs c main_v67
/-- the padded second-layer rows it is entered with, -/
abbrev paddedA : S50048x128.Idx → EReal := V8 m outs c main_v68
/-- what the second region leaves, -/
abbrev layer2A : S50000x128.Idx → EReal := outs 4 main_v53 c
/-- and what the third region leaves. -/
abbrev pooledA : S64x128.Idx → EReal := outs 9 main_v69 c

/-- The pooled sums agree at every graph and column. -/
theorem pool_eq_at
    (hpool : ∀ (g : Fin 64) (j : Fin 128), pooledA outs c (ix2 g j)
      = ∑ n : Fin 50048, memberA m outs c (ix2 g n) * paddedA m outs c (ix2 n j))
    (honehot : ∀ (g : Fin 64) (n : Fin 50048), memberA m outs c (ix2 g n)
      = if h : n.val < 50000 then (if (x2 m c (ix1 ⟨n.val, h⟩)).toInt = (g.val : Int) then (1 : EReal) else 0) else 0)
    (hpad : ∀ (n : Fin 50048) (j : Fin 128), paddedA m outs c (ix2 n j)
      = if h : n.val < 50000 then layer2A outs c (ix2 ⟨n.val, h⟩ j) else 0)
    (h2 : ∀ idx : S50000x128.Idx, layer2A outs c idx
      = Cert.ReferenceIdeal.Read.val_main_v59 (F := Ideal) (x0 m c) (x1 m c) (x3 m c) (x4 m c) (x5 m c) (x6 m c) (x7 m c) (x8 m c) idx)
    (g : Fin 64) (j : Fin 128) :
    pooledA outs c (ix2 g j)
      = Cert.ReferenceIdeal.Read.val_main_v62 (F := Ideal) (x0 m c) (x1 m c) (x2 m c) (x3 m c) (x4 m c) (x5 m c) (x6 m c) (x7 m c) (x8 m c) (ix2 g j) := by
  rw [hpool g j, Cert.Bridge.Ref.pool (x0 m c) (x1 m c) (x3 m c) (x4 m c) (x5 m c) (x6 m c) (x7 m c) (x8 m c) (x2 m c) g j]
  refine Cert.Bridge.Math.sum_padded _ _ (fun n => ?_) (fun n hn => ?_)
  · have hlt : n.val < 50000 := n.isLt
    show memberA m outs c (ix2 g ⟨n.val, _⟩) * paddedA m outs c (ix2 ⟨n.val, _⟩ j) = _
    rw [honehot, hpad, dif_pos hlt, dif_pos hlt, Cert.Bridge.Math.indicator_mul, h2]
  · have hge : ¬ n.val < 50000 := Nat.not_lt.mpr hn
    show memberA m outs c (ix2 g n) * paddedA m outs c (ix2 n j) = 0
    rw [honehot, dif_neg hge, zero_mul]

/-- The pooled sums agree. -/
theorem pool_eq
    (hpool : ∀ (g : Fin 64) (j : Fin 128), pooledA outs c (ix2 g j)
      = ∑ n : Fin 50048, memberA m outs c (ix2 g n) * paddedA m outs c (ix2 n j))
    (honehot : ∀ (g : Fin 64) (n : Fin 50048), memberA m outs c (ix2 g n)
      = if h : n.val < 50000 then (if (x2 m c (ix1 ⟨n.val, h⟩)).toInt = (g.val : Int) then (1 : EReal) else 0) else 0)
    (hpad : ∀ (n : Fin 50048) (j : Fin 128), paddedA m outs c (ix2 n j)
      = if h : n.val < 50000 then layer2A outs c (ix2 ⟨n.val, h⟩ j) else 0)
    (h2 : ∀ idx : S50000x128.Idx, layer2A outs c idx
      = Cert.ReferenceIdeal.Read.val_main_v59 (F := Ideal) (x0 m c) (x1 m c) (x3 m c) (x4 m c) (x5 m c) (x6 m c) (x7 m c) (x8 m c) idx)
    : ∀ idx : S64x128.Idx, pooledA outs c idx
      = Cert.ReferenceIdeal.Read.val_main_v62 (F := Ideal) (x0 m c) (x1 m c) (x2 m c) (x3 m c) (x4 m c) (x5 m c) (x6 m c) (x7 m c) (x8 m c) idx := by
  intro idx
  obtain ⟨g, j, rfl⟩ : ∃ (g : Fin 64) (j : Fin 128), idx = ix2 g j := ⟨idx 0, idx 1, eq_ix2 idx⟩
  exact pool_eq_at m outs c hpool honehot hpad h2 g j

end Cert.Bridge.PoolEq

end
-- ==== Proof.PreDecode.lean ====
/-
  The precondition read back. Its last conjunct says that every destination word of the edge list (row 1 of the
  [2, 600000] index array), read as a signed 32-bit integer, is non-negative: the conjunct is a reduction by "and"
  over the 600000 comparisons "word ≥ 0", and a reduction by "and" that comes out 1 met only 1s.
-/
import proofs.«421662_j45767171506444_2_alg».proof.Pre_finite_inputs
import Idealize.ShloMosaic.Lib.ReduceAll
import Idealize.ShloMosaic.Lib.ValueIdx
import Idealize.ShloMosaic.Lib.Pipeline.Value

noncomputable section

namespace Cert.Bridge.Pre

open Idealize.ShloMosaic Idealize.ShloMosaic.ValueIdx Cert.Pre_finite_inputs

variable [Facts]
open Facts

/-- The rank-0 shape has one index. -/
instance : Subsingleton S_.Idx := ⟨fun a b => funext fun d => d.elim0⟩

/-- Entry e of the reshaped row 1 of the index array is the array's entry (1, e). -/
theorem dst_word (a1 : IVec S2x600000 32) (e : Fin 600000) :
    shapeCast S600000 ((extractStridedSlice S1x600000 ![1, 0] · slices_S2x600000_S1x600000_1_0) a1) shapeCasts_S1x600000_S600000 (ix1 e)
      = a1 (ix2 (1 : Fin 2) e) := by
  have hc := shapeCast_apply ((extractStridedSlice S1x600000 ![1, 0] · slices_S2x600000_S1x600000_1_0) a1) shapeCasts_S1x600000_S600000
    (ix1 e) (ix2 (0 : Fin 1) e)
    (by rewrite [Shape.rowMajor_val_two, Shape.rowMajor_val_one]; show 0 * 600000 + e.val = e.val; omega)
  rw [hc]
  exact extractStridedSlice_apply ![1, 0] a1 slices_S2x600000_S1x600000_1_0 (ix2 (0 : Fin 1) e) (ix2 (1 : Fin 2) e) (fun a => match a with
    | ⟨0, _⟩ => by show 1 = 1 + 0; omega
    | ⟨1, _⟩ => by show e.val = 0 + e.val; omega)

/-- Under the precondition every destination word is non-negative as a signed integer. -/
theorem dst_nonneg {F : FTy → Type} [FloatOps F] (a0 : FVec F S50000x128 .f32) (a1 : IVec S2x600000 32) (a2 : IVec S50000 32)
    (a3 : FVec F S128x128 .f32) (a4 : FVec F S128 .f32) (a5 : FVec F S128x128 .f32) (a6 : FVec F S128x128 .f32)
    (a7 : FVec F S128 .f32) (a8 : FVec F S128x128 .f32) (a9 : FVec F S32x128 .f32) (a10 : FVec F S32 .f32)
    (h : fn (F := F) a0 a1 a2 a3 a4 a5 a6 a7 a8 a9 a10 = fun _ => 1#1) (e : Fin 600000) :
    (0 : Int) ≤ (a1 (ix2 (1 : Fin 2) e)).toInt := by
  have h0 := congrFun h ix0
  dsimp only [fn, fn_part1, fn_part2] at h0
  have h1 := (IntOp.andi_eq_one.1 h0).2
  have h2 := Host.reduce_andi_all _ _ _ _ ix0 h1 (ix1 e)
  have h3 := IntOp.cmpi_sge.1 h2
  rw [dst_word a1 e] at h3
  exact h3

end Cert.Bridge.Pre

end
-- ==== Proof.Bridge.lean ====
/-
  The kernel's result is the reference's result, as functions of the arguments.
  Under the precondition the destination words are non-negative; then layer by layer what the kernel's regions leave is
  what the reference's stages compute (the two layer outputs, the pooled sums), and the last host operations are the
  same on both sides.
-/
import proofs.«421662_j45767171506444_2_alg».proof.Defs
import proofs.«421662_j45767171506444_2_alg».proof.Proof.Gen.Pre_finite_inputs
import proofs.«421662_j45767171506444_2_alg».proof.Proof.Run
import proofs.«421662_j45767171506444_2_alg».proof.Proof.PoolValue
import proofs.«421662_j45767171506444_2_alg».proof.Proof.HostPool
import proofs.«421662_j45767171506444_2_alg».proof.Proof.HostTail
import proofs.«421662_j45767171506444_2_alg».proof.Proof.BridgeTail
import proofs.«421662_j45767171506444_2_alg».proof.Proof.BridgeLayers
import proofs.«421662_j45767171506444_2_alg».proof.Proof.BridgePool
import proofs.«421662_j45767171506444_2_alg».proof.Proof.PreDecode

noncomputable section

namespace Cert.Bridge

open Cert.KernelIdeal Cert.KernelIdeal.Gen
open Idealize.ShloMosaic Idealize.ShloMosaic.TcCoe Idealize.ShloMosaic.ValueIdx Idealize.SL.Sem
open Cert.Bridge.Host

variable (m : (ℓ : Loc nD τ sig) → Buf (Elt Ideal) ℓ) (c : Dev nD)

/-- The destination words are non-negative under the precondition. -/
theorem hdst (hpre : Cert.Pre_KernelIdeal m) : ∀ e : Fin 600000, (0 : Int) ≤ (x1 m c (ix2 (1 : Fin 2) e)).toInt :=
  fun e => Cert.Bridge.Pre.dst_nonneg _ _ _ _ _ _ _ _ _ _ _ (hpre c) e

/-- The kernel's result array is the reference's last stage of the same arguments. -/
theorem kernel_result (hpre : Cert.Pre_KernelIdeal m) :
    (V10 m (Cert.KernelIdeal.Hand.outs m) c main_v83 : FVec Ideal S64x32 .f32)
      = Cert.ReferenceIdeal.Read.val_main_v76 (F := Ideal) (x0 m c) (x1 m c) (Cert.Bridge.PoolEq.x2 m c) (x3 m c) (x4 m c) (x5 m c)
          (x6 m c) (x7 m c) (x8 m c) (m ((c.tc : Thread nD τ).loc main_arg9)) (m ((c.tc : Thread nD τ).loc main_arg10)) := by
  have hd := hdst m c hpre
  have h33 := Cert.KernelIdeal.Hand.outs_33 m c
  have h53 := Cert.KernelIdeal.Hand.outs_53 m c
  have h69 := Cert.KernelIdeal.Hand.outs_69 m c
  have h2 := Cert.Bridge.Layers.h2_eq m (Cert.KernelIdeal.Hand.outs m) c hd h33 h53
  have hpool : ∀ (g : Fin 64) (j : Fin 128), Cert.Bridge.PoolEq.pooledA (Cert.KernelIdeal.Hand.outs m) c (ix2 g j)
      = ∑ n : Fin 50048, Cert.Bridge.PoolEq.memberA m (Cert.KernelIdeal.Hand.outs m) c (ix2 g n) * Cert.Bridge.PoolEq.paddedA m (Cert.KernelIdeal.Hand.outs m) c (ix2 n j) := by
    intro g j
    have hv := Cert.KernelIdeal.HandValue.pool_value (fun c b => V8 m (Cert.KernelIdeal.Hand.outs m) c b) c g j
    show (Cert.KernelIdeal.Hand.outs m 9 main_v69 c : FVec Ideal S64x128 .f32) (ix2 g j) = _
    rw [h69]
    exact hv
  have hp := Cert.Bridge.PoolEq.pool_eq m (Cert.KernelIdeal.Hand.outs m) c hpool
    (v8_onehot m (Cert.KernelIdeal.Hand.outs m) c) (v8_pad m (Cert.KernelIdeal.Hand.outs m) c) h2
  rw [v10_tail m (Cert.KernelIdeal.Hand.outs m) c, Cert.Bridge.Tail.tail_same, Cert.Bridge.Ref.tail_eq]
  exact congrArg (fun g => Cert.Bridge.Ref.Ttail g _ _ _) (funext hp)

end Cert.Bridge

end
-- ==== Proof.lean ====
/-
  The five claims of the certificate.
  The two kernel programs (the word-level one and its idealization) run three pipelined regions between stretches of host
  operations: two SAGE combine layers, relu((agg · deg⁻¹) · Wlᵀ + x · Wrᵀ + b), and a mean-pool numerator computed as
  a product with a 0/1 graph-membership matrix, accumulated block by block in a scratch buffer. Their frames are
  assembled from one segment record per region. The reference is a host program; its frame is its run.
  The value claim: under the precondition every destination word of the edge list is non-negative, so the kernel's
  "wrap if negative" of the destination words is the identity and both programs scatter the same rows to the same
  places; layer by layer the two programs then compute the same function of the arguments over the extended reals
  (multiplying by the reciprocal of the clamped in-degree is dividing by it; the order of three summands differs), the
  membership-matrix product is the scatter-add by graph id, and the last host operations are the same on both sides.
-/
import proofs.«421662_j45767171506444_2_alg».proof.Defs
import proofs.«421662_j45767171506444_2_alg».proof.Proof.Gen.Kernel
import proofs.«421662_j45767171506444_2_alg».proof.Proof.Gen.KernelIdeal
import proofs.«421662_j45767171506444_2_alg».proof.Proof.Gen.ReferenceIdeal
import proofs.«421662_j45767171506444_2_alg».proof.Proof.Gen.Pre_finite_inputs
import proofs.«421662_j45767171506444_2_alg».proof.Proof.RefRun
import proofs.«421662_j45767171506444_2_alg».proof.Proof.Run
import proofs.«421662_j45767171506444_2_alg».proof.Proof.KRun
import proofs.«421662_j45767171506444_2_alg».proof.Proof.Bridge
import Idealize.ShloMosaic.Adequacy
import Idealize.ShloMosaic.Init

noncomputable section

namespace Cert.Proof

open Idealize.ShloMosaic Idealize.ShloMosaic.TcCoe Idealize.SL.Sem

/-- The word-level program: the three regions' segment records and the launch. -/
theorem frame_k : Cert.frame_Kernel := fun m ρ _ => Cert.Kernel.Hand.frame m ρ

/-- The idealized program: the same records at the extended reals. -/
theorem frame_ki : Cert.frame_KernelIdeal := fun m ρ _ => Cert.KernelIdeal.Hand.frame m ρ

/-- The reference is a host program: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs run; the kernel's result array is what its last host stretch makes of the pooled sums, the reference's
    its last stage; from memories agreeing on the arguments the two are one function of the arguments. -/
theorem algebraic : Cert.algebraic_KernelIdeal_ReferenceIdeal := by
  intro m ρ m' ρ' hpre hagree
  refine ⟨fun c => Cert.KernelIdeal.Gen.V10 m (Cert.KernelIdeal.Hand.outs m) c Cert.KernelIdeal.main_v83,
    Cert.KernelIdeal.Hand.result_83 m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.Bridge.Ref.result_eq m' c, e0, e1, e2, e3, e4, e5, e6, e7, e8, e9, e10]
  exact (Cert.Bridge.kernel_result m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
